-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x262144x4 : Shape := ⟨3, ![16, 262144, 4]⟩
abbrev S262144x4 : Shape := ⟨2, ![262144, 4]⟩
abbrev S16x128x4 : Shape := ⟨3, ![16, 128, 4]⟩
abbrev S16x262144 : Shape := ⟨2, ![16, 262144]⟩
abbrev S_ : Shape := ⟨0, ![]⟩

class Facts : Prop where
  bcast_S_S16x262144x4 : S_.BroadcastsInDim S16x262144x4 (![] : Fin 0 → Fin S16x262144x4.rank)
  reducesTo_S16x262144x4_S_d0_1_2 : S16x262144x4.ReducesTo [0, 1, 2] S_
  h_S_ : 0 < S_.numel
  bcast_S_S262144x4 : S_.BroadcastsInDim S262144x4 (![] : Fin 0 → Fin S262144x4.rank)
  reducesTo_S262144x4_S_d0_1 : S262144x4.ReducesTo [0, 1] S_
  bcast_S_S16x128x4 : S_.BroadcastsInDim S16x128x4 (![] : Fin 0 → Fin S16x128x4.rank)
  reducesTo_S16x128x4_S_d0_1_2 : S16x128x4.ReducesTo [0, 1, 2] S_

variable [Facts]

def fn {F : FTy → Type} [FloatOps F] (main_arg0 : FVec F S16x262144x4 .f32) (main_arg1 : FVec F S262144x4 .f32) (main_arg2 : FVec F S16x128x4 .f32) (main_arg3 : IVec S16x262144 32) : IVec S_ 1 :=
  let main_v0 : FVec F S16x262144x4 .f32 := Host.absf main_arg0
  let main_cst : FVec F S_ .f32 := constant S_ .f32 0x7F800000#32
  let main_v1 : FVec F S16x262144x4 .f32 := broadcastInDim S16x262144x4 ![] bcast_S_S16x262144x4 main_cst
  let main_v2 : IVec S16x262144x4 1 := cmpf .olt main_v0 main_v1
  let main_c : IVec S_ 1 := constantI S_ 1 1#1
  let main_v3 : IVec S_ 1 := (fun x v => Host.reduce IntOp.andi x v reducesTo_S16x262144x4_S_d0_1_2 h_S_) main_v2 main_c
  let main_v4 : FVec F S262144x4 .f32 := Host.absf main_arg1
  let main_cst_0 : FVec F S_ .f32 := constant S_ .f32 0x7F800000#32
  let main_v5 : FVec F S262144x4 .f32 := broadcastInDim S262144x4 ![] bcast_S_S262144x4 main_cst_0
  let main_v6 : IVec S262144x4 1 := cmpf .olt main_v4 main_v5
  let main_c_1 : IVec S_ 1 := constantI S_ 1 1#1
  let main_v7 : IVec S_ 1 := (fun x v => Host.reduce IntOp.andi x v reducesTo_S262144x4_S_d0_1 h_S_) main_v6 main_c_1
  let main_v8 : IVec S_ 1 := andi main_v3 main_v7
  let main_v9 : FVec F S16x128x4 .f32 := Host.absf main_arg2
  let main_cst_2 : FVec F S_ .f32 := constant S_ .f32 0x7F800000#32
  let main_v10 : FVec F S16x128x4 .f32 := broadcastInDim S16x128x4 ![] bcast_S_S16x128x4 main_cst_2
  let main_v11 : IVec S16x128x4 1 := cmpf .olt main_v9 main_v10
  let main_c_3 : IVec S_ 1 := constantI S_ 1 1#1
  let main_v12 : IVec S_ 1 := (fun x v => Host.reduce IntOp.andi x v reducesTo_S16x128x4_S_d0_1_2 h_S_) main_v11 main_c_3
  let main_v13 : IVec S_ 1 := andi main_v8 main_v12
  main_v13
-- ==== Kernel.lean ====
abbrev S16x262144x4 : Shape := ⟨3, ![16, 262144, 4]⟩
abbrev S262144x4 : Shape := ⟨2, ![262144, 4]⟩
abbrev S16x128x4 : Shape := ⟨3, ![16, 128, 4]⟩
abbrev S16x262144 : Shape := ⟨2, ![16, 262144]⟩
abbrev S16x1x262144 : Shape := ⟨3, ![16, 1, 262144]⟩
abbrev S4x262144 : Shape := ⟨2, ![4, 262144]⟩
abbrev S16x4x128 : Shape := ⟨3, ![16, 4, 128]⟩
abbrev S16x1x1 : Shape := ⟨3, ![16, 1, 1]⟩
abbrev S1x4096x4 : Shape := ⟨3, ![1, 4096, 4]⟩
abbrev S1x1x4096 : Shape := ⟨3, ![1, 1, 4096]⟩
abbrev S1x4x128 : Shape := ⟨3, ![1, 4, 128]⟩
abbrev S1x1x1 : Shape := ⟨3, ![1, 1, 1]⟩
abbrev S1x1 : Shape := ⟨2, ![1, 1]⟩
abbrev S1x4096 : Shape := ⟨2, ![1, 4096]⟩
abbrev S128x4096 : Shape := ⟨2, ![128, 4096]⟩
abbrev S4x128 : Shape := ⟨2, ![4, 128]⟩
abbrev S4x4096 : Shape := ⟨2, ![4, 4096]⟩
abbrev S4096x4 : Shape := ⟨2, ![4096, 4]⟩
abbrev S4096 : Shape := ⟨1, ![4096]⟩
abbrev S1 : Shape := ⟨1, ![1]⟩
abbrev S16 : Shape := ⟨1, ![16]⟩
abbrev S_ : Shape := ⟨0, ![]⟩

abbrev nBuf : Space → Nat
  | .hbm => 13
  | .vmem => 11
  | .smem => 0
  | _ => 0

abbrev bufTy : (tb : Table) → Fin (tcTables nBuf tb) → BufTy
  | .hbm, ⟨0, _⟩ => ⟨S16x262144x4, .f32⟩
  | .hbm, ⟨1, _⟩ => ⟨S262144x4, .f32⟩
  | .hbm, ⟨2, _⟩ => ⟨S16x128x4, .f32⟩
  | .hbm, ⟨3, _⟩ => ⟨S16x262144, .i32⟩
  | .hbm, ⟨4, _⟩ => ⟨S16x1x262144, .i32⟩
  | .hbm, ⟨5, _⟩ => ⟨S4x262144, .f32⟩
  | .hbm, ⟨6, _⟩ => ⟨S16x4x128, .f32⟩
  | .hbm, ⟨7, _⟩ => ⟨S16x1x1, .f32⟩
  | .hbm, ⟨8, _⟩ => ⟨S16, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x4096x4, .f32⟩
  | .local _ .vmem, ⟨1, _⟩ => ⟨S1x4096x4, .f32⟩
  | .local _ .vmem, ⟨2, _⟩ => ⟨S1x1x4096, .i32⟩
  | .local _ .vmem, ⟨3, _⟩ => ⟨S1x1x4096, .i32⟩
  | .local _ .vmem, ⟨4, _⟩ => ⟨S1x4x128, .f32⟩
  | .local _ .vmem, ⟨5, _⟩ => ⟨S1x4x128, .f32⟩
  | .local _ .vmem, ⟨6, _⟩ => ⟨S4x262144, .f32⟩
  | .local _ .vmem, ⟨7, _⟩ => ⟨S1x1x1, .f32⟩
  | .local _ .vmem, ⟨8, _⟩ => ⟨S1x1x1, .f32⟩
  | .local _ .vmem, ⟨9, _⟩ => ⟨S1x1, .f32⟩
  | .local _ .vmem, ⟨10, _⟩ => ⟨S1x1, .f32⟩
  | _, _ => ⟨S16x262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 64], ![false, false]⟩

def k0_mult1 (i : grid0.Coords) : BitVec 32 :=
  let arg1 : BitVec 32 := BitVec.ofNat 32 (i 1).val
  let c4096_i32 : BitVec 32 := 4096#32
  let v17 : BitVec 32 := Scalar.muli arg1 c4096_i32
  v17
def k0_off1 (i : grid0.Coords) : Fin 2 → Nat :=
  let c0_8 : Index := 0#32
  let arg1 : BitVec 32 := BitVec.ofNat 32 (i 1).val
  let c4096_i32 : BitVec 32 := 4096#32
  let v17 : BitVec 32 := Scalar.muli arg1 c4096_i32
  let v18 : BitVec 32 := v17
  let v19 : Index := Scalar.indexCast v18
  ![0, v19.toNat]
def k0_cond2 (i : grid0.Coords) : BitVec 1 :=
  let arg1 : BitVec 32 := BitVec.ofNat 32 (i 1).val
  let c63_i32 : BitVec 32 := 63#32
  let v84 : BitVec 1 := Scalar.cmpi .eq arg1 c63_i32
  let v85 : BitVec 32 := Scalar.extui v84
  let c0_i32_28 : BitVec 32 := 0#32
  let v86 : BitVec 1 := Scalar.cmpi .ne v85 c0_i32_28
  v86

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x262144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S16x262144_S16x1x262144_0_2 : S16x262144.BroadcastsInDim S16x1x262144 (![0, 2] : Fin 2 → Fin S16x1x262144.rank)
  transposes_S262144x4_S4x262144_1_0 : S262144x4.Transposes [1, 0] S4x262144
  transposes_S16x128x4_S16x4x128_0_2_1 : S16x128x4.Transposes [0, 2, 1] S16x4x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  iota_S128x4096_d0_w32 : S128x4096.Iotas .tc 32 [0]
  broadcasts_S1x4096_S128x4096 : S1x4096.Broadcasts S128x4096
  natLt_1_32 : 1 < 32
  inb_S1x4x128_S1x4x128_0_0_0 : ∀ a, (![0, 0, 0] : Fin 3 → Nat) a + S1x4x128.size a ≤ S1x4x128.size a
  h_S1x4x128 : 0 < S1x4x128.numel
  shapeCasts_S1x4x128_S4x128 : S1x4x128.ShapeCasts S4x128
  h_S4x4096 : 0 < S4x4096.numel
  shapeCasts_S4x4096_S4x4096 : S4x4096.ShapeCasts S4x4096
  slices_S4x4096_o2_0_S1x4096 : S4x4096.Slices ![2, 0] S1x4096
  slices_S4x4096_o0_0_S1x4096 : S4x4096.Slices ![0, 0] S1x4096
  slices_S4x4096_o3_0_S1x4096 : S4x4096.Slices ![3, 0] S1x4096
  slices_S4x4096_o1_0_S1x4096 : S4x4096.Slices ![1, 0] S1x4096
  concatenates_S1x4096_S1x4096_S1x4096_S1x4096_S4x4096_d0 : Shape.Concatenates [S1x4096, S1x4096, S1x4096, S1x4096] S4x4096 0
  inb_S1x4096x4_S1x4096x4_0_0_0 : ∀ a, (![0, 0, 0] : Fin 3 → Nat) a + S1x4096x4.size a ≤ S1x4096x4.size a
  h_S1x4096x4 : 0 < S1x4096x4.numel
  shapeCasts_S1x4096x4_S4096x4 : S1x4096x4.ShapeCasts S4096x4
  transposes_S4096x4_p1_0_S4x4096 : S4096x4.Transposes [1, 0] S4x4096
  reduces_S4x4096_S4096 : S4x4096.Reduces [0] S4096
  shapeCasts_S4096_S1x4096 : S4096.ShapeCasts S1x4096
  reduces_S1x4096_S1 : S1x4096.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S16x1x1_S16 : S16x1x1.ShapeCasts S16
  reducesTo_S16_S_d0 : S16.ReducesTo [0] S_
  h_S_ : 0 < S_.numel
  dot_S4x128_S128x4096_S4x4096_1_0_0_1_n_n_wf : DotDims.WF S4x128 S128x4096 S4x4096 [1] [0] [0] [1] [] []
  hrank0 : 0 < grid0.rank
  k0_mult1_dvd : ∀ i : grid0.Coords, 4096 ∣ (k0_mult1 i).toNat
  k0_off1_inb : ∀ i : grid0.Coords, ∀ a, (k0_off1 i) a + S4x4096.size a ≤ S4x262144.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x4.size a ≤ S16x262144x4.size a
  hwx0_0 : ∀ i : grid0.Coords, EltTy.bits .f32 = 32 ∨ (Rect.block (s := S16x262144x4) S1x4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S16x1x262144.size a
  hwx0_1 : ∀ i : grid0.Coords, EltTy.bits .i32 = 32 ∨ (Rect.block (s := S16x1x262144) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x128.size a ≤ S16x4x128.size a
  hwx0_2 : ∀ i : grid0.Coords, EltTy.bits .f32 = 32 ∨ (Rect.block (s := S16x4x128) S1x4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x262144.size a ≤ S4x262144.size a
  hwx0_3 : ∀ i : grid0.Coords, EltTy.bits .f32 = 32 ∨ (Rect.block (s := S4x262144) S4x262144.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S16x1x1.size a
  hwx0_4 : ∀ i : grid0.Coords, EltTy.bits .f32 = 32 ∨ (Rect.block (s := S16x1x1) S1x1x1.size (cc0_transform_4 i) (hinb0_4 i)).WholeWords (EltTy.packing .f32)

variable [Facts₀]

def dot_S4x128_S128x4096_S4x4096_1_0_0_1_n_n : DotDims S4x128 S128x4096 S4x4096 where
  lhsContracting := [1]
  rhsContracting := [0]
  lhsNonContracting := [0]
  rhsNonContracting := [1]
  lhsBatch := []
  rhsBatch := []
  wf := dot_S4x128_S128x4096_S4x4096_1_0_0_1_n_n_wf

abbrev win0_0 : Pipeline.Window sig grid0 :=
  Pipeline.Window.ofSpec (Memref.whole main_arg0) S1x4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x262144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x262144x4 : Shape := ⟨3, ![16, 262144, 4]⟩
abbrev S262144x4 : Shape := ⟨2, ![262144, 4]⟩
abbrev S16x128x4 : Shape := ⟨3, ![16, 128, 4]⟩
abbrev S16x262144 : Shape := ⟨2, ![16, 262144]⟩
abbrev S_ : Shape := ⟨0, ![]⟩
abbrev S16x262144x1 : Shape := ⟨3, ![16, 262144, 1]⟩
abbrev S1 : Shape := ⟨1, ![1]⟩
abbrev S1x1x1 : Shape := ⟨3, ![1, 1, 1]⟩
abbrev S1x262144x4 : Shape := ⟨3, ![1, 262144, 4]⟩
abbrev S1x262144x1 : Shape := ⟨3, ![1, 262144, 1]⟩
abbrev S1x262144 : Shape := ⟨2, ![1, 262144]⟩
abbrev S16 : Shape := ⟨1, ![16]⟩

abbrev nBuf : Space → Nat
  | .hbm => 119
  | .vmem => 0
  | .smem => 0
  | _ => 0

abbrev bufTy : (tb : Table) → Fin (tcTables nBuf tb) → BufTy
  | .hbm, ⟨0, _⟩ => ⟨S16x262144x4, .f32⟩
  | .hbm, ⟨1, _⟩ => ⟨S262144x4, .f32⟩
  | .hbm, ⟨2, _⟩ => ⟨S16x128x4, .f32⟩
  | .hbm, ⟨3, _⟩ => ⟨S16x262144, .i32⟩
  | .hbm, ⟨4, _⟩ => ⟨S_, .i32⟩
  | .hbm, ⟨5, _⟩ => ⟨S16x262144, .i32⟩
  | .hbm, ⟨6, _⟩ => ⟨S16x262144, .i1⟩
  | .hbm, ⟨7, _⟩ => ⟨S_, .i32⟩
  | .hbm, ⟨8, _⟩ => ⟨S16x262144, .i32⟩
  | .hbm, ⟨9, _⟩ => ⟨S16x262144, .i32⟩
  | .hbm, ⟨10, _⟩ => ⟨S16x262144x1, .i32⟩
  | .hbm, ⟨11, _⟩ => ⟨S_, .i32⟩
  | .hbm, ⟨12, _⟩ => ⟨S16x262144x1, .i32⟩
  | .hbm, ⟨13, _⟩ => ⟨S16x262144x1, .i1⟩
  | .hbm, ⟨14, _⟩ => ⟨S_, .i32⟩
  | .hbm, ⟨15, _⟩ => ⟨S16x262144x1, .i32⟩
  | .hbm, ⟨16, _⟩ => ⟨S16x262144x1, .i32⟩
  | .hbm, ⟨17, _⟩ => ⟨S16x262144x1, .i32⟩
  | .hbm, ⟨18, _⟩ => ⟨S1, .i32⟩
  | .hbm, ⟨19, _⟩ => ⟨S_, .i32⟩
  | .hbm, ⟨20, _⟩ => ⟨S16x262144x1, .i32⟩
  | .hbm, ⟨21, _⟩ => ⟨S16x262144x1, .i1⟩
  | .hbm, ⟨22, _⟩ => ⟨S1x1x1, .i32⟩
  | .hbm, ⟨23, _⟩ => ⟨S16x262144x1, .i32⟩
  | .hbm, ⟨24, _⟩ => ⟨S16x262144x1, .i1⟩
  | .hbm, ⟨25, _⟩ => ⟨S16x262144x1, .i1⟩
  | .hbm, ⟨26, _⟩ => ⟨S_, .i1⟩
  | .hbm, ⟨27, _⟩ => ⟨S16x262144, .i1⟩
  | .hbm, ⟨28, _⟩ => ⟨S16x262144x4, .f32⟩
  | .hbm, ⟨29, _⟩ => ⟨S16x262144x4, .i1⟩
  | .hbm, ⟨30, _⟩ => ⟨S_, .f32⟩
  | .hbm, ⟨31, _⟩ => ⟨S16x262144x4, .f32⟩
  | .hbm, ⟨32, _⟩ => ⟨S16x262144x4, .f32⟩
  | .hbm, ⟨33, _⟩ => ⟨S1x262144x4, .f32⟩
  | .hbm, ⟨34, _⟩ => ⟨S1x262144x1, .f32⟩
  | .hbm, ⟨35, _⟩ => ⟨S1x262144, .f32⟩
  | .hbm, ⟨36, _⟩ => ⟨S1x262144x1, .f32⟩
  | .hbm, ⟨37, _⟩ => ⟨S1x262144, .f32⟩
  | .hbm, ⟨38, _⟩ => ⟨S1x262144, .f32⟩
  | .hbm, ⟨39, _⟩ => ⟨S1x262144x1, .f32⟩
  | .hbm, ⟨40, _⟩ => ⟨S1x262144, .f32⟩
  | .hbm, ⟨41, _⟩ => ⟨S1x262144x1, .f32⟩
  | .hbm, ⟨42, _⟩ => ⟨S1x262144, .f32⟩
  | .hbm, ⟨43, _⟩ => ⟨S1x262144, .f32⟩
  | .hbm, ⟨44, _⟩ => ⟨S1x262144x1, .f32⟩
  | .hbm, ⟨45, _⟩ => ⟨S1x262144, .f32⟩
  | .hbm, ⟨46, _⟩ => ⟨S_, .f32⟩
  | .hbm, ⟨47, _⟩ => ⟨S1x262144, .f32⟩
  | .hbm, ⟨48, _⟩ => ⟨S1x262144, .f32⟩
  | .hbm, ⟨49, _⟩ => ⟨S1x262144, .f32⟩
  | .hbm, ⟨50, _⟩ => ⟨S1x262144x1, .f32⟩
  | .hbm, ⟨51, _⟩ => ⟨S1x262144, .f32⟩
  | .hbm, ⟨52, _⟩ => ⟨S_, .f32⟩
  | .hbm, ⟨53, _⟩ => ⟨S1x262144, .f32⟩
  | .hbm, ⟨54, _⟩ => ⟨S1x262144, .f32⟩
  | .hbm, ⟨55, _⟩ => ⟨S1x262144, .f32⟩
  | .hbm, ⟨56, _⟩ => ⟨S16x262144x1, .f32⟩
  | .hbm, ⟨57, _⟩ => ⟨S16x262144, .f32⟩
  | .hbm, ⟨58, _⟩ => ⟨S16x262144x1, .f32⟩
  | .hbm, ⟨59, _⟩ => ⟨S16x262144, .f32⟩
  | .hbm, ⟨60, _⟩ => ⟨S16x262144, .f32⟩
  | .hbm, ⟨61, _⟩ => ⟨S16x262144x1, .f32⟩
  | .hbm, ⟨62, _⟩ => ⟨S16x262144, .f32⟩
  | .hbm, ⟨63, _⟩ => ⟨S16x262144x1, .f32⟩
  | .hbm, ⟨64, _⟩ => ⟨S16x262144, .f32⟩
  | .hbm, ⟨65, _⟩ => ⟨S16x262144, .f32⟩
  | .hbm, ⟨66, _⟩ => ⟨S16x262144x1, .f32⟩
  | .hbm, ⟨67, _⟩ => ⟨S16x262144, .f32⟩
  | .hbm, ⟨68, _⟩ => ⟨S_, .f32⟩
  | .hbm, ⟨69, _⟩ => ⟨S16x262144, .f32⟩
  | .hbm, ⟨70, _⟩ => ⟨S16x262144, .f32⟩
  | .hbm, ⟨71, _⟩ => ⟨S16x262144, .f32⟩
  | .hbm, ⟨72, _⟩ => ⟨S16x262144x1, .f32⟩
  | .hbm, ⟨73, _⟩ => ⟨S16x262144, .f32⟩
  | .hbm, ⟨74, _⟩ => ⟨S_, .f32⟩
  | .hbm, ⟨75, _⟩ => ⟨S16x262144, .f32⟩
  | .hbm, ⟨76, _⟩ => ⟨S16x262144, .f32⟩
  | .hbm, ⟨77, _⟩ => ⟨S16x262144, .f32⟩
  | .hbm, ⟨78, _⟩ => ⟨S16x262144, .f32⟩
  | .hbm, ⟨79, _⟩ => ⟨S16x262144, .f32⟩
  | .hbm, ⟨80, _⟩ => ⟨S16x262144, .f32⟩
  | .hbm, ⟨81, _⟩ => ⟨S16x262144, .f32⟩
  | .hbm, ⟨82, _⟩ => ⟨S16x262144, .f32⟩
  | .hbm, ⟨83, _⟩ => ⟨S16x262144, .f32⟩
  | .hbm, ⟨84, _⟩ => ⟨S16x262144, .f32⟩
  | .hbm, ⟨85, _⟩ => ⟨S16x262144, .f32⟩
  | .hbm, ⟨86, _⟩ => ⟨S16x262144, .f32⟩
  | .hbm, ⟨87, _⟩ => ⟨S16x262144, .f32⟩
  | .hbm, ⟨88, _⟩ => ⟨S16x262144, .f32⟩
  | .hbm, ⟨89, _⟩ => ⟨S16x262144, .f32⟩
  | .hbm, ⟨90, _⟩ => ⟨S16x262144, .f32⟩
  | .hbm, ⟨91, _⟩ => ⟨S16x262144, .f32⟩
  | .hbm, ⟨92, _⟩ => ⟨S16x262144x1, .f32⟩
  | .hbm, ⟨93, _⟩ => ⟨S16x262144x1, .f32⟩
  | .hbm, ⟨94, _⟩ => ⟨S16x262144x1, .f32⟩
  | .hbm, ⟨95, _⟩ => ⟨S16x262144x1, .f32⟩
  | .hbm, ⟨96, _⟩ => ⟨S16x262144x4, .f32⟩
  | .hbm, ⟨97, _⟩ => ⟨S16x262144x4, .f32⟩
  | .hbm, ⟨98, _⟩ => ⟨S16x262144x4, .f32⟩
  | .hbm, ⟨99, _⟩ => ⟨S_, .f32⟩
  | .hbm, ⟨100, _⟩ => ⟨S16x262144, .f32⟩
  | .hbm, ⟨101, _⟩ => ⟨S_, .f32⟩
  | .hbm, ⟨102, _⟩ => ⟨S_, .f32⟩
  | .hbm, ⟨103, _⟩ => ⟨S16x262144, .f32⟩
  | .hbm, ⟨104, _⟩ => ⟨S16x262144, .f32⟩
  | .hbm, ⟨105, _⟩ => ⟨S16x262144, .i32⟩
  | .hbm, ⟨106, _⟩ => ⟨S_, .i32⟩
  | .hbm, ⟨107, _⟩ => ⟨S16, .i32⟩
  | .hbm, ⟨108, _⟩ => ⟨S_, .f32⟩
  | .hbm, ⟨109, _⟩ => ⟨S16, .f32⟩
  | .hbm, ⟨110, _⟩ => ⟨S_, .i32⟩
  | .hbm, ⟨111, _⟩ => ⟨S16, .i32⟩
  | .hbm, ⟨112, _⟩ => ⟨S16, .i32⟩
  | .hbm, ⟨113, _⟩ => ⟨S16, .f32⟩
  | .hbm, ⟨114, _⟩ => ⟨S16, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S16x262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_1 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_2 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_3 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_4 : Ref sig .tc := ⟨.hbm, 99, rfl⟩
abbrev main_v68 : Ref sig .tc := ⟨.hbm, 100, rfl⟩
abbrev main_cst_5 : Ref sig .tc := ⟨.hbm, 101, rfl⟩
abbrev main_call1_v0 : Ref sig .tc := ⟨.hbm, 102, rfl⟩
abbrev main_call1_v1 : Ref sig .tc := ⟨.hbm, 103, rfl⟩
abbrev main_v69 : Ref sig .tc := ⟨.hbm, 104, rfl⟩
abbrev main_v70 : Ref sig .tc := ⟨.hbm, 105, rfl⟩
abbrev main_c_6 : Ref sig .tc := ⟨.hbm, 106, rfl⟩
abbrev main_v71 : Ref sig .tc := ⟨.hbm, 107, rfl⟩
abbrev main_cst_7 : Ref sig .tc := ⟨.hbm, 108, rfl⟩
abbrev main_v72 : Ref sig .tc := ⟨.hbm, 109, rfl⟩
abbrev main_c_8 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_9 : Ref sig .tc := ⟨.hbm, 115, rfl⟩
abbrev main_v77 : Ref sig .tc := ⟨.hbm, 116, rfl⟩
abbrev main_cst_10 : Ref sig .tc := ⟨.hbm, 117, rfl⟩
abbrev main_v78 : Ref sig .tc := ⟨.hbm, 118, rfl⟩

abbrev nD : Nat := 1
abbrev τ : Topo := Topo.v7x

variable {F : FTy → Type} [FloatOps F]

class Facts₀ : Prop where
  bcast_S_S16x262144 : S_.BroadcastsInDim S16x262144 (![] : Fin 0 → Fin S16x262144.rank)
  bcast_S16x262144_S16x262144x1_0_1 : S16x262144.BroadcastsInDim S16x262144x1 (![0, 1] : Fin 2 → Fin S16x262144x1.rank)
  bcast_S_S16x262144x1 : S_.BroadcastsInDim S16x262144x1 (![] : Fin 0 → Fin S16x262144x1.rank)
  bcast_S1_S1x1x1_2 : S1.BroadcastsInDim S1x1x1 (![2] : Fin 1 → Fin S1x1x1.rank)
  bcast_S1x1x1_S16x262144x1_0_1_2 : S1x1x1.BroadcastsInDim S16x262144x1 (![0, 1, 2] : Fin 3 → Fin S16x262144x1.rank)
  reducesTo_S16x262144x1_S16x262144_d2 : S16x262144x1.ReducesTo [2] S16x262144
  h_S_ : 0 < S_.numel
  bcast_S16x262144_S16x262144x4_0_1 : S16x262144.BroadcastsInDim S16x262144x4 (![0, 1] : Fin 2 → Fin S16x262144x4.rank)
  bcast_S_S16x262144x4 : S_.BroadcastsInDim S16x262144x4 (![] : Fin 0 → Fin S16x262144x4.rank)
  bcast_S262144x4_S1x262144x4_1_2 : S262144x4.BroadcastsInDim S1x262144x4 (![1, 2] : Fin 2 → Fin S1x262144x4.rank)
  slices_S1x262144x4_S1x262144x1_0_0_2 : S1x262144x4.Slices ![0, 0, 2] S1x262144x1
  shapeCasts_S1x262144x1_S1x262144 : S1x262144x1.ShapeCasts S1x262144
  slices_S1x262144x4_S1x262144x1_0_0_0 : S1x262144x4.Slices ![0, 0, 0] S1x262144x1
  slices_S1x262144x4_S1x262144x1_0_0_3 : S1x262144x4.Slices ![0, 0, 3] S1x262144x1
  slices_S1x262144x4_S1x262144x1_0_0_1 : S1x262144x4.Slices ![0, 0, 1] S1x262144x1
  bcast_S_S1x262144 : S_.BroadcastsInDim S1x262144 (![] : Fin 0 → Fin S1x262144.rank)
  slices_S16x262144x4_S16x262144x1_0_0_2 : S16x262144x4.Slices ![0, 0, 2] S16x262144x1
  shapeCasts_S16x262144x1_S16x262144 : S16x262144x1.ShapeCasts S16x262144
  slices_S16x262144x4_S16x262144x1_0_0_0 : S16x262144x4.Slices ![0, 0, 0] S16x262144x1
  slices_S16x262144x4_S16x262144x1_0_0_3 : S16x262144x4.Slices ![0, 0, 3] S16x262144x1
  slices_S16x262144x4_S16x262144x1_0_0_1 : S16x262144x4.Slices ![0, 0, 1] S16x262144x1
  bcast_S1x262144_S16x262144_0_1 : S1x262144.BroadcastsInDim S16x262144 (![0, 1] : Fin 2 → Fin S16x262144.rank)
  concatenates_S16x262144x1_S16x262144x1_S16x262144x1_S16x262144x1_S16x262144x4_d2 : Shape.Concatenates [S16x262144x1, S16x262144x1, S16x262144x1, S16x262144x1] S16x262144x4 2
  reducesTo_S16x262144x4_S16x262144_d2 : S16x262144x4.ReducesTo [2] S16x262144
  natLt_1_32 : 1 < 32
  reducesTo_S16x262144_S16_d1 : S16x262144.ReducesTo [1] S16
  bcast_S_S16 : S_.BroadcastsInDim S16 (![] : Fin 0 → Fin S16.rank)
  reducesTo_S16_S_d0 : S16.ReducesTo [0] S_
  gather_S16x128x4_S16x262144x1_S16x262144x4_2_1_0_0_1_2_114_wf : GatherDims.WF S16x128x4 S16x262144x1 S16x262144x4 [2] [1] [0] [1] [0] 2 ![1, 1, 4]

variable [Facts₀]

def gather_S16x128x4_S16x262144x1_S16x262144x4_2_1_0_0_1_2_114 : GatherDims S16x128x4 S16x262144x1 S16x262144x4 where
  offsetDims := [2]
  collapsedSliceDims := [1]
  operandBatchingDims := [0]
  startIndicesBatchingDims := [0]
  startIndexMap := [1]
  indexVectorDim := 2
  sliceSizes := ![1, 1, 4]
  wf := gather_S16x128x4_S16x262144x1_S16x262144x4_2_1_0_0_1_2_114_wf

class Facts : Prop extends Facts₀ where

variable [Facts]
-- ==== Proof.KPieces.lean ====
import proofs.«430427_j12893491822714_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-! ## What each control case leaves in the two carried accumulators and in the output block

  The body at a grid point (image `b`, tile `t`) adds the tile's masked L1 sum into the first accumulator and the tile's
  foreground count into the second; at an image's first tile both start from zero, and at its last tile the output
  block receives `sum / max count 1`. Each case's stores are read back as ONE pure term of the input blocks: the
  stores that cover a buffer are read through their rectangles (one covering store, or a reset followed by an update
  that reads the reset back), and every load reads a whole staging buffer, so what is left is the store's payload. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The tile of 4096 anchor columns the body loads from the resident transposed anchor array at a grid point. -/
abbrev tile (i : grid0.Coords) (x3 : Vec F S4x262144 .f32) : Vec F S4x4096 .f32 :=
  View.ld x3 (Rect.unit (s := S4x262144) (k0_off1 i) S4x4096.size (k0_off1_inb i))

/-- One tile's update of the loss accumulator: the accumulator plus the tile's masked L1 sum. -/
def stepS (i : grid0.Coords) (x0 : Vec F S1x4096x4 .f32) (x1 : Vec F S1x1x4096 .i32) (x2 : Vec F S1x4x128 .f32)
    (x3 : Vec F S4x262144 .f32) (s : Vec F S1x1 .f32) : Vec F S1x1 .f32 :=
  k0_pay14 (k0_pay5 x1) (k0_pay6 x1 x2) (k0_pay8 (tile i x3)) (k0_pay9 (tile i x3)) (k0_pay10 (tile i x3)) (k0_pay11 (tile i x3))
    (k0_pay12 x1 x2) (k0_pay13 x1 x2) x0 s

/-- One tile's update of the count accumulator: the accumulator plus the tile's foreground count. -/
def stepN (x1 : Vec F S1x1x4096 .i32) (n : Vec F S1x1 .f32) : Vec F S1x1 .f32 := k0_pay15 (k0_pay5 x1) n

section Cases

variable (c : Dev nD) (i : grid0.Coords)
  (arg2 : Memref sig .tc .vmem S1x4096x4 .f32) (harg2 : arg2.IsWhole) (arg3 : Memref sig .tc .vmem S1x1x4096 .i32) (harg3 : arg3.IsWhole)
  (arg4 : Memref sig .tc .vmem S1x4x128 .f32) (harg4 : arg4.IsWhole) (arg5 : Memref sig .tc .vmem S4x262144 .f32) (harg5 : arg5.IsWhole)
  (arg6 : Memref sig .tc .vmem S1x1x1 .f32) (harg6 : arg6.IsWhole) (arg7 : Memref sig .tc .vmem S1x1 .f32) (harg7 : arg7.IsWhole)
  (arg8 : Memref sig .tc .vmem S1x1 .f32) (harg8 : arg8.IsWhole)
  (x0 : Vec F S1x4096x4 .f32) (x1 : Vec F S1x1x4096 .i32) (x2 : Vec F S1x4x128 .f32) (x3 : Vec F S4x262144 .f32)

/-- An image's first tile: the loss accumulator is reset to zero, then updated by the tile. -/
theorem sout_A_0 (hc0 : cond0_0 i) (hc1 : ¬cond0_1 i) :
    sout0_A_0 c i arg2 harg2 arg3 harg3 arg4 harg4 arg5 harg5 arg6 harg6 arg7 harg7 arg8 harg8 hc0 hc1 x0 x1 x2 x3
      = stepS i x0 x1 x2 x3 k0_pay2 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg7.read_unread,
    View.ld_unit_zero (S := S1x1) hz2, View.ld_unit_zero (S := S1x4096x4) hz3, View.ld_unit_zero (S := S1x1x4096) hz3,
    View.ld_unit_zero (S := S1x4x128) hz3, View.readCov_unit_zero (S := S1x1) _ hz2]
  try rfl

/-- An image's first tile: the count accumulator is reset to zero, then updated by the tile. -/
theorem sout_A_1 (hc0 : cond0_0 i) (hc1 : ¬cond0_1 i) :
    sout0_A_1 c i arg2 harg2 arg3 harg3 arg4 harg4 arg5 harg5 arg6 harg6 arg7 harg7 arg8 harg8 hc0 hc1 x0 x1 x2 x3
      = stepN x1 k0_pay3 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg3.read_unread, harg8.read_unread, View.ld_unit_zero (S := S1x1) hz2,
    View.ld_unit_zero (S := S1x1x4096) hz3, View.readCov_unit_zero (S := S1x1) _ hz2]
  try rfl

/-- A middle tile: the loss accumulator `xs0` is updated by the tile. -/
theorem sout_B_0 (hc0 : ¬cond0_0 i) (hc1 : ¬cond0_1 i) (xs0 xs1 : Vec F S1x1 .f32) :
    sout0_B_0 c i arg2 harg2 arg3 harg3 arg4 harg4 arg5 harg5 arg6 harg6 arg7 harg7 arg8 harg8 hc0 hc1 x0 x1 x2 x3 xs0 xs1
      = stepS i x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S1x1) hz2, View.ld_unit_zero (S := S1x4096x4) hz3, View.ld_unit_zero (S := S1x1x4096) hz3,
    View.ld_unit_zero (S := S1x4x128) hz3]
  try rfl

/-- A middle tile: the count accumulator `xs1` is updated by the tile. -/
theorem sout_B_1 (hc0 : ¬cond0_0 i) (hc1 : ¬cond0_1 i) (xs0 xs1 : Vec F S1x1 .f32) :
    sout0_B_1 c i arg2 harg2 arg3 harg3 arg4 harg4 arg5 harg5 arg6 harg6 arg7 harg7 arg8 harg8 hc0 hc1 x0 x1 x2 x3 xs0 xs1
      = stepN x1 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg3.read_unread, harg8.read_unread, View.ld_unit_zero (S := S1x1) hz2,
    View.ld_unit_zero (S := S1x1x4096) hz3]
  try rfl

/-- An image's last tile: the loss accumulator `xs0` is updated by the tile. -/
theorem sout_C_0 (hc0 : ¬cond0_0 i) (hc1 : cond0_1 i) (xs0 xs1 : Vec F S1x1 .f32) :
    sout0_C_0 c i arg2 harg2 arg3 harg3 arg4 harg4 arg5 harg5 arg6 harg6 arg7 harg7 arg8 harg8 hc0 hc1 x0 x1 x2 x3 xs0 xs1
      = stepS i x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S1x1) hz2, View.ld_unit_zero (S := S1x4096x4) hz3, View.ld_unit_zero (S := S1x1x4096) hz3,
    View.ld_unit_zero (S := S1x4x128) hz3]
  try rfl

/-- An image's last tile: the count accumulator `xs1` is updated by the tile. -/
theorem sout_C_1 (hc0 : ¬cond0_0 i) (hc1 : cond0_1 i) (xs0 xs1 : Vec F S1x1 .f32) :
    sout0_C_1 c i arg2 harg2 arg3 harg3 arg4 harg4 arg5 harg5 arg6 harg6 arg7 harg7 arg8 harg8 hc0 hc1 x0 x1 x2 x3 xs0 xs1
      = stepN x1 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg3.read_unread, harg8.read_unread, View.ld_unit_zero (S := S1x1) hz2,
    View.ld_unit_zero (S := S1x1x4096) hz3]
  try rfl

/-- An image's last tile: the output block receives the updated loss sum divided by the updated count clamped below
    at one (the two loads read back what the same tile has just stored into the accumulators). -/
theorem out_C_4 (hc0 : ¬cond0_0 i) (hc1 : cond0_1 i) (xs0 xs1 : Vec F S1x1 .f32) :
    out0_C_4 c i arg2 harg2 arg3 harg3 arg4 harg4 arg5 harg5 arg6 harg6 arg7 harg7 arg8 harg8 hc0 hc1 x0 x1 x2 x3 xs0 xs1
      = k0_pay1 (stepN x1 xs1) (stepS i x0 x1 x2 x3 xs0) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg7.read_unread,
    harg8.read_unread, View.ld_unit_zero (S := S1x1) hz2, View.ld_unit_zero (S := S1x4096x4) hz3,
    View.ld_unit_zero (S := S1x1x4096) hz3, View.ld_unit_zero (S := S1x4x128) hz3, View.readCov_unit_zero (S := S1x1) _ hz2]
  try rfl

end Cases

end Cert.KernelIdeal.KValue

end
-- ==== Proof.KAccum.lean ====
import proofs.«430427_j12893491822714_3_alg».proof.Proof.KPieces

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-! ## The accumulators, grid point by grid point

  Grid position `n` is image `n / 64`, tile `n % 64`. After the body at position `n` the loss accumulator holds the
  tile's update of zero when the tile is an image's first, else of what position `n - 1` left; the same for the count. -/

/-- The loss accumulator after grid position `n`. -/
def accS (c : Dev nD) : (n : ℕ) → n < cfg0.N → Vec F S1x1 .f32
  | 0, h => stepS (grid0.coords ⟨0, h⟩) (iblk m c 0 ⟨0, h⟩) (iblk m c 1 ⟨0, h⟩) (iblk m c 2 ⟨0, h⟩) (iblk m c 3 ⟨0, h⟩) k0_pay2
  | n + 1, h => stepS (grid0.coords ⟨n + 1, h⟩) (iblk m c 0 ⟨n + 1, h⟩) (iblk m c 1 ⟨n + 1, h⟩) (iblk m c 2 ⟨n + 1, h⟩) (iblk m c 3 ⟨n + 1, h⟩)
      (if (n + 1) % 64 = 0 then k0_pay2 else accS c n (Nat.lt_of_succ_lt h))

/-- The count accumulator after grid position `n`. -/
def accN (c : Dev nD) : (n : ℕ) → n < cfg0.N → Vec F S1x1 .f32
  | 0, h => stepN (iblk m c 1 ⟨0, h⟩) k0_pay3
  | n + 1, h => stepN (iblk m c 1 ⟨n + 1, h⟩) (if (n + 1) % 64 = 0 then k0_pay3 else accN c n (Nat.lt_of_succ_lt h))

/-- What the run leaves in the two carried accumulators after position `n` is their closed form: by induction on the
    position, the three control cases told apart by `n % 64`. -/
theorem outsAt_acc (c : Dev nD) : ∀ (n : ℕ) (h : n < cfg0.N),
    (outsAt0 m c n h).2.1 = accS m c n h ∧ (outsAt0 m c n h).2.2 = accN m c n h
  | 0, h => by
    rw [outsAt0_A m c ⟨0, h⟩ (Nat.zero_mod _) (by show ¬(0 % 64 = 63); decide)]
    dsimp only
    exact ⟨sout_A_0 _ _ _ _ _ _ _ _ _ _ _ _ _ _ _ _ _ _ _ _ _ _, sout_A_1 _ _ _ _ _ _ _ _ _ _ _ _ _ _ _ _ _ _ _ _ _ _⟩
  | n + 1, h => by
    have ih := outsAt_acc c n (Nat.lt_of_succ_lt h)
    by_cases h0 : (n + 1) % 64 = 0
    · have h1 : ¬(n + 1) % 64 = 63 := by omega
      rw [outsAt0_A m c ⟨n + 1, h⟩ h0 h1]
      dsimp only
      refine ⟨(sout_A_0 _ _ _ _ _ _ _ _ _ _ _ _ _ _ _ _ _ _ _ _ _ _).trans ?_, (sout_A_1 _ _ _ _ _ _ _ _ _ _ _ _ _ _ _ _ _ _ _ _ _ _).trans ?_⟩
      · show _ = stepS _ _ _ _ _ (if (n + 1) % 64 = 0 then k0_pay2 else accS m c n _)
        rw [if_pos h0]
      · show _ = stepN _ (if (n + 1) % 64 = 0 then k0_pay3 else accN m c n _)
        rw [if_pos h0]
    · by_cases h1 : (n + 1) % 64 = 63
      · rw [outsAt0_C m c ⟨n + 1, h⟩ h0 h1]
        dsimp only
        refine ⟨(sout_C_0 _ _ _ _ _ _ _ _ _ _ _ _ _ _ _ _ _ _ _ _ _ _ _ _).trans ?_, (sout_C_1 _ _ _ _ _ _ _ _ _ _ _ _ _ _ _ _ _ _ _ _ _ _ _ _).trans ?_⟩
        · show _ = stepS _ _ _ _ _ (if (n + 1) % 64 = 0 then k0_pay2 else accS m c n _)
          rw [if_neg h0, ← ih.1]
          rfl
        · show _ = stepN _ (if (n + 1) % 64 = 0 then k0_pay3 else accN m c n _)
          rw [if_neg h0, ← ih.2]
          rfl
      · rw [outsAt0_B m c ⟨n + 1, h⟩ h0 h1]
        dsimp only
        refine ⟨(sout_B_0 _ _ _ _ _ _ _ _ _ _ _ _ _ _ _ _ _ _ _ _ _ _ _ _).trans ?_, (sout_B_1 _ _ _ _ _ _ _ _ _ _ _ _ _ _ _ _ _ _ _ _ _ _ _ _).trans ?_⟩
        · show _ = stepS _ _ _ _ _ (if (n + 1) % 64 = 0 then k0_pay2 else accS m c n _)
          rw [if_neg h0, ← ih.1]
          rfl
        · show _ = stepN _ (if (n + 1) % 64 = 0 then k0_pay3 else accN m c n _)
          rw [if_neg h0, ← ih.2]
          rfl

end Cert.KernelIdeal.KValue

end
-- ==== Proof.KFinal.lean ====
import proofs.«430427_j12893491822714_3_alg».proof.Proof.KAccum
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-! ## From the accumulators to the output array and to @main's result

  The output block of image `b` is written once, at the image's last tile (grid position `64 b + 63`): the loss
  accumulator over the count accumulator clamped below at one. The sixteen blocks cover the [16,1,1] output array;
  @main then sums its sixteen entries and divides by sixteen. -/

/-- The grid position of image `b`'s last tile. -/
def imgPos (b : Fin 16) : Fin cfg0.N :=
  ⟨64 * b.val + 63, by have := b.isLt; rw [show cfg0.N = 1024 from N_0]; omega⟩

/-- The output array: entry `b` is what image `b`'s last tile stores. -/
def outArr (c : Dev nD) : Vec F S16x1x1 .f32 := fun y =>
  k0_pay1 (accN m c (imgPos (y 0)).val (imgPos (y 0)).isLt) (accS m c (imgPos (y 0)).val (imgPos (y 0)).isLt) (ix3 0 0 0)

theorem outArr_at (c : Dev nD) (t : Fin cfg0.N) (y : S16x1x1.Idx) (hy : imgPos (y 0) = t) :
    outArr m c y = k0_pay1 (accN m c t.val t.isLt) (accS m c t.val t.isLt) (ix3 0 0 0) := by
  subst hy; rfl

/-- At an image's last tile the output's staging buffer holds the quotient of the two accumulators as that tile
    leaves them. -/
theorem out_last (c : Dev nD) (t : Fin cfg0.N) (h63 : t.val % 64 = 63) :
    (outsAt0 m c t.val t.isLt).1 = k0_pay1 (accN m c t.val t.isLt) (accS m c t.val t.isLt) := by
  have h0 : ¬t.val % 64 = 0 := by omega
  have e := outsAt_acc m c t.val t.isLt
  rw [← e.1, ← e.2, outsAt0_C m c t h0 h63]
  dsimp only
  rw [out_C_4, sout_C_0, sout_C_1]

/-- The output window's block index at a grid point: the image, then zeros. -/
theorem idx4 : ∀ t : Fin cfg0.N, win0_4.index t (0 : Fin 3) = t.val / 64 ∧ win0_4.index t (1 : Fin 3) = 0 ∧ win0_4.index t (2 : Fin 3) = 0 :=
  (by decide +kernel : ∀ t : Fin grid0.N, _)

/-- What a write-back writes is the block of `outArr` it covers. -/
theorem flushed_eq (c : Dev nD) (t : Fin cfg0.N) (hf : (cfg0.win 4).flush t = true) :
    (dats m 0 c).flushed 4 t = ((cfg0.win 4).blk t).view.read (Elt F) (outArr m c) := by
  have h63 : t.val % 64 = 63 := (flush0_4 t).mp hf
  have hN : cfg0.N = 1024 := N_0
  obtain ⟨e0, e1, e2⟩ := idx4 t
  show (cfg0.win 4).cut (grid0.coords t) ((dats m 0 c).after 4 t) = _
  rw [after0_4, out_last m c t h63]
  funext j
  show _ = outArr m c (((cfg0.win 4).blk t).view.emb j)
  have hj0 : (j 0).val < 1 := (j 0).isLt
  have hy : imgPos ((((cfg0.win 4).blk t).view.emb j) 0) = t := by
    apply Fin.ext
    show 64 * (win0_4.index t (0 : Fin 3) * 1 + 1 * (j 0).val) + 63 = t.val
    have := t.isLt
    omega
  rw [outArr_at m c t _ hy]
  congr 1
  funext a
  apply Fin.ext
  match a with
  | ⟨0, _⟩ => show (j 0).val = 0; omega
  | ⟨1, _⟩ => have hj1 : (j 1).val < 1 := (j 1).isLt; show (j 1).val = 0; omega
  | ⟨2, _⟩ => have hj2 : (j 2).val < 1 := (j 2).isLt; show (j 2).val = 0; omega

/-- The sixteen write-backs cover the output array, so it ends at `outArr`. -/
theorem final_out (c : Dev nD) : (dats m 0 c).arrAt 4 cfg0.N = outArr m c :=
  (dats m 0 c).arrAt_eq_of_cover 4 (outArr m c) (flushed_eq m c) fun i => by
    have hi0 : (i 0).val < 16 := (i 0).isLt
    have hi1 : (i 1).val < 1 := (i 1).isLt
    have hi2 : (i 2).val < 1 := (i 2).isLt
    obtain ⟨e0, e1, e2⟩ := idx4 (imgPos (i 0))
    refine ⟨imgPos (i 0), (flush0_4 _).mpr (by show (64 * (i 0).val + 63) % 64 = 63; omega), ?_⟩
    show i ∈ ((View.whole main_v3).slice (win0_4.rect (imgPos (i 0)))).set
    rw [View.set_slice_whole, Rect.mem_set_unit]
    intro a
    have hv : (imgPos (i 0)).val = 64 * (i 0).val + 63 := rfl
    match a with
    | ⟨0, _⟩ => show win0_4.index (imgPos (i 0)) 0 * 1 ≤ (i 0).val ∧ (i 0).val < win0_4.index (imgPos (i 0)) 0 * 1 + 1
                rw [e0, hv]; omega
    | ⟨1, _⟩ => show win0_4.index (imgPos (i 0)) 1 * 1 ≤ (i 1).val ∧ (i 1).val < win0_4.index (imgPos (i 0)) 1 * 1 + 1
                rw [e1]; omega
    | ⟨2, _⟩ => show win0_4.index (imgPos (i 0)) 2 * 1 ≤ (i 2).val ∧ (i 2).val < win0_4.index (imgPos (i 0)) 2 * 1 + 1
                rw [e2]; omega

end Cert.KernelIdeal.KValue

end
-- ==== Proof.Spec.lean ====
/-
  The per-image box-regression loss, as a function of the four argument arrays, index by index.

  For image `b` and anchor `a` with matched index `i = I b a`: the anchor is FOREGROUND when `0 ≤ i`; its matched
  ground-truth box is row `max i 0` of `G b`; the box coder turns (matched box, anchor) into four targets
  (two centre offsets divided by the anchor's extents, two logarithms of extent ratios); the anchor's loss is the
  L1 distance of the regression `X b a` from the targets, zero for a background anchor. The image's value is the
  sum of its anchors' losses divided by `max (number of foreground anchors) 1`.

  The matched box is written in two ways. `matchedK` selects the row by a one-hot contraction over the 128 rows
  (zero when no row matches); `matchedR` reads the row directly and is the junk value `⊥` when the index is past
  the table. The two differ only at an index past the table, and there the loss is `⊤` either way: the logarithm
  of `0 / w` and of `⊥ / w` are both infinite, so the third L1 term is `⊤` and the other three are `≥ 0`.
-/
import Idealize.ShloMosaic.PureOps.Ideal
import Idealize.ShloMosaic.Lib.ValueIdx

noncomputable section

namespace Cert.BoxLoss

open Idealize.ShloMosaic Idealize.ShloMosaic.ValueIdx

/-- The shapes of the regression, anchor, ground-truth and matched-index arrays. -/
abbrev SX : Shape := ⟨3, ![16, 262144, 4]⟩
abbrev SA : Shape := ⟨2, ![262144, 4]⟩
abbrev SG : Shape := ⟨3, ![16, 128, 4]⟩
abbrev SI : Shape := ⟨2, ![16, 262144]⟩

/-- One half, as both programs spell it. -/
abbrev half : EReal := Ideal.ofBits .f32 0x3F000000#32

/-- The box coder's four targets of a box `M` against an anchor `P` (each `x1, y1, x2, y2`): the centre offsets over
    the anchor's width and height, then the logarithms of the width and height ratios. -/
def encode (M P : Fin 4 → EReal) : Fin 4 → EReal :=
  ![Ideal.div ((M 0 + half * (M 2 - M 0)) - (P 0 + half * (P 2 - P 0))) (P 2 - P 0),
    Ideal.div ((M 1 + half * (M 3 - M 1)) - (P 1 + half * (P 3 - P 1))) (P 3 - P 1),
    Ideal.log (Ideal.div (M 2 - M 0) (P 2 - P 0)),
    Ideal.log (Ideal.div (M 3 - M 1) (P 3 - P 1))]

/-- The L1 distance of a regression `Y` from the targets of `M` against `P`. -/
def l1 (M P Y : Fin 4 → EReal) : EReal :=
  ∑ k : Fin 4, max (Y k - encode M P k) (-(Y k - encode M P k))

/-- Anchor `4096 t + l`: lane `l` of the `t`-th tile of 4096 anchors (64 tiles cover the 262144 anchors). -/
def anchorOf (t : Fin 64) (l : Fin 4096) : Fin 262144 :=
  ⟨4096 * t.val + l.val, by have := t.isLt; have := l.isLt; omega⟩

/-- The matched index clamped below at zero, as a natural number. -/
def clampIdx (i : BitVec 32) : ℕ := (max i.toInt 0).toNat

/-- Row `j` of image `b`'s ground-truth table, selected by a one-hot contraction over its 128 rows. -/
def matchedK (G : SG.Idx → EReal) (b : Fin 16) (j : ℕ) (c : Fin 4) : EReal :=
  ∑ g : Fin 128, G (ix3 b g c) * (if g.val = j then (1 : EReal) else 0)

/-- Row `j` of image `b`'s ground-truth table, read directly; the junk value past the table. -/
def matchedR (G : SG.Idx → EReal) (b : Fin 16) (j : ℕ) (c : Fin 4) : EReal :=
  if h : j < 128 then G (ix3 b ⟨j, h⟩ c) else ⊥

variable (X : SX.Idx → EReal) (A : SA.Idx → EReal) (G : SG.Idx → EReal) (I : SI.Idx → BitVec 32)

/-- Anchor `a`'s loss in image `b`, the matched box by the one-hot contraction. -/
def cellK (b : Fin 16) (a : Fin 262144) : EReal :=
  if 0 ≤ (I (ix2 b a)).toInt then
    l1 (matchedK G b (clampIdx (I (ix2 b a)))) (fun k => A (ix2 a k)) (fun k => X (ix3 b a k))
  else 0

/-- Anchor `a`'s loss in image `b`, the matched box read directly. -/
def cellR (b : Fin 16) (a : Fin 262144) : EReal :=
  if 0 ≤ (I (ix2 b a)).toInt then
    l1 (matchedR G b (clampIdx (I (ix2 b a)))) (fun k => A (ix2 a k)) (fun k => X (ix3 b a k))
  else 0

/-- The number of foreground anchors of image `b`. -/
def fgCount (b : Fin 16) : ℕ := (Finset.univ.filter fun a : Fin 262144 => 0 ≤ (I (ix2 b a)).toInt).card

/-- Image `b`'s value, kernel-shaped: the float count clamped below at one. -/
def perImageK (b : Fin 16) : EReal :=
  Ideal.div (∑ a : Fin 262144, cellK X A G I b a) (max (((fgCount I b : ℕ) : ℝ) : EReal) 1)

/-- Image `b`'s value, reference-shaped: the integer count clamped below at one, then made a float. -/
def perImageR (b : Fin 16) : EReal :=
  Ideal.div (∑ a : Fin 262144, cellR X A G I b a) (((max 1 (fgCount I b) : ℕ) : ℝ) : EReal)

end Cert.BoxLoss

end
-- ==== Proof.KBlocks.lean ====
import proofs.«430427_j12893491822714_3_alg».proof.Proof.KPieces
import proofs.«430427_j12893491822714_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable {F : FTy → Type} [FloatOps F]
variable (m : (ℓ : Loc nD τ sig) → Buf (Elt F) ℓ)

/-! ## What each input window's block holds at a grid point

  The grid's 1024 points run image-major: point `t` is tile `t % 64` of image `t / 64`. -/

/-- The image of grid point `t`. -/
def imgOf (t : Fin cfg0.N) : Fin 16 := ⟨t.val / 64, by have := t.isLt; have h : cfg0.N = 1024 := N_0; omega⟩

/-- The tile of grid point `t` within its image. -/
def tileOf (t : Fin cfg0.N) : Fin 64 := ⟨t.val % 64, Nat.mod_lt _ (by decide)⟩

/-- The regression window's block index at point `t`: (image, tile, 0). -/
theorem index0 : ∀ t : Fin cfg0.N, win0_0.index t 0 = t.val / 64 ∧ win0_0.index t 1 = t.val % 64 ∧ win0_0.index t 2 = 0 :=
  (by decide +kernel : ∀ t : Fin grid0.N, _)

/-- The regression block at point `t` is rows `4096 (t % 64) …` of image `t / 64` of the regression array. -/
theorem iblk0_apply (c : Dev nD) (t : Fin cfg0.N) (l : Fin 4096) (k : Fin 4) :
    (iblk m c 0 t : Vec F S1x4096x4 .f32) (ix3 0 l k)
      = m ((c : Thread nD τ).loc main_arg0) (ix3 (imgOf t) (Cert.BoxLoss.anchorOf (tileOf t) l) k) := by
  obtain ⟨h0, h1, h2⟩ := index0 t
  unfold iblk
  rw [View.read_apply]
  show V m c main_arg0 _ = _
  rw [V_main_arg0]
  congr 1
  funext a
  apply Fin.ext
  match a with
  | ⟨0, _⟩ => show win0_0.index t 0 * 1 + 1 * 0 = t.val / 64; rw [h0]; omega
  | ⟨1, _⟩ => show win0_0.index t 1 * 4096 + 1 * l.val = 4096 * (t.val % 64) + l.val; rw [h1]; omega
  | ⟨2, _⟩ => show win0_0.index t 2 * 4 + 1 * k.val = k.val; rw [h2]; omega

/-! ### The arrays the host lines before the region wrote -/

/-- The matched-index array as the region finds it: the argument with a unit axis inserted. -/
theorem V_main_v0 (c : Dev nD) :
    (V m c main_v0 : S16x1x262144.Idx → BitVec 32)
      = broadcastInDim S16x1x262144 ![0, 2] bcast_S16x262144_S16x1x262144_0_2 (m ((c : Thread nD τ).loc main_arg3)) := by
  show StableHlo.after hostOps0 (fun b => m (c, b)) (Proc.devRef .tc main_v0) = _
  after_results

/-- The anchor array as the region finds it: the argument transposed. -/
theorem V_main_v1 (c : Dev nD) :
    (V m c main_v1 : S4x262144.Idx → F .f32)
      = transpose S4x262144 [1, 0] (m ((c : Thread nD τ).loc main_arg1)) transposes_S262144x4_S4x262144_1_0 := by
  show StableHlo.after hostOps0 (fun b => m (c, b)) (Proc.devRef .tc main_v1) = _
  after_results

/-- The ground-truth array as the region finds it: each image's table transposed. -/
theorem V_main_v2 (c : Dev nD) :
    (V m c main_v2 : S16x4x128.Idx → F .f32)
      = transpose S16x4x128 [0, 2, 1] (m ((c : Thread nD τ).loc main_arg2)) transposes_S16x128x4_S16x4x128_0_2_1 := by
  show StableHlo.after hostOps0 (fun b => m (c, b)) (Proc.devRef .tc main_v2) = _
  after_results

/-! ### The blocks of the two windows that read a host-written array -/

/-- The matched-index window's block index at point `t`: (image, 0, tile). -/
theorem index1 : ∀ t : Fin cfg0.N, win0_1.index t 0 = t.val / 64 ∧ win0_1.index t 1 = 0 ∧ win0_1.index t 2 = t.val % 64 :=
  (by decide +kernel : ∀ t : Fin grid0.N, _)

/-- The ground-truth window's block index at point `t`: (image, 0, 0). -/
theorem index2 : ∀ t : Fin cfg0.N, win0_2.index t 0 = t.val / 64 ∧ win0_2.index t 1 = 0 ∧ win0_2.index t 2 = 0 :=
  (by decide +kernel : ∀ t : Fin grid0.N, _)

/-- The matched-index block at point `t` is columns `4096 (t % 64) …` of row `t / 64` of the matched-index argument. -/
theorem iblk1_apply (c : Dev nD) (t : Fin cfg0.N) (l : Fin 4096) :
    (iblk m c 1 t : Vec F S1x1x4096 .i32) (ix3 0 0 l)
      = m ((c : Thread nD τ).loc main_arg3) (ix2 (imgOf t) (Cert.BoxLoss.anchorOf (tileOf t) l)) := by
  obtain ⟨h0, h1, h2⟩ := index1 t
  unfold iblk
  rw [View.read_apply]
  show V m c main_v0 _ = _
  rw [V_main_v0]
  refine broadcastInDim_apply _ _ _ _ (ix2 (imgOf t) (Cert.BoxLoss.anchorOf (tileOf t) l)) fun a => ?_
  match a with
  | ⟨0, _⟩ =>
    show t.val / 64 = if (16 : ℕ) = 1 then 0 else win0_1.index t 0 * 1 + 1 * 0
    rw [if_neg (by decide : ¬ (16 : ℕ) = 1), h0]; omega
  | ⟨1, _⟩ =>
    show 4096 * (t.val % 64) + l.val = if (262144 : ℕ) = 1 then 0 else win0_1.index t 2 * 4096 + 1 * l.val
    rw [if_neg (by decide : ¬ (262144 : ℕ) = 1), h2]; omega

/-- The ground-truth block at point `t` is image `t / 64`'s table, transposed: entry `(k, g)` is coordinate `k` of box `g`. -/
theorem iblk2_apply (c : Dev nD) (t : Fin cfg0.N) (k : Fin 4) (g : Fin 128) :
    (iblk m c 2 t : Vec F S1x4x128 .f32) (ix3 0 k g)
      = m ((c : Thread nD τ).loc main_arg2) (ix3 (imgOf t) g k) := by
  obtain ⟨h0, h1, h2⟩ := index2 t
  unfold iblk
  rw [View.read_apply]
  show V m c main_v2 _ = _
  rw [V_main_v2]
  refine transpose_apply _ _ _ _ (ix3 (imgOf t) g k) fun b => ?_
  match b with
  | ⟨0, _⟩ => show t.val / 64 = win0_2.index t 0 * 1 + 1 * 0; rw [h0]; omega
  | ⟨1, _⟩ => show k.val = win0_2.index t 1 * 4 + 1 * k.val; rw [h1]; omega
  | ⟨2, _⟩ => show g.val = win0_2.index t 2 * 128 + 1 * g.val; rw [h2]; omega

/-! ### The tile of anchor columns the body loads from the resident anchor array -/

/-- The anchor window is the whole array at every point, and the body's load starts at column `4096 (t % 64)`. -/
theorem index3 : ∀ t : Fin cfg0.N, win0_3.index t 0 = 0 ∧ win0_3.index t 1 = 0
    ∧ k0_off1 (grid0.coords t) 0 = 0 ∧ k0_off1 (grid0.coords t) 1 = 4096 * (t.val % 64) :=
  (by decide +kernel : ∀ t : Fin grid0.N, _)

/-- The tile loaded at point `t` holds, at `(k, l)`, coordinate `k` of anchor `4096 (t % 64) + l`. -/
theorem tile_iblk3_apply (c : Dev nD) (t : Fin cfg0.N) (k : Fin 4) (l : Fin 4096) :
    tile (grid0.coords t) (iblk m c 3 t : Vec F S4x262144 .f32) (ix2 k l)
      = m ((c : Thread nD τ).loc main_arg1) (ix2 (Cert.BoxLoss.anchorOf (tileOf t) l) k) := by
  obtain ⟨h0, h1, h2, h3⟩ := index3 t
  show (iblk m c 3 t : Vec F S4x262144 .f32) _ = _
  unfold iblk
  rw [View.read_apply]
  show V m c main_v1 _ = _
  rw [V_main_v1]
  refine transpose_apply _ _ _ _ (ix2 (Cert.BoxLoss.anchorOf (tileOf t) l) k) fun b => ?_
  match b with
  | ⟨0, _⟩ =>
    show k.val = win0_3.index t 0 * 4 + 1 * (k0_off1 (grid0.coords t) 0 + 1 * k.val)
    rw [h0, h2]; omega
  | ⟨1, _⟩ =>
    show 4096 * (t.val % 64) + l.val = win0_3.index t 1 * 262144 + 1 * (k0_off1 (grid0.coords t) 1 + 1 * l.val)
    rw [h1, h3]; omega

end Cert.KernelIdeal.KValue

end
-- ==== Proof.Algebra.lean ====
/-
  The extended-real and finite-sum mathematics of the per-image box-regression loss.

  The kernel-shaped and the reference-shaped cell values differ only in the matched box at an index past the
  ground-truth table: the one-hot contraction gives the zero box there, the direct read the junk box `⊥`. With a
  finite anchor and a finite regression both boxes make the third box-coder target infinite (the logarithm of
  `0 / w`, and of `⊥ / w`, is `⊥` or `⊤`), so the third L1 term is `⊤`; every L1 term is `≥ 0`; hence the
  cell is `⊤` on both sides. Inside the table the two matched boxes are the same row. The per-image values then
  agree term by term, the two clamped counts being one number. Last, three bookkeeping facts: the 64 tiles of
  4096 lanes enumerate the 262144 anchors once each; a count is the sum of its indicator; the word of one.
-/
import proofs.«430427_j12893491822714_3_alg».proof.Proof.Spec
import Idealize.ShloMosaic.Lib.IdealHost
import Mathlib.Data.EReal.Operations
import Mathlib.Data.EReal.Inv
import Mathlib.Algebra.BigOperators.Fin
import Mathlib.Algebra.BigOperators.Ring.Finset
import Mathlib.Algebra.Order.BigOperators.Group.Finset
import Mathlib.Logic.Equiv.Fin.Basic

noncomputable section

namespace Cert.BoxLoss

open Idealize.ShloMosaic Idealize.ShloMosaic.ValueIdx
open scoped BigOperators

/-! ### Extended-real preliminaries -/

/-- The absolute value `max x (-x)` is never negative. -/
private theorem absf_nonneg (x : EReal) : 0 ≤ max x (-x) := by
  rcases le_total 0 x with h | h
  · exact le_max_of_le_left h
  · exact le_max_of_le_right (EReal.neg_nonneg.mpr h)

/-- The absolute value of `⊤` is `⊤`. -/
private theorem absf_top : max (⊤ : EReal) (-⊤) = ⊤ := max_eq_left le_top

/-- The absolute value of `⊥` is `⊤`. -/
private theorem absf_bot : max (⊥ : EReal) (-⊥) = ⊤ := by
  rw [EReal.neg_bot]; exact max_eq_right bot_le

/-- Four terms, none negative, the third of them `⊤`, sum to `⊤`: the sum is at least its third term. -/
private theorem sum_four_eq_top (f : Fin 4 → EReal) (h0 : ∀ k, 0 ≤ f k) (h2 : f 2 = ⊤) : ∑ k, f k = ⊤ := by
  have h := Finset.single_le_sum (fun i _ => h0 i) (Finset.mem_univ (2 : Fin 4))
  rw [h2] at h
  exact top_le_iff.mp h

/-- The logarithm of `0 / w` is `⊥` for every real `w`: the quotient is `0` off `w = 0` and the junk `⊥` at
    `w = 0`, and the logarithm of either is `⊥`. -/
private theorem log_div_zero (w : ℝ) : Ideal.log (Ideal.div 0 (w : EReal)) = ⊥ := by
  unfold Ideal.div
  by_cases hw : (w : EReal) = 0
  · rw [if_pos hw, if_neg (lt_irrefl _)]; rfl
  · rw [if_neg hw, zero_mul]
    show Ideal.log ((0 : ℝ) : EReal) = ⊥
    rw [Ideal.log_coe, if_pos le_rfl]

/-- The logarithm of `⊥ / w` is infinite for every real `w`: the quotient is `⊥` for `w ≥ 0` and `⊤` for `w < 0`,
    and the logarithm fixes both. -/
private theorem log_div_bot (w : ℝ) :
    Ideal.log (Ideal.div ⊥ (w : EReal)) = ⊥ ∨ Ideal.log (Ideal.div ⊥ (w : EReal)) = ⊤ := by
  unfold Ideal.div
  by_cases hw : (w : EReal) = 0
  · left; rw [if_pos hw, if_neg not_lt_bot]; rfl
  · rw [if_neg hw]
    have hw' : w ≠ 0 := fun h => hw (by rw [h]; rfl)
    rw [← EReal.coe_inv]
    rcases lt_or_gt_of_ne hw' with h | h
    · right; rw [EReal.bot_mul_coe_of_neg (inv_lt_zero.mpr h)]; rfl
    · left; rw [EReal.bot_mul_coe_of_pos (inv_pos.mpr h)]; rfl

/-! ### The matched box -/

/-- Inside the table the one-hot contraction selects the row: one summand carries the factor `1`, the others `0`. -/
theorem matchedK_of_lt (G : SG.Idx → EReal) (b : Fin 16) {j : ℕ} (h : j < 128) (c : Fin 4) :
    matchedK G b j c = G (ix3 b ⟨j, h⟩ c) := by
  unfold matchedK
  rw [Finset.sum_eq_single (⟨j, h⟩ : Fin 128)]
  · rw [if_pos rfl, mul_one]
  · intro g _ hg
    rw [if_neg (fun e => hg (Fin.ext e)), mul_zero]
  · intro hn; exact absurd (Finset.mem_univ _) hn

/-- Past the table no row matches and the contraction is the empty selection, zero. -/
theorem matchedK_of_not_lt (G : SG.Idx → EReal) (b : Fin 16) {j : ℕ} (h : ¬ j < 128) (c : Fin 4) :
    matchedK G b j c = 0 := by
  unfold matchedK
  refine Finset.sum_eq_zero fun g _ => ?_
  have hg : ¬ g.val = j := fun e => h (e ▸ g.isLt)
  rw [if_neg hg, mul_zero]

/-! ### The loss against a degenerate box -/

/-- Against the zero box the loss of a finite regression from a finite anchor is `⊤`: the third target is the
    logarithm of `0 / w`, which is `⊥`, so the third term is `|y - ⊥| = ⊤`. -/
theorem l1_zero_box (P Y : Fin 4 → EReal) (hP : ∀ k, ∃ r : ℝ, P k = (r : EReal))
    (hY : ∀ k, ∃ r : ℝ, Y k = (r : EReal)) : l1 (fun _ => 0) P Y = ⊤ := by
  obtain ⟨p2, hp2⟩ := hP 2
  obtain ⟨p0, hp0⟩ := hP 0
  obtain ⟨y, hy⟩ := hY 2
  unfold l1
  refine sum_four_eq_top _ (fun k => absf_nonneg _) ?_
  have h : encode (fun _ => 0) P 2 = ⊥ := by
    show Ideal.log (Ideal.div ((0 : EReal) - 0) (P 2 - P 0)) = ⊥
    rw [hp2, hp0, ← EReal.coe_sub, sub_zero]
    exact log_div_zero _
  show max (Y 2 - encode (fun _ => 0) P 2) (-(Y 2 - encode (fun _ => 0) P 2)) = ⊤
  rw [h, hy, EReal.coe_sub_bot]
  exact absf_top

/-- Against the junk box `⊥` likewise: the third target is the logarithm of `⊥ / w`, which is `⊥` or `⊤`, and
    `|y - ⊥| = |⊤| = ⊤`, `|y - ⊤| = |⊥| = ⊤`. -/
theorem l1_bot_box (P Y : Fin 4 → EReal) (hP : ∀ k, ∃ r : ℝ, P k = (r : EReal))
    (hY : ∀ k, ∃ r : ℝ, Y k = (r : EReal)) : l1 (fun _ => ⊥) P Y = ⊤ := by
  obtain ⟨p2, hp2⟩ := hP 2
  obtain ⟨p0, hp0⟩ := hP 0
  obtain ⟨y, hy⟩ := hY 2
  unfold l1
  refine sum_four_eq_top _ (fun k => absf_nonneg _) ?_
  have h : encode (fun _ => ⊥) P 2 = ⊥ ∨ encode (fun _ => ⊥) P 2 = ⊤ := by
    show Ideal.log (Ideal.div ((⊥ : EReal) - ⊥) (P 2 - P 0)) = ⊥
      ∨ Ideal.log (Ideal.div ((⊥ : EReal) - ⊥) (P 2 - P 0)) = ⊤
    rw [hp2, hp0, ← EReal.coe_sub, EReal.bot_sub]
    exact log_div_bot _
  show max (Y 2 - encode (fun _ => ⊥) P 2) (-(Y 2 - encode (fun _ => ⊥) P 2)) = ⊤
  rcases h with h | h
  · rw [h, hy, EReal.coe_sub_bot]; exact absf_top
  · rw [h, EReal.sub_top]; exact absf_bot

/-! ### Cells and images -/

/-- The two cell values agree when anchors and regressions are finite: a background anchor is `0` on both sides; a
    foreground anchor matched inside the table reads the same row; one matched past the table is `⊤` on both sides. -/
theorem cellK_eq_cellR (X : SX.Idx → EReal) (A : SA.Idx → EReal) (G : SG.Idx → EReal) (I : SI.Idx → BitVec 32)
    (hX : ∀ i, ∃ r : ℝ, X i = (r : EReal)) (hA : ∀ i, ∃ r : ℝ, A i = (r : EReal))
    (b : Fin 16) (a : Fin 262144) : cellK X A G I b a = cellR X A G I b a := by
  unfold cellK cellR
  by_cases hfg : 0 ≤ (I (ix2 b a)).toInt
  · rw [if_pos hfg, if_pos hfg]
    by_cases hj : clampIdx (I (ix2 b a)) < 128
    · have hKR : matchedK G b (clampIdx (I (ix2 b a))) = matchedR G b (clampIdx (I (ix2 b a))) := by
        funext c
        rw [matchedK_of_lt G b hj c]
        unfold matchedR
        rw [dif_pos hj]
      rw [hKR]
    · have hK : matchedK G b (clampIdx (I (ix2 b a))) = fun _ => 0 :=
        funext fun c => matchedK_of_not_lt G b hj c
      have hR : matchedR G b (clampIdx (I (ix2 b a))) = fun _ => ⊥ := by
        funext c
        unfold matchedR
        rw [dif_neg hj]
      rw [hK, hR, l1_zero_box _ _ (fun k => hA _) (fun k => hX _),
        l1_bot_box _ _ (fun k => hA _) (fun k => hX _)]
  · rw [if_neg hfg, if_neg hfg]

/-- The count clamped below at one is one number, whether clamped as a float or as an integer. -/
private theorem clamp_count (n : ℕ) : max (((n : ℕ) : ℝ) : EReal) 1 = (((max 1 n : ℕ) : ℝ) : EReal) := by
  rw [Nat.cast_max, EReal.coe_strictMono.monotone.map_max, Nat.cast_one, EReal.coe_one, max_comm]

/-- The two per-image values agree: equal numerators cell by cell, equal denominators. -/
theorem perImageK_eq_perImageR (X : SX.Idx → EReal) (A : SA.Idx → EReal) (G : SG.Idx → EReal)
    (I : SI.Idx → BitVec 32) (hX : ∀ i, ∃ r : ℝ, X i = (r : EReal)) (hA : ∀ i, ∃ r : ℝ, A i = (r : EReal))
    (b : Fin 16) : perImageK X A G I b = perImageR X A G I b := by
  unfold perImageK perImageR
  rw [clamp_count, Finset.sum_congr rfl fun a _ => cellK_eq_cellR X A G I hX hA b a]

/-! ### Bookkeeping: tiles, counts, the word of one -/

/-- Summing tile by tile and lane by lane is summing over all anchors: `(t, l) ↦ 4096 t + l` is a bijection of
    `Fin 64 × Fin 4096` onto `Fin 262144`. -/
theorem sum_tiles {M : Type*} [AddCommMonoid M] (f : Fin 262144 → M) :
    ∑ t : Fin 64, ∑ l : Fin 4096, f (anchorOf t l) = ∑ a : Fin 262144, f a := by
  rw [← Fintype.sum_prod_type' (fun t l => f (anchorOf t l))]
  refine Fintype.sum_equiv (finProdFinEquiv.trans (finCongr (by norm_num))) _ _ ?_
  rintro ⟨t, l⟩
  refine congrArg f (Fin.ext ?_)
  simp only [anchorOf, Equiv.trans_apply, finProdFinEquiv_apply_val, finCongr_apply, Fin.coe_cast]
  omega

/-- The embedding of the reals commutes with finite sums. -/
private theorem coe_finset_sum {ι : Type*} (s : Finset ι) (g : ι → ℝ) :
    ((∑ i ∈ s, g i : ℝ) : EReal) = ∑ i ∈ s, (g i : EReal) :=
  map_sum (⟨⟨Real.toEReal, EReal.coe_zero⟩, EReal.coe_add⟩ : ℝ →+ EReal) g s

/-- A count, as an extended real, is the sum of its indicator. -/
theorem card_filter_eq_sum (p : Fin 262144 → Prop) [DecidablePred p] :
    (((Finset.univ.filter p).card : ℝ) : EReal) = ∑ a : Fin 262144, (if p a then (1 : EReal) else 0) := by
  rw [← Finset.sum_boole p Finset.univ, coe_finset_sum]
  refine Finset.sum_congr rfl fun a _ => ?_
  by_cases h : p a
  · rw [if_pos h, if_pos h, EReal.coe_one]
  · rw [if_neg h, if_neg h, EReal.coe_zero]

/-- The f32 word `0x3F800000` denotes one. -/
theorem ofBits_one : Ideal.ofBits .f32 0x3F800000#32 = (1 : EReal) := Ideal.ofBits_one_f32

end Cert.BoxLoss

end
-- ==== Proof.KPay.lean ====
/-
  The kernel body's arithmetic, read at an index, at the ideal values.

  One grid point (image `b`, tile `t`) adds to the loss accumulator the sum over the tile's 4096 lanes of the masked
  L1 distance of the regression from the box coder's targets, and to the count accumulator the number of foreground
  lanes. The matched box is gathered by a one-hot contraction: entry `(g, l)` of the one-hot matrix is `1` when `g`
  is lane `l`'s matched index clamped below at zero and `0` otherwise, and the contraction against the transposed
  ground-truth table sums row `g` times that entry over the 128 rows. Every other operation is pointwise in the lane,
  or a re-indexing (a row of a four-row vector, four rows stacked, a transposition, a reshape), or a sum over the four
  coordinates of a box or over the lanes. Each is read at one index, and the whole update is then stated lane by lane
  in the vocabulary of the specification.
-/
import proofs.«430427_j12893491822714_3_alg».proof.Proof.KPieces
import proofs.«430427_j12893491822714_3_alg».proof.Proof.Spec
import proofs.«430427_j12893491822714_3_alg».proof.Proof.Algebra
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.KValue

open Cert.KernelIdeal Cert.KernelIdeal.Gen Idealize.ShloMosaic.ValueIdx

/-! ## The constants and the final quotient -/

/-- The loss accumulator's initial value: the zero word. -/
theorem pay2_apply (y : S1x1.Idx) : (k0_pay2 (F := Ideal)) y = 0 := by
  unfold k0_pay2
  rw [shapeCast_self]
  exact Ideal.ofBits_zero_f32

/-- The count accumulator's initial value: the zero word. -/
theorem pay3_apply (y : S1x1.Idx) : (k0_pay3 (F := Ideal)) y = 0 := by
  unfold k0_pay3
  rw [shapeCast_self]
  exact Ideal.ofBits_zero_f32

/-- The output block: the loss sum over the count clamped below at one. -/
theorem pay1_apply (n s : Vec Ideal S1x1 .f32) :
    k0_pay1 n s (ix3 0 0 0) = Ideal.div (s (ix2 0 0)) (max (n (ix2 0 0)) 1) := by
  unfold k0_pay1
  refine (shapeCast_apply _ _ (ix3 0 0 0) (ix2 0 0) ?_).trans ?_
  · rfl
  · show Ideal.div (s (ix2 0 0)) (max (n (ix2 0 0)) (Ideal.ofBits .f32 0x3F800000#32)) = _
    rw [Cert.BoxLoss.ofBits_one]

/-! ## Words: the foreground bit, the one-hot entry -/

/-- The comparison `i ≥ 0` of a signed word sets its bit exactly when the word's integer is non-negative. -/
theorem cmpi_sge_zero_iff (i : BitVec 32) : IntOp.cmpi .sge i 0#32 = 1#1 ↔ 0 ≤ i.toInt := by
  show BitVec.ofBool ((0#32).sle i) = 1#1 ↔ _
  rw [StableHlo.Predicate.ofBool_eq_one_iff, BitVec.sle_eq_decide, decide_eq_true_iff]
  exact Iff.rfl

/-- A bit widened to a word and read as a float is `1` when set and `0` when clear. -/
theorem bit_to_float (b : BitVec 1) :
    (Scalar.sitofp (F := Ideal) .f32 (b.setWidth 32) : EReal) = if b = 1#1 then (1 : EReal) else 0 := by
  rw [Ideal.scalar_sitofp_def]
  rcases BitVec.eq_zero_or_eq_one b with h | h
  · subst h
    rw [if_neg (by decide)]
    show (((0 : ℤ) : ℝ) : EReal) = 0
    rw [Int.cast_zero, EReal.coe_zero]
  · subst h
    rw [if_pos rfl]
    show (((1 : ℤ) : ℝ) : EReal) = 1
    rw [Int.cast_one, EReal.coe_one]

/-! ## The matched-index block: its lane, its foreground bit -/

/-- The [1,1,4096] index block viewed as [1,4096] reads lane `l` at `(0, 0, l)`. -/
theorem pay4_apply (x1 : Vec Ideal S1x1x4096 .i32) (l : Fin 4096) :
    k0_pay4 (F := Ideal) x1 (ix2 0 l) = x1 (ix3 0 0 l) := by
  unfold k0_pay4
  refine shapeCast_apply _ _ (ix2 0 l) (ix3 0 0 l) ?_
  rw [Shape.rowMajor_val_three, Shape.rowMajor_val_two]
  show ((0 : ℕ) * 1 + 0) * 4096 + l.val = 0 * 4096 + l.val
  omega

/-- The foreground bit of lane `l`. -/
theorem pay5_apply (x1 : Vec Ideal S1x1x4096 .i32) (l : Fin 4096) :
    k0_pay5 (F := Ideal) x1 (ix2 0 l) = IntOp.cmpi .sge (x1 (ix3 0 0 l)) 0#32 := by
  unfold k0_pay5
  show IntOp.cmpi .sge (k0_pay4 (F := Ideal) x1 (ix2 0 l)) 0#32 = _
  rw [pay4_apply]

/-! ## Lane sums -/

/-- The index a sum over the lanes of a [1,4096] vector reads at lane `k` is `(0, k)`. -/
theorem lift_lane (j : S1.Idx) (k : Fin 4096) :
    reduces_S1x4096_S1.lift j k = ix2 0 k := by
  funext c
  apply Fin.ext
  match c with
  | ⟨0, _⟩ =>
    show (reduces_S1x4096_S1.lift j k ⟨0, _⟩).val = 0
    have := (reduces_S1x4096_S1.lift j k ⟨0, by decide⟩).isLt
    change _ < 1 at this
    omega
  | ⟨1, _⟩ => rfl

/-- The sum over the 4096 lanes of a [1,4096] vector, stored as a [1,1] vector. -/
theorem laneSum_apply (v : FVec Ideal S1x4096 .f32) (y : S1x1.Idx) :
    shapeCast S1x1 (multiReduction (F := Ideal) .add [1] S1 v 0x00000000#32 reduces_S1x4096_S1 (.inl rfl) rfl) shapeCasts_S1_S1x1 y
      = ∑ l : Fin 4096, v (ix2 0 l) := by
  refine (shapeCast_apply _ _ y (ix1 0) ?_).trans ?_
  · rw [Shape.rowMajor_val_one, Shape.rowMajor_val_two]
    have h0 := (y 0).isLt
    have h1 := (y 1).isLt
    change _ < 1 at h0
    change _ < 1 at h1
    show (0 : ℕ) = (y 0).val * 1 + (y 1).val
    omega
  · refine (Ideal.multiReduction_add_single v _ reduces_S1x4096_S1 (.inl rfl) rfl (ix1 0)).trans ?_
    show ∑ k : Fin 4096, v (reduces_S1x4096_S1.lift (ix1 0) k) = _
    exact Finset.sum_congr rfl fun k _ => by rw [lift_lane]

/-! ## The count accumulator's update -/

theorem stepN_apply (x1 : Vec Ideal S1x1x4096 .i32) (n : Vec Ideal S1x1 .f32) :
    stepN x1 n (ix2 0 0) = n (ix2 0 0) + ∑ l : Fin 4096, (if 0 ≤ (x1 (ix3 0 0 l)).toInt then (1 : EReal) else 0) := by
  unfold stepN k0_pay15
  rw [shapeCast_self]
  show n (ix2 0 0) + _ = _
  rw [laneSum_apply]
  refine congrArg (n (ix2 0 0) + ·) (Finset.sum_congr rfl fun l _ => ?_)
  show Scalar.sitofp (F := Ideal) .f32 ((k0_pay5 (F := Ideal) x1 (ix2 0 l)).setWidth 32) = _
  rw [bit_to_float, pay5_apply]
  by_cases h : 0 ≤ (x1 (ix3 0 0 l)).toInt
  · rw [if_pos h, if_pos ((cmpi_sge_zero_iff _).mpr h)]
  · rw [if_neg h, if_neg (fun e => h ((cmpi_sge_zero_iff _).mp e))]

/-! ## The one-hot gather -/

/-- Row `g` of the one-hot matrix matches lane index `i` exactly when `g` is `i` clamped below at zero. -/
theorem onehot_index (i : BitVec 32) (g : Fin 128) :
    (BitVec.ofNat 32 g.val = IntOp.maxsi i 0#32) ↔ g.val = Cert.BoxLoss.clampIdx i := by
  have hg : (BitVec.ofNat 32 g.val).toNat = g.val := by
    rw [BitVec.toNat_ofNat]; exact Nat.mod_eq_of_lt (by have := g.isLt; omega)
  have h0 : (0#32).toInt = 0 := rfl
  have hti := BitVec.toInt_eq_toNat_cond i
  have hlt := i.isLt
  unfold IntOp.maxsi Cert.BoxLoss.clampIdx
  by_cases h : (0#32).slt i = true
  · rw [if_pos h]
    have hpos : (0#32).toInt < i.toInt := of_decide_eq_true (BitVec.slt_eq_decide ▸ h)
    rw [h0] at hpos
    have hi : i.toInt = (i.toNat : ℤ) := by
      split at hti
      · exact hti
      · omega
    constructor
    · intro e
      have := congrArg BitVec.toNat e
      rw [hg] at this
      omega
    · intro e
      apply BitVec.eq_of_toNat_eq
      rw [hg]; omega
  · rw [if_neg h]
    have hnpos : ¬ (0#32).toInt < i.toInt := fun hh => h (BitVec.slt_eq_decide ▸ decide_eq_true hh)
    rw [h0] at hnpos
    constructor
    · intro e
      have := congrArg BitVec.toNat e
      rw [hg] at this
      change g.val = 0 at this
      omega
    · intro e
      apply BitVec.eq_of_toNat_eq
      rw [hg]
      show g.val = 0
      omega

/-- Entry `(g, l)` of the one-hot matrix, as a float. -/
theorem onehot_entry (i : BitVec 32) (g : Fin 128) :
    (Scalar.sitofp (F := Ideal) .f32 ((IntOp.cmpi .eq (BitVec.ofNat 32 g.val) (IntOp.maxsi i 0#32)).setWidth 32) : EReal)
      = if g.val = Cert.BoxLoss.clampIdx i then (1 : EReal) else 0 := by
  rw [bit_to_float]
  by_cases h : g.val = Cert.BoxLoss.clampIdx i
  · rw [if_pos h, if_pos (StableHlo.Predicate.cmpi_eq_iff.mpr ((onehot_index i g).mpr h))]
  · rw [if_neg h, if_neg (fun e => h ((onehot_index i g).mp (StableHlo.Predicate.cmpi_eq_iff.mp e)))]

/-- The contraction's operand indices at output `(c, l)` and contraction coordinate `g`: the left operand is read at
    `(c, g)`, the right one at `(g, l)`. -/
theorem lhs_dot_0 (j : S4x4096.Idx) (k : dot_S4x128_S128x4096_S4x4096_1_0_0_1_n_n.contr.Idx) :
    (dot_S4x128_S128x4096_S4x4096_1_0_0_1_n_n.lhsIdx j k 0).val = (j 0).val := rfl
theorem lhs_dot_1 (j : S4x4096.Idx) (k : dot_S4x128_S128x4096_S4x4096_1_0_0_1_n_n.contr.Idx) :
    (dot_S4x128_S128x4096_S4x4096_1_0_0_1_n_n.lhsIdx j k 1).val = (k ⟨0, by decide⟩).val :=
  DotDims.lhsIdx_val_of_single _ rfl j k
theorem rhs_dot_0 (j : S4x4096.Idx) (k : dot_S4x128_S128x4096_S4x4096_1_0_0_1_n_n.contr.Idx) :
    (dot_S4x128_S128x4096_S4x4096_1_0_0_1_n_n.rhsIdx j k 0).val = (k ⟨0, by decide⟩).val :=
  DotDims.rhsIdx_val_of_single _ rfl j k
theorem rhs_dot_1 (j : S4x4096.Idx) (k : dot_S4x128_S128x4096_S4x4096_1_0_0_1_n_n.contr.Idx) :
    (dot_S4x128_S128x4096_S4x4096_1_0_0_1_n_n.rhsIdx j k 1).val = (j 1).val := rfl

/-- The gathered box: coordinate `c` of lane `l`'s matched box is the one-hot contraction of row `c` of the transposed
    table over its 128 entries. -/
theorem pay6_apply (x1 : Vec Ideal S1x1x4096 .i32) (x2 : Vec Ideal S1x4x128 .f32) (c : Fin 4) (l : Fin 4096) :
    k0_pay6 (F := Ideal) x1 x2 (ix2 c l)
      = ∑ g : Fin 128, x2 (ix3 0 c g) * (if g.val = Cert.BoxLoss.clampIdx (x1 (ix3 0 0 l)) then (1 : EReal) else 0) := by
  unfold k0_pay6
  refine (Ideal.matmul_constant_zero_apply _ _ _ _ (ix2 c l)).trans ?_
  rw [← Equiv.sum_comp (contrEquiv1 dot_S4x128_S128x4096_S4x4096_1_0_0_1_n_n 128 rfl rfl).symm]
  refine Finset.sum_congr rfl fun g _ => ?_
  have hL : dot_S4x128_S128x4096_S4x4096_1_0_0_1_n_n.lhsIdx (ix2 c l)
      ((contrEquiv1 dot_S4x128_S128x4096_S4x4096_1_0_0_1_n_n 128 rfl rfl).symm g) = ix2 c g :=
    Shape.idx_ext₂ (lhs_dot_0 _ _) ((lhs_dot_1 _ _).trans (contrEquiv1_symm_val _ 128 rfl rfl g))
  have hR : dot_S4x128_S128x4096_S4x4096_1_0_0_1_n_n.rhsIdx (ix2 c l)
      ((contrEquiv1 dot_S4x128_S128x4096_S4x4096_1_0_0_1_n_n 128 rfl rfl).symm g) = ix2 g l :=
    Shape.idx_ext₂ ((rhs_dot_0 _ _).trans (contrEquiv1_symm_val _ 128 rfl rfl g)) (rhs_dot_1 _ _)
  rw [hL, hR]
  have e1 : shapeCast S4x128 x2 shapeCasts_S1x4x128_S4x128 (ix2 c g) = x2 (ix3 0 c g) := by
    refine shapeCast_apply _ _ (ix2 c g) (ix3 0 c g) ?_
    rw [Shape.rowMajor_val_three, Shape.rowMajor_val_two]
    show ((0 : ℕ) * 4 + c.val) * 128 + g.val = c.val * 128 + g.val
    omega
  have e2 : broadcastTo S128x4096 (maxsi (k0_pay4 (F := Ideal) x1) (broadcast S1x4096 0#32)) broadcasts_S1x4096_S128x4096 (ix2 g l)
      = IntOp.maxsi (x1 (ix3 0 0 l)) 0#32 := by
    refine (broadcastTo_apply _ _ (ix2 g l) (ix2 0 l) fun a => ?_).trans ?_
    · match a with
      | ⟨0, _⟩ => rfl
      | ⟨1, _⟩ => rfl
    · show IntOp.maxsi (k0_pay4 (F := Ideal) x1 (ix2 0 l)) 0#32 = _
      rw [pay4_apply]
  have e3 : iota .tc S128x4096 32 [0] iota_S128x4096_d0_w32 (ix2 g l) = BitVec.ofNat 32 g.val :=
    iota_single_apply _ _ _ _ _ _
  rw [e1]
  refine congrArg (x2 (ix3 0 c g) * ·) ?_
  show Scalar.sitofp (F := Ideal) .f32 ((IntOp.cmpi .eq (iota .tc S128x4096 32 [0] iota_S128x4096_d0_w32 (ix2 g l))
    (broadcastTo S128x4096 (maxsi (k0_pay4 (F := Ideal) x1) (broadcast S1x4096 0#32)) broadcasts_S1x4096_S128x4096 (ix2 g l))).setWidth 32) = _
  rw [e2, e3, onehot_entry]

/-! ## Rows of a four-row vector -/

/-- The anchor tile passes through a reshape to its own shape unchanged. -/
theorem pay7_eq (T : Vec Ideal S4x4096 .f32) : k0_pay7 (F := Ideal) T = T := by
  unfold k0_pay7
  exact shapeCast_self _ _

/-- The one-row slice at row `r` of a [4,4096] vector reads `(r, l)` at lane `l`. -/
theorem sliceRow_apply (v : FVec Ideal S4x4096 .f32) (r : ℕ) (r' : Fin 4) (hr : r'.val = r)
    (h : S4x4096.Slices ![r, 0] S1x4096) (l : Fin 4096) :
    extractStridedSlice S1x4096 ![r, 0] v h (ix2 0 l) = v (ix2 r' l) := by
  refine extractStridedSlice_apply _ _ _ (ix2 0 l) (ix2 r' l) fun a => ?_
  match a with
  | ⟨0, _⟩ => exact hr
  | ⟨1, _⟩ => exact (Nat.zero_add _).symm

/-- The anchor's width at lane `l`. -/
theorem pay8_apply (T : Vec Ideal S4x4096 .f32) (l : Fin 4096) :
    k0_pay8 (F := Ideal) T (ix2 0 l) = T (ix2 2 l) - T (ix2 0 l) := by
  unfold k0_pay8
  rw [pay7_eq]
  show extractStridedSlice S1x4096 ![2, 0] T slices_S4x4096_o2_0_S1x4096 (ix2 0 l)
    - extractStridedSlice S1x4096 ![0, 0] T slices_S4x4096_o0_0_S1x4096 (ix2 0 l) = _
  rw [sliceRow_apply T 2 2 rfl, sliceRow_apply T 0 0 rfl]

/-- The anchor's height at lane `l`. -/
theorem pay9_apply (T : Vec Ideal S4x4096 .f32) (l : Fin 4096) :
    k0_pay9 (F := Ideal) T (ix2 0 l) = T (ix2 3 l) - T (ix2 1 l) := by
  unfold k0_pay9
  rw [pay7_eq]
  show extractStridedSlice S1x4096 ![3, 0] T slices_S4x4096_o3_0_S1x4096 (ix2 0 l)
    - extractStridedSlice S1x4096 ![1, 0] T slices_S4x4096_o1_0_S1x4096 (ix2 0 l) = _
  rw [sliceRow_apply T 3 3 rfl, sliceRow_apply T 1 1 rfl]

/-- The anchor's centre abscissa at lane `l`. -/
theorem pay10_apply (T : Vec Ideal S4x4096 .f32) (l : Fin 4096) :
    k0_pay10 (F := Ideal) T (ix2 0 l) = T (ix2 0 l) + Cert.BoxLoss.half * (T (ix2 2 l) - T (ix2 0 l)) := by
  unfold k0_pay10
  show extractStridedSlice S1x4096 ![0, 0] (k0_pay7 (F := Ideal) T) slices_S4x4096_o0_0_S1x4096 (ix2 0 l)
    + Cert.BoxLoss.half * k0_pay8 (F := Ideal) T (ix2 0 l) = _
  rw [pay7_eq, pay8_apply, sliceRow_apply T 0 0 rfl]

/-- The anchor's centre ordinate at lane `l`. -/
theorem pay11_apply (T : Vec Ideal S4x4096 .f32) (l : Fin 4096) :
    k0_pay11 (F := Ideal) T (ix2 0 l) = T (ix2 1 l) + Cert.BoxLoss.half * (T (ix2 3 l) - T (ix2 1 l)) := by
  unfold k0_pay11
  show extractStridedSlice S1x4096 ![1, 0] (k0_pay7 (F := Ideal) T) slices_S4x4096_o1_0_S1x4096 (ix2 0 l)
    + Cert.BoxLoss.half * k0_pay9 (F := Ideal) T (ix2 0 l) = _
  rw [pay7_eq, pay9_apply, sliceRow_apply T 1 1 rfl]

/-- The matched box's width at lane `l`. -/
theorem pay12_apply (x1 : Vec Ideal S1x1x4096 .i32) (x2 : Vec Ideal S1x4x128 .f32) (l : Fin 4096) :
    k0_pay12 (F := Ideal) x1 x2 (ix2 0 l) = k0_pay6 (F := Ideal) x1 x2 (ix2 2 l) - k0_pay6 (F := Ideal) x1 x2 (ix2 0 l) := by
  unfold k0_pay12
  show extractStridedSlice S1x4096 ![2, 0] (k0_pay6 (F := Ideal) x1 x2) slices_S4x4096_o2_0_S1x4096 (ix2 0 l)
    - extractStridedSlice S1x4096 ![0, 0] (k0_pay6 (F := Ideal) x1 x2) slices_S4x4096_o0_0_S1x4096 (ix2 0 l) = _
  rw [sliceRow_apply _ 2 2 rfl, sliceRow_apply _ 0 0 rfl]

/-- The matched box's height at lane `l`. -/
theorem pay13_apply (x1 : Vec Ideal S1x1x4096 .i32) (x2 : Vec Ideal S1x4x128 .f32) (l : Fin 4096) :
    k0_pay13 (F := Ideal) x1 x2 (ix2 0 l) = k0_pay6 (F := Ideal) x1 x2 (ix2 3 l) - k0_pay6 (F := Ideal) x1 x2 (ix2 1 l) := by
  unfold k0_pay13
  show extractStridedSlice S1x4096 ![3, 0] (k0_pay6 (F := Ideal) x1 x2) slices_S4x4096_o3_0_S1x4096 (ix2 0 l)
    - extractStridedSlice S1x4096 ![1, 0] (k0_pay6 (F := Ideal) x1 x2) slices_S4x4096_o1_0_S1x4096 (ix2 0 l) = _
  rw [sliceRow_apply _ 3 3 rfl, sliceRow_apply _ 1 1 rfl]

/-! ## Four rows stacked, the transposed regression block, the sum over a box's four coordinates -/

/-- Four one-row vectors stacked: row `k` at lane `l` is the `k`-th of them at lane `l`. -/
theorem concat4_apply (a b c d : FVec Ideal S1x4096 .f32) (k : Fin 4) (l : Fin 4096) :
    concatenate S4x4096 0 [⟨S1x4096, a⟩, ⟨S1x4096, b⟩, ⟨S1x4096, c⟩, ⟨S1x4096, d⟩]
      concatenates_S1x4096_S1x4096_S1x4096_S1x4096_S4x4096_d0 (ix2 k l) = (![a, b, c, d] k) (ix2 0 l) := by
  have hi : ∀ k' : Fin 4, ∀ b' : Fin S1x4096.rank, b'.cast (rfl : S1x4096.rank = S4x4096.rank) ≠ (0 : Fin S4x4096.rank) →
      ((ix2 (0 : Fin 1) l : S1x4096.Idx) b').val = ((ix2 k' l : S4x4096.Idx) (b'.cast rfl)).val := fun k' b' hb =>
    match b', hb with
    | ⟨0, _⟩, hb => absurd rfl hb
    | ⟨1, _⟩, _ => rfl
  match k with
  | ⟨0, hk⟩ =>
    exact concatenate_apply_piece (0 : Fin S4x4096.rank) [⟨S1x4096, a⟩, ⟨S1x4096, b⟩, ⟨S1x4096, c⟩, ⟨S1x4096, d⟩]
      concatenates_S1x4096_S1x4096_S1x4096_S1x4096_S4x4096_d0 (ix2 ⟨0, hk⟩ l) 0 (by show (0 : ℕ) < 4; omega) S1x4096 a rfl rfl 0 rfl (ix2 0 l)
      (hi ⟨0, hk⟩) rfl
  | ⟨1, hk⟩ =>
    exact concatenate_apply_piece (0 : Fin S4x4096.rank) [⟨S1x4096, a⟩, ⟨S1x4096, b⟩, ⟨S1x4096, c⟩, ⟨S1x4096, d⟩]
      concatenates_S1x4096_S1x4096_S1x4096_S1x4096_S4x4096_d0 (ix2 ⟨1, hk⟩ l) 1 (by show (1 : ℕ) < 4; omega) S1x4096 b rfl rfl 1 rfl (ix2 0 l)
      (hi ⟨1, hk⟩) rfl
  | ⟨2, hk⟩ =>
    exact concatenate_apply_piece (0 : Fin S4x4096.rank) [⟨S1x4096, a⟩, ⟨S1x4096, b⟩, ⟨S1x4096, c⟩, ⟨S1x4096, d⟩]
      concatenates_S1x4096_S1x4096_S1x4096_S1x4096_S4x4096_d0 (ix2 ⟨2, hk⟩ l) 2 (by show (2 : ℕ) < 4; omega) S1x4096 c rfl rfl 2 rfl (ix2 0 l)
      (hi ⟨2, hk⟩) rfl
  | ⟨3, hk⟩ =>
    exact concatenate_apply_piece (0 : Fin S4x4096.rank) [⟨S1x4096, a⟩, ⟨S1x4096, b⟩, ⟨S1x4096, c⟩, ⟨S1x4096, d⟩]
      concatenates_S1x4096_S1x4096_S1x4096_S1x4096_S4x4096_d0 (ix2 ⟨3, hk⟩ l) 3 (by show (3 : ℕ) < 4; omega) S1x4096 d rfl rfl 3 rfl (ix2 0 l)
      (hi ⟨3, hk⟩) rfl

/-- The regression block transposed: row `k`, lane `l` reads `(0, l, k)`. -/
theorem regT_apply (x0 : Vec Ideal S1x4096x4 .f32) (k : Fin 4) (l : Fin 4096) :
    transpose S4x4096 [1, 0] (shapeCast S4096x4 x0 shapeCasts_S1x4096x4_S4096x4) transposes_S4096x4_p1_0_S4x4096 (ix2 k l)
      = x0 (ix3 0 l k) := by
  refine (transpose_apply _ _ _ (ix2 k l) (ix2 l k) fun b => ?_).trans ?_
  · match b with
    | ⟨0, _⟩ => rfl
    | ⟨1, _⟩ => rfl
  · refine shapeCast_apply _ _ (ix2 l k) (ix3 0 l k) ?_
    rw [Shape.rowMajor_val_three, Shape.rowMajor_val_two]
    show ((0 : ℕ) * 4096 + l.val) * 4 + k.val = l.val * 4 + k.val
    omega

/-- The index a sum over the four rows of a [4,4096] vector reads at row `k` is `(k, l)`. -/
theorem lift_row (l : Fin 4096) (k : Fin 4) : reduces_S4x4096_S4096.lift (ix1 l) k = ix2 k l := by
  funext c
  apply Fin.ext
  match c with
  | ⟨0, _⟩ => rfl
  | ⟨1, _⟩ => rfl

/-- The sum over the four rows of a [4,4096] vector, stored as a [1,4096] vector. -/
theorem rowSum_apply (v : FVec Ideal S4x4096 .f32) (l : Fin 4096) :
    shapeCast S1x4096 (multiReduction (F := Ideal) .add [0] S4096 v 0x00000000#32 reduces_S4x4096_S4096 (.inl rfl) rfl)
      shapeCasts_S4096_S1x4096 (ix2 0 l) = ∑ k : Fin 4, v (ix2 k l) := by
  refine (shapeCast_apply _ _ (ix2 0 l) (ix1 l) ?_).trans ?_
  · rw [Shape.rowMajor_val_one, Shape.rowMajor_val_two]
    show l.val = 0 * 4096 + l.val
    omega
  · refine (Ideal.multiReduction_add_single v _ reduces_S4x4096_S4096 (.inl rfl) rfl (ix1 l)).trans ?_
    show ∑ k : Fin 4, v (reduces_S4x4096_S4096.lift (ix1 l) k) = _
    exact Finset.sum_congr rfl fun k _ => by rw [lift_row]

/-! ## The loss accumulator's update -/

/-- The box coder's four targets at lane `l`, from the body's intermediate rows: the matched box `v16`, the anchor's
    width, height and centre (`v24`, `v27`, `v31`, `v35`), the matched box's width and height (`v38`, `v41`). -/
def tgt (v16 : FVec Ideal S4x4096 .f32) (v24 v27 v31 v35 v38 v41 : FVec Ideal S1x4096 .f32) (l : Fin 4096) : Fin 4 → EReal :=
  ![Ideal.div ((v16 (ix2 0 l) + Cert.BoxLoss.half * v38 (ix2 0 l)) - v31 (ix2 0 l)) (v24 (ix2 0 l)),
    Ideal.div ((v16 (ix2 1 l) + Cert.BoxLoss.half * v41 (ix2 0 l)) - v35 (ix2 0 l)) (v27 (ix2 0 l)),
    Ideal.log (Ideal.div (v38 (ix2 0 l)) (v24 (ix2 0 l))),
    Ideal.log (Ideal.div (v41 (ix2 0 l)) (v27 (ix2 0 l)))]

/-- The accumulator plus, lane by lane, the L1 distance of the regression from those targets where the lane's bit is set. -/
theorem pay14_apply (v6 : IVec S1x4096 1) (v16 : FVec Ideal S4x4096 .f32) (v24 v27 v31 v35 v38 v41 : FVec Ideal S1x4096 .f32)
    (x0 : Vec Ideal S1x4096x4 .f32) (s : Vec Ideal S1x1 .f32) :
    k0_pay14 v6 v16 v24 v27 v31 v35 v38 v41 x0 s (ix2 0 0) = s (ix2 0 0) + ∑ l : Fin 4096,
      (if v6 (ix2 0 l) = 1#1 then
         ∑ k : Fin 4, max (x0 (ix3 0 l k) - tgt v16 v24 v27 v31 v35 v38 v41 l k)
           (-(x0 (ix3 0 l k) - tgt v16 v24 v27 v31 v35 v38 v41 l k))
       else 0) := by
  unfold k0_pay14
  rw [shapeCast_self]
  show s (ix2 0 0) + _ = _
  rw [laneSum_apply]
  refine congrArg (s (ix2 0 0) + ·) (Finset.sum_congr rfl fun l _ => ?_)
  show (if v6 (ix2 0 l) = 1#1 then
      shapeCast S1x4096 (multiReduction (F := Ideal) .add [0] S4096 _ 0x00000000#32 reduces_S4x4096_S4096 (.inl rfl) rfl)
        shapeCasts_S4096_S1x4096 (ix2 0 l)
    else Ideal.ofBits .f32 0x00000000#32) = _
  rw [rowSum_apply, Ideal.ofBits_zero_f32]
  refine congrArg (fun t => if v6 (ix2 0 l) = 1#1 then t else (0 : EReal)) (Finset.sum_congr rfl fun k _ => ?_)
  show max (transpose S4x4096 [1, 0] (shapeCast S4096x4 x0 shapeCasts_S1x4096x4_S4096x4) transposes_S4096x4_p1_0_S4x4096 (ix2 k l)
        - concatenate S4x4096 0 _ _ (ix2 k l))
      (-(transpose S4x4096 [1, 0] (shapeCast S4096x4 x0 shapeCasts_S1x4096x4_S4096x4) transposes_S4096x4_p1_0_S4x4096 (ix2 k l)
        - concatenate S4x4096 0 _ _ (ix2 k l))) = _
  rw [regT_apply, concat4_apply]
  refine congrArg (fun t => max (x0 (ix3 0 l k) - t) (-(x0 (ix3 0 l k) - t))) ?_
  match k with
  | ⟨0, _⟩ =>
    show Ideal.div ((extractStridedSlice S1x4096 ![0, 0] v16 slices_S4x4096_o0_0_S1x4096 (ix2 0 l) + _ * v38 (ix2 0 l))
      - v31 (ix2 0 l)) (v24 (ix2 0 l)) = _
    rw [sliceRow_apply v16 0 0 rfl]
    rfl
  | ⟨1, _⟩ =>
    show Ideal.div ((extractStridedSlice S1x4096 ![1, 0] v16 slices_S4x4096_o1_0_S1x4096 (ix2 0 l) + _ * v41 (ix2 0 l))
      - v35 (ix2 0 l)) (v27 (ix2 0 l)) = _
    rw [sliceRow_apply v16 1 1 rfl]
    rfl
  | ⟨2, _⟩ => rfl
  | ⟨3, _⟩ => rfl

theorem stepS_apply (i : grid0.Coords) (x0 : Vec Ideal S1x4096x4 .f32) (x1 : Vec Ideal S1x1x4096 .i32)
    (x2 : Vec Ideal S1x4x128 .f32) (x3 : Vec Ideal S4x262144 .f32) (s : Vec Ideal S1x1 .f32) :
    stepS i x0 x1 x2 x3 s (ix2 0 0) = s (ix2 0 0) + ∑ l : Fin 4096,
      (if 0 ≤ (x1 (ix3 0 0 l)).toInt then
         Cert.BoxLoss.l1
           (fun c => ∑ g : Fin 128, x2 (ix3 0 c g) * (if g.val = Cert.BoxLoss.clampIdx (x1 (ix3 0 0 l)) then (1 : EReal) else 0))
           (fun k => tile i x3 (ix2 k l)) (fun k => x0 (ix3 0 l k))
       else 0) := by
  unfold stepS
  rw [pay14_apply]
  refine congrArg (s (ix2 0 0) + ·) (Finset.sum_congr rfl fun l _ => ?_)
  rw [pay5_apply]
  have hT : tgt (k0_pay6 (F := Ideal) x1 x2) (k0_pay8 (tile i x3)) (k0_pay9 (tile i x3)) (k0_pay10 (tile i x3))
      (k0_pay11 (tile i x3)) (k0_pay12 x1 x2) (k0_pay13 x1 x2) l
      = Cert.BoxLoss.encode
          (fun c => ∑ g : Fin 128, x2 (ix3 0 c g) * (if g.val = Cert.BoxLoss.clampIdx (x1 (ix3 0 0 l)) then (1 : EReal) else 0))
          (fun k => tile i x3 (ix2 k l)) := by
    unfold tgt Cert.BoxLoss.encode
    rw [pay8_apply, pay9_apply, pay10_apply, pay11_apply, pay12_apply, pay13_apply,
      pay6_apply x1 x2 0 l, pay6_apply x1 x2 1 l, pay6_apply x1 x2 2 l, pay6_apply x1 x2 3 l]
  by_cases h : 0 ≤ (x1 (ix3 0 0 l)).toInt
  · rw [if_pos h, if_pos ((cmpi_sge_zero_iff _).mpr h), hT]
    rfl
  · rw [if_neg h, if_neg (fun e => h ((cmpi_sge_zero_iff _).mp e))]

end Cert.KernelIdeal.KValue

end
-- ==== Proof.KClosed.lean ====
import proofs.«430427_j12893491822714_3_alg».proof.Proof.KFinal
import proofs.«430427_j12893491822714_3_alg».proof.Proof.KBlocks
import proofs.«430427_j12893491822714_3_alg».proof.Proof.KPay
import proofs.«430427_j12893491822714_3_alg».proof.Proof.Spec
import proofs.«430427_j12893491822714_3_alg».proof.Proof.Algebra

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.BoxLoss

/-! ## The accumulators in closed form: tile sums of the anchors' losses, and of the foreground indicator -/

/-- One lane of a tile: when the loaded blocks hold the argument arrays' entries of image `b` and anchor `a`, the lane's
    masked L1 value is that anchor's loss. -/
theorem lane_eq (x0 : Vec Ideal S1x4096x4 .f32) (x1 : Vec Ideal S1x1x4096 .i32) (x2 : Vec Ideal S1x4x128 .f32)
    (T : Vec Ideal S4x4096 .f32) (X : SX.Idx → EReal) (A : SA.Idx → EReal) (G : SG.Idx → EReal) (I : SI.Idx → BitVec 32)
    (b : Fin 16) (a : Fin 262144) (l : Fin 4096)
    (h1 : x1 (ix3 0 0 l) = I (ix2 b a)) (h0 : ∀ k, x0 (ix3 0 l k) = X (ix3 b a k))
    (h2 : ∀ c' g, x2 (ix3 0 c' g) = G (ix3 b g c')) (h3 : ∀ k, T (ix2 k l) = A (ix2 a k)) :
    (if 0 ≤ (x1 (ix3 0 0 l)).toInt then
        l1 (fun c' => ∑ g : Fin 128, x2 (ix3 0 c' g) * (if g.val = clampIdx (x1 (ix3 0 0 l)) then (1 : EReal) else 0))
          (fun k => T (ix2 k l)) (fun k => x0 (ix3 0 l k))
      else 0) = cellK X A G I b a := by
  simp only [h1, h0, h2, h3]
  rfl

variable (m : (ℓ : Loc nD τ sig) → Buf (Elt Ideal) ℓ)

/-- The four argument arrays as core `c` holds them at launch. -/
abbrev argX (c : Dev nD) : SX.Idx → EReal := m ((c : Thread nD τ).loc main_arg0)
abbrev argA (c : Dev nD) : SA.Idx → EReal := m ((c : Thread nD τ).loc main_arg1)
abbrev argG (c : Dev nD) : SG.Idx → EReal := m ((c : Thread nD τ).loc main_arg2)
abbrev argI (c : Dev nD) : SI.Idx → BitVec 32 := m ((c : Thread nD τ).loc main_arg3)

/-- Tile `t'` of image `b`: the sum of its 4096 anchors' losses (zero past the last tile). -/
def tileSum (c : Dev nD) (b : Fin 16) (t' : ℕ) : EReal :=
  if h : t' < 64 then ∑ l : Fin 4096, cellK (argX m c) (argA m c) (argG m c) (argI m c) b (anchorOf ⟨t', h⟩ l) else 0

/-- Tile `t'` of image `b`: the number of its foreground anchors, as a sum of indicators. -/
def tileCnt (c : Dev nD) (b : Fin 16) (t' : ℕ) : EReal :=
  if h : t' < 64 then ∑ l : Fin 4096, (if 0 ≤ (argI m c (ix2 b (anchorOf ⟨t', h⟩ l))).toInt then (1 : EReal) else 0) else 0

/-- One tile's update of the loss accumulator at a grid point: the accumulator plus the tile's sum. -/
theorem stepS_at (c : Dev nD) (t : Fin cfg0.N) (s : Vec Ideal S1x1 .f32) :
    stepS (grid0.coords t) (iblk m c 0 t) (iblk m c 1 t) (iblk m c 2 t) (iblk m c 3 t) s (ix2 0 0)
      = s (ix2 0 0) + tileSum m c (imgOf t) (t.val % 64) := by
  refine (stepS_apply (grid0.coords t) (iblk m c 0 t) (iblk m c 1 t) (iblk m c 2 t) (iblk m c 3 t) s).trans ?_
  refine congrArg (s (ix2 0 0) + ·) ?_
  unfold tileSum
  rw [dif_pos (Nat.mod_lt _ (by decide))]
  exact Finset.sum_congr rfl fun l _ =>
    lane_eq (iblk m c 0 t) (iblk m c 1 t) (iblk m c 2 t) (tile (grid0.coords t) (iblk m c 3 t))
      (argX m c) (argA m c) (argG m c) (argI m c) (imgOf t) (anchorOf (tileOf t) l) l
      (iblk1_apply m c t l) (fun k => iblk0_apply m c t l k) (fun c' g => iblk2_apply m c t c' g)
      (fun k => tile_iblk3_apply m c t k l)

/-- One tile's update of the count accumulator at a grid point: the accumulator plus the tile's count. -/
theorem stepN_at (c : Dev nD) (t : Fin cfg0.N) (n : Vec Ideal S1x1 .f32) :
    stepN (iblk m c 1 t) n (ix2 0 0) = n (ix2 0 0) + tileCnt m c (imgOf t) (t.val % 64) := by
  refine (stepN_apply (iblk m c 1 t) n).trans ?_
  refine congrArg (n (ix2 0 0) + ·) ?_
  unfold tileCnt
  rw [dif_pos (Nat.mod_lt _ (by decide))]
  exact Finset.sum_congr rfl fun l _ => by
    have e : (iblk m c 1 t : Vec Ideal S1x1x4096 .i32) (ix3 0 0 l) = argI m c (ix2 (imgOf t) (anchorOf (tileOf t) l)) := iblk1_apply m c t l
    show (if 0 ≤ ((iblk m c 1 t : Vec Ideal S1x1x4096 .i32) (ix3 0 0 l)).toInt then (1 : EReal) else 0) = _
    rw [e]
    rfl

/-- The loss accumulator after position `n`: the sum of the image's tiles up to this one. -/
theorem accS_closed (c : Dev nD) : ∀ (n : ℕ) (h : n < cfg0.N),
    accS m c n h (ix2 0 0) = ∑ t' ∈ Finset.range (n % 64 + 1), tileSum m c (imgOf ⟨n, h⟩) t'
  | 0, h => by
    refine (stepS_at m c ⟨0, h⟩ (k0_pay2 (F := Ideal))).trans ?_
    rw [pay2_apply, zero_add]
    show tileSum m c (imgOf ⟨0, h⟩) (0 % 64) = ∑ t' ∈ Finset.range (0 % 64 + 1), tileSum m c (imgOf ⟨0, h⟩) t'
    rw [Nat.zero_mod, Finset.sum_range_one]
  | n + 1, h => by
    have ih := accS_closed c n (Nat.lt_of_succ_lt h)
    refine (stepS_at m c ⟨n + 1, h⟩ (if (n + 1) % 64 = 0 then (k0_pay2 (F := Ideal)) else accS m c n (Nat.lt_of_succ_lt h))).trans ?_
    show _ + tileSum m c (imgOf ⟨n + 1, h⟩) ((n + 1) % 64) = _
    by_cases h0 : (n + 1) % 64 = 0
    · rw [if_pos h0, pay2_apply, zero_add, h0, Finset.sum_range_one]
    · have e1 : (n + 1) % 64 = n % 64 + 1 := by omega
      have e2 : imgOf ⟨n, Nat.lt_of_succ_lt h⟩ = imgOf ⟨n + 1, h⟩ := Fin.ext (by show n / 64 = (n + 1) / 64; omega)
      rw [if_neg h0, ih, e1, e2]
      exact (Finset.sum_range_succ _ _).symm

/-- The count accumulator after position `n`: the sum of the image's tile counts up to this one. -/
theorem accN_closed (c : Dev nD) : ∀ (n : ℕ) (h : n < cfg0.N),
    accN m c n h (ix2 0 0) = ∑ t' ∈ Finset.range (n % 64 + 1), tileCnt m c (imgOf ⟨n, h⟩) t'
  | 0, h => by
    refine (stepN_at m c ⟨0, h⟩ (k0_pay3 (F := Ideal))).trans ?_
    rw [pay3_apply, zero_add]
    show tileCnt m c (imgOf ⟨0, h⟩) (0 % 64) = ∑ t' ∈ Finset.range (0 % 64 + 1), tileCnt m c (imgOf ⟨0, h⟩) t'
    rw [Nat.zero_mod, Finset.sum_range_one]
  | n + 1, h => by
    have ih := accN_closed c n (Nat.lt_of_succ_lt h)
    refine (stepN_at m c ⟨n + 1, h⟩ (if (n + 1) % 64 = 0 then (k0_pay3 (F := Ideal)) else accN m c n (Nat.lt_of_succ_lt h))).trans ?_
    show _ + tileCnt m c (imgOf ⟨n + 1, h⟩) ((n + 1) % 64) = _
    by_cases h0 : (n + 1) % 64 = 0
    · rw [if_pos h0, pay3_apply, zero_add, h0, Finset.sum_range_one]
    · have e1 : (n + 1) % 64 = n % 64 + 1 := by omega
      have e2 : imgOf ⟨n, Nat.lt_of_succ_lt h⟩ = imgOf ⟨n + 1, h⟩ := Fin.ext (by show n / 64 = (n + 1) / 64; omega)
      rw [if_neg h0, ih, e1, e2]
      exact (Finset.sum_range_succ _ _).symm

theorem imgPos_mod (b : Fin 16) : (imgPos b).val % 64 + 1 = 64 := by
  show (64 * b.val + 63) % 64 + 1 = 64; omega

theorem imgOf_imgPos (b : Fin 16) : imgOf ⟨(imgPos b).val, (imgPos b).isLt⟩ = b :=
  Fin.ext (by show (64 * b.val + 63) / 64 = b.val; omega)

/-- After an image's last tile the loss accumulator holds the sum of ALL its anchors' losses. -/
theorem accS_last (c : Dev nD) (b : Fin 16) :
    accS m c (imgPos b).val (imgPos b).isLt (ix2 0 0)
      = ∑ a : Fin 262144, cellK (argX m c) (argA m c) (argG m c) (argI m c) b a := by
  rw [accS_closed, imgPos_mod, imgOf_imgPos, Finset.sum_range, ← sum_tiles]
  refine Finset.sum_congr rfl fun t _ => ?_
  unfold tileSum
  rw [dif_pos t.isLt]

/-- After an image's last tile the count accumulator holds the number of its foreground anchors. -/
theorem accN_last (c : Dev nD) (b : Fin 16) :
    accN m c (imgPos b).val (imgPos b).isLt (ix2 0 0) = (((fgCount (argI m c) b : ℕ) : ℝ) : EReal) := by
  rw [accN_closed, imgPos_mod, imgOf_imgPos, Finset.sum_range]
  unfold fgCount
  rw [card_filter_eq_sum, ← sum_tiles]
  refine Finset.sum_congr rfl fun t _ => ?_
  unfold tileCnt
  rw [dif_pos t.isLt]

/-- Entry `b` of the output array is image `b`'s value. -/
theorem outArr_eq (c : Dev nD) (b : Fin 16) :
    outArr m c (ix3 b 0 0) = perImageK (argX m c) (argA m c) (argG m c) (argI m c) b := by
  show k0_pay1 (accN m c (imgPos b).val (imgPos b).isLt) (accS m c (imgPos b).val (imgPos b).isLt) (ix3 0 0 0) = _
  rw [pay1_apply, accS_last, accN_last]
  rfl

end Cert.KernelIdeal.KValue

end
-- ==== Proof.KRun.lean ====
import proofs.«430427_j12893491822714_3_alg».proof.Proof.KFinal

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-! ## The run, read: @main's result is the mean over the sixteen images of the output array's entries -/

/-- What @main does after the kernel call: the [16,1,1] output as a vector of sixteen, summed from zero, over sixteen. -/
def meanOf (o : Vec F S16x1x1 .f32) : Vec F S_ .f32 :=
  Host.divf (Host.reduceAdd (shapeCast S16 o shapeCasts_S16x1x1_S16) (constant S_ .f32 0x00000000#32) reducesTo_S16_S_d0 h_S_)
    (constant S_ .f32 0x41800000#32)

/-- The operations after the kernel call, applied to the output array as the call leaves it. -/
theorem tail_eq (c : Dev nD) :
    Pipeline.afterTail₀ cfgs (dats m) 0 (V0 m) [hostOps1] c main_v6 = meanOf (outArr m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v3)
      = outArr m c :=
    (Pipeline.withArrays_arr spec0 launch0.win.arr_inj c _ _ 4).trans (final_out m c)
  rw [hw]
  rfl

/-- Every weakly fair execution of @main terminates with the result at the mean of the output array's entries and the
    four argument arrays unchanged. -/
theorem run : θ_run defs (onTc (τ := τ) (main (F := F))) ⟨m, fun _ => 0, ρ⟩ fun r => ∀ c : Dev nD,
      r.2.mem ((c.tc : Thread nD τ).loc main_v6) = meanOf (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.KTail.lean ====
import proofs.«430427_j12893491822714_3_alg».proof.Proof.Gen.KernelIdeal
import Idealize.ShloMosaic.Lib.ValueIdx
import Idealize.ShloMosaic.Lib.Pipeline.Value

noncomputable section

open Idealize.ShloMosaic Idealize.SL.Sem

namespace Cert.KernelIdeal.KValue

open Cert.KernelIdeal Cert.KernelIdeal.Gen Idealize.ShloMosaic.ValueIdx

variable {F : FTy → Type} [FloatOps F]

/-! ## The reshape after the region

  The region's output has one entry per image, at `(b, 0, 0)`; the host line after it reshapes the `[16, 1, 1]` array
  to a vector of sixteen. Both indices have row-major position `b`, so the vector's entry `b` is the array's entry
  `(b, 0, 0)`. -/

/-- A `[16, 1, 1]` array reshaped to a vector of sixteen reads, at `b`, the array's entry `(b, 0, 0)`. -/
theorem shapeCast_out_of {α : Type} (o : S16x1x1.Idx → α) (h : S16x1x1.ShapeCasts S16) (b : Fin 16) :
    shapeCast S16 o h (ix1 b) = o (ix3 b 0 0) :=
  shapeCast_apply o h _ _ (by
    rw [Shape.rowMajor_val_three, Shape.rowMajor_val_one]
    show (b.val * 1 + 0) * 1 + 0 = b.val
    omega)

/-- The same for the region's output array, with the reshape's side condition as the program cites it. -/
theorem shapeCast_out (o : Vec F S16x1x1 .f32) (b : Fin 16) :
    shapeCast S16 o shapeCasts_S16x1x1_S16 (ix1 b) = o (ix3 b 0 0) :=
  shapeCast_out_of o _ b

end Cert.KernelIdeal.KValue

end
-- ==== Proof.RefStagesLaid.lean ====
/-
  The reference's straight line of 115 operations, cut where few buffers are live, and each of the first five stretches
  read over ARBITRARY contents of the buffers it reads: a buffer a stretch writes holds the stage of those contents (the
  stage's inputs given as hypotheses), a buffer it does not write keeps its contents. The cuts: the index clamp (7
  operations), the take (22), the anchors' widths, heights and centres (23), the matched boxes' (22), the four targets as
  one-column arrays (18); then the join of the four columns (1) and everything after it (22). The take's operations are
  those of an inlined function, over references that carry their values' types; they are restated over the buffers
  themselves, except the `and`-reduce, whose transports are removed where its result is read. No operation writes an
  argument.
-/
import proofs.«430427_j12893491822714_3_alg».proof.Proof.RefRead
import Idealize.ShloMosaic.Lib.Pipeline.Frame

noncomputable section

namespace Cert.ReferenceIdeal.RefStages

open Cert.ReferenceIdeal Cert.ReferenceIdeal.Gen Idealize.ShloMosaic Idealize.ShloMosaic.TcCoe Idealize.SL.Sem Idealize.ShloMosaic.StableHlo

variable {F : FTy → Type} [FloatOps F]

/-- The operations up to the four targets' columns; the join of the columns; everything after it. -/
abbrev opsA : List (HloOp τ sig (Elt F)) := (ValueP.ops (F := F)).take 92
abbrev opJoin : HloOp τ sig (Elt F) :=
  nary ![main_v61, main_v62, main_v63, main_v64] main_v65 (fun u => concatenate S16x262144x4 2 [⟨S16x262144x1, u 0⟩, ⟨S16x262144x1, u 1⟩, ⟨S16x262144x1, u 2⟩, ⟨S16x262144x1, u 3⟩] concatenates_S16x262144x1_S16x262144x1_S16x262144x1_S16x262144x1_S16x262144x4_d2)
abbrev opsC : List (HloOp τ sig (Elt F)) := (ValueP.ops (F := F)).drop 93

theorem ops_split : (ValueP.ops (F := F)) = opsA ++ opJoin :: opsC := rfl

/-! ## The first 92 operations in five stretches -/

abbrev Str1 : List (HloOp τ sig (Elt F)) := (ValueP.ops (F := F)).take 7
abbrev Str2 : List (HloOp τ sig (Elt F)) := ((ValueP.ops (F := F)).drop 7).take 22
abbrev Str3 : List (HloOp τ sig (Elt F)) := ((ValueP.ops (F := F)).drop 29).take 23
abbrev Str4 : List (HloOp τ sig (Elt F)) := ((ValueP.ops (F := F)).drop 52).take 22
abbrev Str5 : List (HloOp τ sig (Elt F)) := ((ValueP.ops (F := F)).drop 74).take 18

theorem opsA_split : (opsA (F := F)) = Str1 ++ (Str2 ++ (Str3 ++ (Str4 ++ Str5))) := rfl

/-! ### The index stretch: the foreground mask and the clamped index -/

set_option maxRecDepth 8192 in
set_option maxHeartbeats 4000000 in
theorem Str1_v1 (W : Valuation τ sig (Elt F)) (a3 : (⟨S16x262144, .i32⟩ : BufTy).Contents (Elt F))
    (h_arg3 : W (Proc.devRef .tc main_arg3) = a3) :
    after Str1 W (Proc.devRef .tc main_v1) = ReadP.val_main_v1 (F := F) a3 := by
  show after [_, _, _, _, _, _, _] W _ = _
  after_results
  try simp only [TRef.ofBuf, TRef.toBuf, cast_eq]
  rw [h_arg3]
  rfl

set_option maxRecDepth 8192 in
set_option maxHeartbeats 4000000 in
theorem Str1_v4 (W : Valuation τ sig (Elt F)) (a3 : (⟨S16x262144, .i32⟩ : BufTy).Contents (Elt F))
    (h_arg3 : W (Proc.devRef .tc main_arg3) = a3) :
    after Str1 W (Proc.devRef .tc main_v4) = ReadP.val_main_v4 (F := F) a3 := by
  show after [_, _, _, _, _, _, _] W _ = _
  after_results
  try simp only [TRef.ofBuf, TRef.toBuf, cast_eq]
  rw [h_arg3]
  rfl

set_option maxRecDepth 8192 in
set_option maxHeartbeats 4000000 in
theorem Str1_keep_arg0 (W : Valuation τ sig (Elt F)) :
    after Str1 W (Proc.devRef .tc main_arg0) = W (Proc.devRef .tc main_arg0) := by
  show after [_, _, _, _, _, _, _] W _ = _
  after_results_simp <;> rfl

set_option maxRecDepth 8192 in
set_option maxHeartbeats 4000000 in
theorem Str1_keep_arg1 (W : Valuation τ sig (Elt F)) :
    after Str1 W (Proc.devRef .tc main_arg1) = W (Proc.devRef .tc main_arg1) := by
  show after [_, _, _, _, _, _, _] W _ = _
  after_results_simp <;> rfl

set_option maxRecDepth 8192 in
set_option maxHeartbeats 4000000 in
theorem Str1_keep_arg2 (W : Valuation τ sig (Elt F)) :
    after Str1 W (Proc.devRef .tc main_arg2) = W (Proc.devRef .tc main_arg2) := by
  show after [_, _, _, _, _, _, _] W _ = _
  after_results_simp <;> rfl

/-! ### The take: the matched box -/

/-- The take's 22 operations over the buffers themselves: the inlined callee's typed references are references whose
    types are the values' types, so each operation is the plain one at those buffers. (The `and`-reduce keeps its
    typed form: its transports are removed where its result is read.) -/
abbrev Str2p : List (HloOp τ sig (Elt F)) :=
  [
    nullary main_call0_c (constantI S_ 32 0#32),
    unary main_call0_c main_call0_v0 ((broadcastInDim S16x262144x1 ![] bcast_S_S16x262144x1) : (⟨S_, .i32⟩ : BufTy).Contents (Elt F) → (⟨S16x262144x1, .i32⟩ : BufTy).Contents (Elt F)),
    binary main_v4 main_call0_v0 main_call0_v1 ((cmpi .slt) : (⟨S16x262144x1, .i32⟩ : BufTy).Contents (Elt F) → (⟨S16x262144x1, .i32⟩ : BufTy).Contents (Elt F) → (⟨S16x262144x1, .i1⟩ : BufTy).Contents (Elt F)),
    nullary main_call0_c_0 (constantI S_ 32 128#32),
    unary main_call0_c_0 main_call0_v2 ((broadcastInDim S16x262144x1 ![] bcast_S_S16x262144x1) : (⟨S_, .i32⟩ : BufTy).Contents (Elt F) → (⟨S16x262144x1, .i32⟩ : BufTy).Contents (Elt F)),
    binary main_v4 main_call0_v2 main_call0_v3 ((addi) : (⟨S16x262144x1, .i32⟩ : BufTy).Contents (Elt F) → (⟨S16x262144x1, .i32⟩ : BufTy).Contents (Elt F) → (⟨S16x262144x1, .i32⟩ : BufTy).Contents (Elt F)),
    ternary main_call0_v1 main_call0_v3 main_v4 main_call0_v4 ((select) : (⟨S16x262144x1, .i1⟩ : BufTy).Contents (Elt F) → (⟨S16x262144x1, .i32⟩ : BufTy).Contents (Elt F) → (⟨S16x262144x1, .i32⟩ : BufTy).Contents (Elt F) → (⟨S16x262144x1, .i32⟩ : BufTy).Contents (Elt F)),
    nullary main_call0_c_1 (constantI S1 32 127#32),
    nullary main_call0_c_2 (constantI S_ 32 0#32),
    unary main_call0_c_2 main_call0_v5 ((broadcastInDim S16x262144x1 ![] bcast_S_S16x262144x1) : (⟨S_, .i32⟩ : BufTy).Contents (Elt F) → (⟨S16x262144x1, .i32⟩ : BufTy).Contents (Elt F)),
    binary main_call0_v4 main_call0_v5 main_call0_v6 ((cmpi .sge) : (⟨S16x262144x1, .i32⟩ : BufTy).Contents (Elt F) → (⟨S16x262144x1, .i32⟩ : BufTy).Contents (Elt F) → (⟨S16x262144x1, .i1⟩ : BufTy).Contents (Elt F)),
    unary main_call0_c_1 main_call0_v7 ((broadcastInDim S1x1x1 ![2] bcast_S1_S1x1x1_2) : (⟨S1, .i32⟩ : BufTy).Contents (Elt F) → (⟨S1x1x1, .i32⟩ : BufTy).Contents (Elt F)),
    unary main_call0_v7 main_call0_v8 ((broadcastInDim S16x262144x1 ![0, 1, 2] bcast_S1x1x1_S16x262144x1_0_1_2) : (⟨S1x1x1, .i32⟩ : BufTy).Contents (Elt F) → (⟨S16x262144x1, .i32⟩ : BufTy).Contents (Elt F)),
    binary main_call0_v4 main_call0_v8 main_call0_v9 ((cmpi .sle) : (⟨S16x262144x1, .i32⟩ : BufTy).Contents (Elt F) → (⟨S16x262144x1, .i32⟩ : BufTy).Contents (Elt F) → (⟨S16x262144x1, .i1⟩ : BufTy).Contents (Elt F)),
    binary main_call0_v6 main_call0_v9 main_call0_v10 ((andi) : (⟨S16x262144x1, .i1⟩ : BufTy).Contents (Elt F) → (⟨S16x262144x1, .i1⟩ : BufTy).Contents (Elt F) → (⟨S16x262144x1, .i1⟩ : BufTy).Contents (Elt F)),
    nullary main_call0_c_3 (constantI S_ 1 1#1),
    TRef.binary (TRef.of (T := ⟨S16x262144x1, .i1⟩) main_call0_v10) (TRef.of (T := ⟨S_, .i1⟩) main_call0_c_3) (TRef.of (T := ⟨S16x262144, .i1⟩) main_call0_v11) (fun x v => Host.reduce IntOp.andi x v reducesTo_S16x262144x1_S16x262144_d2 h_S_),
    binary main_arg2 main_call0_v4 main_call0_v12 ((fun x i => Host.gather gather_S16x128x4_S16x262144x1_S16x262144x4_2_1_0_0_1_2_114 x i) : (⟨S16x128x4, .f32⟩ : BufTy).Contents (Elt F) → (⟨S16x262144x1, .i32⟩ : BufTy).Contents (Elt F) → (⟨S16x262144x4, .f32⟩ : BufTy).Contents (Elt F)),
    unary main_call0_v11 main_call0_v13 ((broadcastInDim S16x262144x4 ![0, 1] bcast_S16x262144_S16x262144x4_0_1) : (⟨S16x262144, .i1⟩ : BufTy).Contents (Elt F) → (⟨S16x262144x4, .i1⟩ : BufTy).Contents (Elt F)),
    nullary main_call0_cst (constant S_ .f32 0x7FC00000#32),
    unary main_call0_cst main_call0_v14 ((broadcastInDim S16x262144x4 ![] bcast_S_S16x262144x4) : (⟨S_, .f32⟩ : BufTy).Contents (Elt F) → (⟨S16x262144x4, .f32⟩ : BufTy).Contents (Elt F)),
    ternary main_call0_v13 main_call0_v12 main_call0_v14 main_v5 ((select) : (⟨S16x262144x4, .i1⟩ : BufTy).Contents (Elt F) → (⟨S16x262144x4, .f32⟩ : BufTy).Contents (Elt F) → (⟨S16x262144x4, .f32⟩ : BufTy).Contents (Elt F) → (⟨S16x262144x4, .f32⟩ : BufTy).Contents (Elt F))
  ]

set_option maxRecDepth 8192 in
set_option maxHeartbeats 1000000 in
theorem Str2_eq : (Str2 (F := F)) = Str2p := rfl

set_option maxRecDepth 8192 in
set_option maxHeartbeats 4000000 in
theorem Str2_v5 (W : Valuation τ sig (Elt F)) (a2 : (⟨S16x128x4, .f32⟩ : BufTy).Contents (Elt F)) (a3 : (⟨S16x262144, .i32⟩ : BufTy).Contents (Elt F))
    (h_v4 : W (Proc.devRef .tc main_v4) = ReadP.val_main_v4 (F := F) a3)
    (h_arg2 : W (Proc.devRef .tc main_arg2) = a2) :
    after Str2 W (Proc.devRef .tc main_v5) = ReadP.val_main_v5 (F := F) a2 a3 := by
  rw [Str2_eq]
  after_results
  try simp only [TRef.ofBuf, TRef.toBuf, cast_eq]
  rw [h_v4, h_arg2]
  rfl

set_option maxRecDepth 8192 in
set_option maxHeartbeats 4000000 in
theorem Str2_keep_arg0 (W : Valuation τ sig (Elt F)) :
    after Str2 W (Proc.devRef .tc main_arg0) = W (Proc.devRef .tc main_arg0) := by
  rw [Str2_eq]
  after_results_simp <;> rfl

set_option maxRecDepth 8192 in
set_option maxHeartbeats 4000000 in
theorem Str2_keep_arg1 (W : Valuation τ sig (Elt F)) :
    after Str2 W (Proc.devRef .tc main_arg1) = W (Proc.devRef .tc main_arg1) := by
  rw [Str2_eq]
  after_results_simp <;> rfl

set_option maxRecDepth 8192 in
set_option maxHeartbeats 4000000 in
theorem Str2_keep_v1 (W : Valuation τ sig (Elt F)) :
    after Str2 W (Proc.devRef .tc main_v1) = W (Proc.devRef .tc main_v1) := by
  rw [Str2_eq]
  after_results_simp <;> rfl

/-! ### The anchors' widths, heights and centres -/

set_option maxRecDepth 8192 in
set_option maxHeartbeats 4000000 in
theorem Str3_v11 (W : Valuation τ sig (Elt F)) (a1 : (⟨S262144x4, .f32⟩ : BufTy).Contents (Elt F))
    (h_arg1 : W (Proc.devRef .tc main_arg1) = a1) :
    after Str3 W (Proc.devRef .tc main_v11) = ReadP.val_main_v11 (F := F) a1 := by
  show after [_, _, _, _, _, _, _, _, _, _, _, _, _, _, _, _, _, _, _, _, _, _, _] W _ = _
  after_results
  try simp only [TRef.ofBuf, TRef.toBuf, cast_eq]
  rw [h_arg1]
  rfl

set_option maxRecDepth 8192 in
set_option maxHeartbeats 4000000 in
theorem Str3_v16 (W : Valuation τ sig (Elt F)) (a1 : (⟨S262144x4, .f32⟩ : BufTy).Contents (Elt F))
    (h_arg1 : W (Proc.devRef .tc main_arg1) = a1) :
    after Str3 W (Proc.devRef .tc main_v16) = ReadP.val_main_v16 (F := F) a1 := by
  show after [_, _, _, _, _, _, _, _, _, _, _, _, _, _, _, _, _, _, _, _, _, _, _] W _ = _
  after_results
  try simp only [TRef.ofBuf, TRef.toBuf, cast_eq]
  rw [h_arg1]
  rfl

set_option maxRecDepth 8192 in
set_option maxHeartbeats 4000000 in
theorem Str3_v21 (W : Valuation τ sig (Elt F)) (a1 : (⟨S262144x4, .f32⟩ : BufTy).Contents (Elt F))
    (h_arg1 : W (Proc.devRef .tc main_arg1) = a1) :
    after Str3 W (Proc.devRef .tc main_v21) = ReadP.val_main_v21 (F := F) a1 := by
  show after [_, _, _, _, _, _, _, _, _, _, _, _, _, _, _, _, _, _, _, _, _, _, _] W _ = _
  after_results
  try simp only [TRef.ofBuf, TRef.toBuf, cast_eq]
  rw [h_arg1]
  rfl

set_option maxRecDepth 8192 in
set_option maxHeartbeats 4000000 in
theorem Str3_v26 (W : Valuation τ sig (Elt F)) (a1 : (⟨S262144x4, .f32⟩ : BufTy).Contents (Elt F))
    (h_arg1 : W (Proc.devRef .tc main_arg1) = a1) :
    after Str3 W (Proc.devRef .tc main_v26) = ReadP.val_main_v26 (F := F) a1 := by
  show after [_, _, _, _, _, _, _, _, _, _, _, _, _, _, _, _, _, _, _, _, _, _, _] W _ = _
  after_results
  try simp only [TRef.ofBuf, TRef.toBuf, cast_eq]
  rw [h_arg1]
  rfl

set_option maxRecDepth 8192 in
set_option maxHeartbeats 4000000 in
theorem Str3_keep_arg0 (W : Valuation τ sig (Elt F)) :
    after Str3 W (Proc.devRef .tc main_arg0) = W (Proc.devRef .tc main_arg0) := by
  show after [_, _, _, _, _, _, _, _, _, _, _, _, _, _, _, _, _, _, _, _, _, _, _] W _ = _
  after_results_simp <;> rfl

set_option maxRecDepth 8192 in
set_option maxHeartbeats 4000000 in
theorem Str3_keep_v1 (W : Valuation τ sig (Elt F)) :
    after Str3 W (Proc.devRef .tc main_v1) = W (Proc.devRef .tc main_v1) := by
  show after [_, _, _, _, _, _, _, _, _, _, _, _, _, _, _, _, _, _, _, _, _, _, _] W _ = _
  after_results_simp <;> rfl

set_option maxRecDepth 8192 in
set_option maxHeartbeats 4000000 in
theorem Str3_keep_v5 (W : Valuation τ sig (Elt F)) :
    after Str3 W (Proc.devRef .tc main_v5) = W (Proc.devRef .tc main_v5) := by
  show after [_, _, _, _, _, _, _, _, _, _, _, _, _, _, _, _, _, _, _, _, _, _, _] W _ = _
  after_results_simp <;> rfl

/-! ### The matched boxes' widths, heights and centres -/

set_option maxRecDepth 8192 in
set_option maxHeartbeats 4000000 in
theorem Str4_v31 (W : Valuation τ sig (Elt F)) (a2 : (⟨S16x128x4, .f32⟩ : BufTy).Contents (Elt F)) (a3 : (⟨S16x262144, .i32⟩ : BufTy).Contents (Elt F))
    (h_v5 : W (Proc.devRef .tc main_v5) = ReadP.val_main_v5 (F := F) a2 a3) :
    after Str4 W (Proc.devRef .tc main_v31) = ReadP.val_main_v31 (F := F) a2 a3 := by
  show after [_, _, _, _, _, _, _, _, _, _, _, _, _, _, _, _, _, _, _, _, _, _] W _ = _
  after_results
  try simp only [TRef.ofBuf, TRef.toBuf, cast_eq]
  rw [h_v5]
  rfl

set_option maxRecDepth 8192 in
set_option maxHeartbeats 4000000 in
theorem Str4_v36 (W : Valuation τ sig (Elt F)) (a2 : (⟨S16x128x4, .f32⟩ : BufTy).Contents (Elt F)) (a3 : (⟨S16x262144, .i32⟩ : BufTy).Contents (Elt F))
    (h_v5 : W (Proc.devRef .tc main_v5) = ReadP.val_main_v5 (F := F) a2 a3) :
    after Str4 W (Proc.devRef .tc main_v36) = ReadP.val_main_v36 (F := F) a2 a3 := by
  show after [_, _, _, _, _, _, _, _, _, _, _, _, _, _, _, _, _, _, _, _, _, _] W _ = _
  after_results
  try simp only [TRef.ofBuf, TRef.toBuf, cast_eq]
  rw [h_v5]
  rfl

set_option maxRecDepth 8192 in
set_option maxHeartbeats 4000000 in
theorem Str4_v41 (W : Valuation τ sig (Elt F)) (a2 : (⟨S16x128x4, .f32⟩ : BufTy).Contents (Elt F)) (a3 : (⟨S16x262144, .i32⟩ : BufTy).Contents (Elt F))
    (h_v5 : W (Proc.devRef .tc main_v5) = ReadP.val_main_v5 (F := F) a2 a3) :
    after Str4 W (Proc.devRef .tc main_v41) = ReadP.val_main_v41 (F := F) a2 a3 := by
  show after [_, _, _, _, _, _, _, _, _, _, _, _, _, _, _, _, _, _, _, _, _, _] W _ = _
  after_results
  try simp only [TRef.ofBuf, TRef.toBuf, cast_eq]
  rw [h_v5]
  rfl

set_option maxRecDepth 8192 in
set_option maxHeartbeats 4000000 in
theorem Str4_v46 (W : Valuation τ sig (Elt F)) (a2 : (⟨S16x128x4, .f32⟩ : BufTy).Contents (Elt F)) (a3 : (⟨S16x262144, .i32⟩ : BufTy).Contents (Elt F))
    (h_v5 : W (Proc.devRef .tc main_v5) = ReadP.val_main_v5 (F := F) a2 a3) :
    after Str4 W (Proc.devRef .tc main_v46) = ReadP.val_main_v46 (F := F) a2 a3 := by
  show after [_, _, _, _, _, _, _, _, _, _, _, _, _, _, _, _, _, _, _, _, _, _] W _ = _
  after_results
  try simp only [TRef.ofBuf, TRef.toBuf, cast_eq]
  rw [h_v5]
  rfl

set_option maxRecDepth 8192 in
set_option maxHeartbeats 4000000 in
theorem Str4_keep_arg0 (W : Valuation τ sig (Elt F)) :
    after Str4 W (Proc.devRef .tc main_arg0) = W (Proc.devRef .tc main_arg0) := by
  show after [_, _, _, _, _, _, _, _, _, _, _, _, _, _, _, _, _, _, _, _, _, _] W _ = _
  after_results_simp <;> rfl

set_option maxRecDepth 8192 in
set_option maxHeartbeats 4000000 in
theorem Str4_keep_v1 (W : Valuation τ sig (Elt F)) :
    after Str4 W (Proc.devRef .tc main_v1) = W (Proc.devRef .tc main_v1) := by
  show after [_, _, _, _, _, _, _, _, _, _, _, _, _, _, _, _, _, _, _, _, _, _] W _ = _
  after_results_simp <;> rfl

set_option maxRecDepth 8192 in
set_option maxHeartbeats 4000000 in
theorem Str4_keep_v11 (W : Valuation τ sig (Elt F)) :
    after Str4 W (Proc.devRef .tc main_v11) = W (Proc.devRef .tc main_v11) := by
  show after [_, _, _, _, _, _, _, _, _, _, _, _, _, _, _, _, _, _, _, _, _, _] W _ = _
  after_results_simp <;> rfl

set_option maxRecDepth 8192 in
set_option maxHeartbeats 4000000 in
theorem Str4_keep_v16 (W : Valuation τ sig (Elt F)) :
    after Str4 W (Proc.devRef .tc main_v16) = W (Proc.devRef .tc main_v16) := by
  show after [_, _, _, _, _, _, _, _, _, _, _, _, _, _, _, _, _, _, _, _, _, _] W _ = _
  after_results_simp <;> rfl

set_option maxRecDepth 8192 in
set_option maxHeartbeats 4000000 in
theorem Str4_keep_v21 (W : Valuation τ sig (Elt F)) :
    after Str4 W (Proc.devRef .tc main_v21) = W (Proc.devRef .tc main_v21) := by
  show after [_, _, _, _, _, _, _, _, _, _, _, _, _, _, _, _, _, _, _, _, _, _] W _ = _
  after_results_simp <;> rfl

set_option maxRecDepth 8192 in
set_option maxHeartbeats 4000000 in
theorem Str4_keep_v26 (W : Valuation τ sig (Elt F)) :
    after Str4 W (Proc.devRef .tc main_v26) = W (Proc.devRef .tc main_v26) := by
  show after [_, _, _, _, _, _, _, _, _, _, _, _, _, _, _, _, _, _, _, _, _, _] W _ = _
  after_results_simp <;> rfl

/-! ### The four targets, each as a one-column array -/

set_option maxRecDepth 8192 in
set_option maxHeartbeats 4000000 in
theorem Str5_v61 (W : Valuation τ sig (Elt F)) (a1 : (⟨S262144x4, .f32⟩ : BufTy).Contents (Elt F)) (a2 : (⟨S16x128x4, .f32⟩ : BufTy).Contents (Elt F)) (a3 : (⟨S16x262144, .i32⟩ : BufTy).Contents (Elt F))
    (h_v41 : W (Proc.devRef .tc main_v41) = ReadP.val_main_v41 (F := F) a2 a3)
    (h_v21 : W (Proc.devRef .tc main_v21) = ReadP.val_main_v21 (F := F) a1)
    (h_v11 : W (Proc.devRef .tc main_v11) = ReadP.val_main_v11 (F := F) a1) :
    after Str5 W (Proc.devRef .tc main_v61) = ReadP.val_main_v61 (F := F) a1 a2 a3 := by
  show after [_, _, _, _, _, _, _, _, _, _, _, _, _, _, _, _, _, _] W _ = _
  after_results
  try simp only [TRef.ofBuf, TRef.toBuf, cast_eq]
  rw [h_v41, h_v21, h_v11]
  rfl

set_option maxRecDepth 8192 in
set_option maxHeartbeats 4000000 in
theorem Str5_v62 (W : Valuation τ sig (Elt F)) (a1 : (⟨S262144x4, .f32⟩ : BufTy).Contents (Elt F)) (a2 : (⟨S16x128x4, .f32⟩ : BufTy).Contents (Elt F)) (a3 : (⟨S16x262144, .i32⟩ : BufTy).Contents (Elt F))
    (h_v46 : W (Proc.devRef .tc main_v46) = ReadP.val_main_v46 (F := F) a2 a3)
    (h_v26 : W (Proc.devRef .tc main_v26) = ReadP.val_main_v26 (F := F) a1)
    (h_v16 : W (Proc.devRef .tc main_v16) = ReadP.val_main_v16 (F := F) a1) :
    after Str5 W (Proc.devRef .tc main_v62) = ReadP.val_main_v62 (F := F) a1 a2 a3 := by
  show after [_, _, _, _, _, _, _, _, _, _, _, _, _, _, _, _, _, _] W _ = _
  after_results
  try simp only [TRef.ofBuf, TRef.toBuf, cast_eq]
  rw [h_v46, h_v26, h_v16]
  rfl

set_option maxRecDepth 8192 in
set_option maxHeartbeats 4000000 in
theorem Str5_v63 (W : Valuation τ sig (Elt F)) (a1 : (⟨S262144x4, .f32⟩ : BufTy).Contents (Elt F)) (a2 : (⟨S16x128x4, .f32⟩ : BufTy).Contents (Elt F)) (a3 : (⟨S16x262144, .i32⟩ : BufTy).Contents (Elt F))
    (h_v31 : W (Proc.devRef .tc main_v31) = ReadP.val_main_v31 (F := F) a2 a3)
    (h_v11 : W (Proc.devRef .tc main_v11) = ReadP.val_main_v11 (F := F) a1) :
    after Str5 W (Proc.devRef .tc main_v63) = ReadP.val_main_v63 (F := F) a1 a2 a3 := by
  show after [_, _, _, _, _, _, _, _, _, _, _, _, _, _, _, _, _, _] W _ = _
  after_results
  try simp only [TRef.ofBuf, TRef.toBuf, cast_eq]
  rw [h_v31, h_v11]
  rfl

set_option maxRecDepth 8192 in
set_option maxHeartbeats 4000000 in
theorem Str5_v64 (W : Valuation τ sig (Elt F)) (a1 : (⟨S262144x4, .f32⟩ : BufTy).Contents (Elt F)) (a2 : (⟨S16x128x4, .f32⟩ : BufTy).Contents (Elt F)) (a3 : (⟨S16x262144, .i32⟩ : BufTy).Contents (Elt F))
    (h_v36 : W (Proc.devRef .tc main_v36) = ReadP.val_main_v36 (F := F) a2 a3)
    (h_v16 : W (Proc.devRef .tc main_v16) = ReadP.val_main_v16 (F := F) a1) :
    after Str5 W (Proc.devRef .tc main_v64) = ReadP.val_main_v64 (F := F) a1 a2 a3 := by
  show after [_, _, _, _, _, _, _, _, _, _, _, _, _, _, _, _, _, _] W _ = _
  after_results
  try simp only [TRef.ofBuf, TRef.toBuf, cast_eq]
  rw [h_v36, h_v16]
  rfl

set_option maxRecDepth 8192 in
set_option maxHeartbeats 4000000 in
theorem Str5_keep_arg0 (W : Valuation τ sig (Elt F)) :
    after Str5 W (Proc.devRef .tc main_arg0) = W (Proc.devRef .tc main_arg0) := by
  show after [_, _, _, _, _, _, _, _, _, _, _, _, _, _, _, _, _, _] W _ = _
  after_results_simp <;> rfl

set_option maxRecDepth 8192 in
set_option maxHeartbeats 4000000 in
theorem Str5_keep_v1 (W : Valuation τ sig (Elt F)) :
    after Str5 W (Proc.devRef .tc main_v1) = W (Proc.devRef .tc main_v1) := by
  show after [_, _, _, _, _, _, _, _, _, _, _, _, _, _, _, _, _, _] W _ = _
  after_results_simp <;> rfl

/-! ### No operation writes an argument -/

set_option maxRecDepth 8192 in
set_option maxHeartbeats 4000000 in
theorem arg0_eq (V : Valuation τ sig (Elt F)) :
    after (ValueP.ops (F := F)) V (Proc.devRef .tc main_arg0) = V (Proc.devRef .tc main_arg0) := by
  after_results_simp <;> rfl

set_option maxRecDepth 8192 in
set_option maxHeartbeats 4000000 in
theorem arg1_eq (V : Valuation τ sig (Elt F)) :
    after (ValueP.ops (F := F)) V (Proc.devRef .tc main_arg1) = V (Proc.devRef .tc main_arg1) := by
  after_results_simp <;> rfl

set_option maxRecDepth 8192 in
set_option maxHeartbeats 4000000 in
theorem arg2_eq (V : Valuation τ sig (Elt F)) :
    after (ValueP.ops (F := F)) V (Proc.devRef .tc main_arg2) = V (Proc.devRef .tc main_arg2) := by
  after_results_simp <;> rfl

set_option maxRecDepth 8192 in
set_option maxHeartbeats 4000000 in
theorem arg3_eq (V : Valuation τ sig (Elt F)) :
    after (ValueP.ops (F := F)) V (Proc.devRef .tc main_arg3) = V (Proc.devRef .tc main_arg3) := by
  after_results_simp <;> rfl

end Cert.ReferenceIdeal.RefStages

end
-- ==== Proof.RefStages.lean ====
/-
  The reference's run, read back stage by stage.

  The reference is a straight line of 115 operations; its contents after the line are the fold of the operations' results
  over the launch contents. The line is cut where few buffers are live, and the first five stretches are read over
  arbitrary contents of the buffers they read. Here: the last stretch (everything after the join of the four columns)
  over arbitrary contents; the join itself, whose result is the concatenation of the four columns' contents; the five
  stretches threaded, giving after the first 92 operations the four columns and the foreground mask as stages of the
  arguments and the regression argument untouched; hence the result buffer after the whole line as the last stage of the
  arguments; and the run: every weakly fair execution terminates with the result buffer at that stage of the launch
  contents, the arguments unchanged.
-/
import proofs.«430427_j12893491822714_3_alg».proof.Proof.RefStagesLaid

noncomputable section

namespace Cert.ReferenceIdeal.RefStages

open Cert.ReferenceIdeal Cert.ReferenceIdeal.Gen Idealize.ShloMosaic Idealize.ShloMosaic.TcCoe Idealize.SL.Sem Idealize.ShloMosaic.StableHlo

variable {F : FTy → Type} [FloatOps F]

/-! ## The last stretch, over any contents of the buffers it reads -/

set_option maxRecDepth 8192 in
set_option maxHeartbeats 4000000 in
theorem stretchC (W : Valuation τ sig (Elt F))
    (a0 : (⟨S16x262144x4, .f32⟩ : BufTy).Contents (Elt F)) (a1 : (⟨S262144x4, .f32⟩ : BufTy).Contents (Elt F))
    (a2 : (⟨S16x128x4, .f32⟩ : BufTy).Contents (Elt F)) (a3 : (⟨S16x262144, .i32⟩ : BufTy).Contents (Elt F))
    (h0 : W (Proc.devRef .tc main_arg0) = a0)
    (h1 : W (Proc.devRef .tc main_v1) = ReadP.val_main_v1 (F := F) a3)
    (h65 : W (Proc.devRef .tc main_v65) = ReadP.val_main_v65 (F := F) a1 a2 a3) :
    after opsC W (Proc.devRef .tc main_v78) = ReadP.val_main_v78 (F := F) a0 a1 a2 a3 := by
  show after [_, _, _, _, _, _, _, _, _, _, _, _, _, _, _, _, _, _, _, _, _, _] W _ = _
  after_results
  simp only [TRef.ofBuf, TRef.toBuf, cast_eq]
  rw [h65, h0, h1]
  rfl

/-! ## The join of the four columns, over any contents -/

/-- The joined targets, when the four columns hold their stages. -/
theorem join_at (W : Valuation τ sig (Elt F)) (a1 : (⟨S262144x4, .f32⟩ : BufTy).Contents (Elt F))
    (a2 : (⟨S16x128x4, .f32⟩ : BufTy).Contents (Elt F)) (a3 : (⟨S16x262144, .i32⟩ : BufTy).Contents (Elt F))
    (h61 : W (Proc.devRef .tc main_v61) = ReadP.val_main_v61 (F := F) a1 a2 a3)
    (h62 : W (Proc.devRef .tc main_v62) = ReadP.val_main_v62 (F := F) a1 a2 a3)
    (h63 : W (Proc.devRef .tc main_v63) = ReadP.val_main_v63 (F := F) a1 a2 a3)
    (h64 : W (Proc.devRef .tc main_v64) = ReadP.val_main_v64 (F := F) a1 a2 a3) :
    (opJoin (F := F)).result W (Proc.devRef .tc main_v65) = ReadP.val_main_v65 (F := F) a1 a2 a3 := by
  rw [nary4_result, h61, h62, h63, h64]
  rfl

/-- The join writes its own buffer only. -/
theorem join_arg0 (W : Valuation τ sig (Elt F)) :
    (opJoin (F := F)).result W (Proc.devRef .tc main_arg0) = W (Proc.devRef .tc main_arg0) := by
  rw [nary_result_ne]; decide

theorem join_v1 (W : Valuation τ sig (Elt F)) :
    (opJoin (F := F)).result W (Proc.devRef .tc main_v1) = W (Proc.devRef .tc main_v1) := by
  rw [nary_result_ne]; decide

/-! ## The five stretches joined: what the join and the last stretch read, after the first 92 operations -/

theorem stretchA (V : Valuation τ sig (Elt F)) :
    after opsA V (Proc.devRef .tc main_arg0) = V (Proc.devRef .tc main_arg0)
    ∧ after opsA V (Proc.devRef .tc main_v1) = ReadP.val_main_v1 (F := F) (V (Proc.devRef .tc main_arg3))
    ∧ after opsA V (Proc.devRef .tc main_v61) = ReadP.val_main_v61 (F := F) (V (Proc.devRef .tc main_arg1)) (V (Proc.devRef .tc main_arg2)) (V (Proc.devRef .tc main_arg3))
    ∧ after opsA V (Proc.devRef .tc main_v62) = ReadP.val_main_v62 (F := F) (V (Proc.devRef .tc main_arg1)) (V (Proc.devRef .tc main_arg2)) (V (Proc.devRef .tc main_arg3))
    ∧ after opsA V (Proc.devRef .tc main_v63) = ReadP.val_main_v63 (F := F) (V (Proc.devRef .tc main_arg1)) (V (Proc.devRef .tc main_arg2)) (V (Proc.devRef .tc main_arg3))
    ∧ after opsA V (Proc.devRef .tc main_v64) = ReadP.val_main_v64 (F := F) (V (Proc.devRef .tc main_arg1)) (V (Proc.devRef .tc main_arg2)) (V (Proc.devRef .tc main_arg3)) := by
  rw [opsA_split, StableHlo.after_append, StableHlo.after_append, StableHlo.after_append, StableHlo.after_append]
  -- after the index stretch
  have k1_a0 := Str1_keep_arg0 V
  have k1_a1 := Str1_keep_arg1 V
  have k1_a2 := Str1_keep_arg2 V
  have o1_v1 := Str1_v1 V (V (Proc.devRef .tc main_arg3)) rfl
  have o1_v4 := Str1_v4 V (V (Proc.devRef .tc main_arg3)) rfl
  -- after the take
  have k2_a0 := (Str2_keep_arg0 (after Str1 V)).trans k1_a0
  have k2_a1 := (Str2_keep_arg1 (after Str1 V)).trans k1_a1
  have k2_v1 := (Str2_keep_v1 (after Str1 V)).trans o1_v1
  have o2_v5 := Str2_v5 (after Str1 V) (V (Proc.devRef .tc main_arg2)) (V (Proc.devRef .tc main_arg3)) o1_v4 k1_a2
  -- after the anchors' geometry
  have k3_a0 := (Str3_keep_arg0 (after Str2 (after Str1 V))).trans k2_a0
  have k3_v1 := (Str3_keep_v1 (after Str2 (after Str1 V))).trans k2_v1
  have k3_v5 := (Str3_keep_v5 (after Str2 (after Str1 V))).trans o2_v5
  have o3_v11 := Str3_v11 (after Str2 (after Str1 V)) (V (Proc.devRef .tc main_arg1)) k2_a1
  have o3_v16 := Str3_v16 (after Str2 (after Str1 V)) (V (Proc.devRef .tc main_arg1)) k2_a1
  have o3_v21 := Str3_v21 (after Str2 (after Str1 V)) (V (Proc.devRef .tc main_arg1)) k2_a1
  have o3_v26 := Str3_v26 (after Str2 (after Str1 V)) (V (Proc.devRef .tc main_arg1)) k2_a1
  -- after the matched boxes' geometry
  have k4_a0 := (Str4_keep_arg0 (after Str3 (after Str2 (after Str1 V)))).trans k3_a0
  have k4_v1 := (Str4_keep_v1 (after Str3 (after Str2 (after Str1 V)))).trans k3_v1
  have k4_v11 := (Str4_keep_v11 (after Str3 (after Str2 (after Str1 V)))).trans o3_v11
  have k4_v16 := (Str4_keep_v16 (after Str3 (after Str2 (after Str1 V)))).trans o3_v16
  have k4_v21 := (Str4_keep_v21 (after Str3 (after Str2 (after Str1 V)))).trans o3_v21
  have k4_v26 := (Str4_keep_v26 (after Str3 (after Str2 (after Str1 V)))).trans o3_v26
  have o4_v31 := Str4_v31 (after Str3 (after Str2 (after Str1 V))) (V (Proc.devRef .tc main_arg2)) (V (Proc.devRef .tc main_arg3)) k3_v5
  have o4_v36 := Str4_v36 (after Str3 (after Str2 (after Str1 V))) (V (Proc.devRef .tc main_arg2)) (V (Proc.devRef .tc main_arg3)) k3_v5
  have o4_v41 := Str4_v41 (after Str3 (after Str2 (after Str1 V))) (V (Proc.devRef .tc main_arg2)) (V (Proc.devRef .tc main_arg3)) k3_v5
  have o4_v46 := Str4_v46 (after Str3 (after Str2 (after Str1 V))) (V (Proc.devRef .tc main_arg2)) (V (Proc.devRef .tc main_arg3)) k3_v5
  -- after the targets
  exact ⟨(Str5_keep_arg0 (after Str4 (after Str3 (after Str2 (after Str1 V))))).trans k4_a0, (Str5_keep_v1 (after Str4 (after Str3 (after Str2 (after Str1 V))))).trans k4_v1,
    Str5_v61 (after Str4 (after Str3 (after Str2 (after Str1 V)))) (V (Proc.devRef .tc main_arg1)) (V (Proc.devRef .tc main_arg2)) (V (Proc.devRef .tc main_arg3)) o4_v41 k4_v21 k4_v11,
    Str5_v62 (after Str4 (after Str3 (after Str2 (after Str1 V)))) (V (Proc.devRef .tc main_arg1)) (V (Proc.devRef .tc main_arg2)) (V (Proc.devRef .tc main_arg3)) o4_v46 k4_v26 k4_v16,
    Str5_v63 (after Str4 (after Str3 (after Str2 (after Str1 V)))) (V (Proc.devRef .tc main_arg1)) (V (Proc.devRef .tc main_arg2)) (V (Proc.devRef .tc main_arg3)) o4_v31 k4_v11,
    Str5_v64 (after Str4 (after Str3 (after Str2 (after Str1 V)))) (V (Proc.devRef .tc main_arg1)) (V (Proc.devRef .tc main_arg2)) (V (Proc.devRef .tc main_arg3)) o4_v36 k4_v16⟩

/-! ## The whole line -/

/-- The result buffer after the whole line is the last stage of the arguments. -/
theorem result_eq (V : Valuation τ sig (Elt F)) :
    after (ValueP.ops (F := F)) V (Proc.devRef .tc main_v78)
      = ReadP.val_main_v78 (F := F) (V (Proc.devRef .tc main_arg0)) (V (Proc.devRef .tc main_arg1)) (V (Proc.devRef .tc main_arg2)) (V (Proc.devRef .tc main_arg3)) := by
  obtain ⟨hA0, hA1, h61, h62, h63, h64⟩ := stretchA V
  rw [ops_split, StableHlo.after_append, after_cons]
  refine stretchC _ _ _ _ _ ?_ ?_ ?_
  · rw [join_arg0, hA0]
  · rw [join_v1, hA1]
  · exact join_at _ _ _ _ h61 h62 h63 h64

/-! ## The run -/

set_option maxRecDepth 8192 in
set_option maxHeartbeats 4000000 in
/-- Every weakly fair execution of the reference terminates with the result buffer at the last stage of the arguments'
    launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = ReadP.val_main_v78 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v78).trans (result_eq (launchContents m c)),
     (h c main_arg0).trans (arg0_eq (launchContents m c)),
     (h c main_arg1).trans (arg1_eq (launchContents m c)),
     (h c main_arg2).trans (arg2_eq (launchContents m c)),
     (h c main_arg3).trans (arg3_eq (launchContents m c))⟩)
    (run_seq ValueP.scopedRefs_eq ValueP.scopedSems_eq defs main (fun _ => ValueP.ops) ValueP.main_eq (fun _ => ValueP.ops_sub) m ρ)

end Cert.ReferenceIdeal.RefStages

end
-- ==== Proof.RefValueLaid.lean ====
/-
  Coordinates only: the columns of the anchor table and of the selected box read through the reference's slices and
  reshapes, and the index maps of its broadcasts at an index given by its coordinates. A slice `[.., .., k : k+1]`
  followed by the reshape that drops the unit axis reads column `k`; the row-major position `b · 262144 + a` splits
  back into `b` and `a`. A broadcast of a one-row array reads row `0`; a broadcast that appends a unit axis reads the
  index without it.
-/
import proofs.«430427_j12893491822714_3_alg».proof.Proof.RefRead
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx

/-! ## Columns of the anchor table -/

theorem anc_v8 (x1 : (⟨S262144x4, .f32⟩ : BufTy).Contents (Elt Ideal)) (a : Fin 262144) (z : Fin 1) :
    val_main_v8 (F := Ideal) x1 (ix2 z a) = x1 (ix2 a 2) := by
  have hz : z.val < 1 := z.isLt
  have ha : a.val < 262144 := a.isLt
  rw [val_main_v8_apply, val_main_v7_apply, val_main_v6_apply]
  refine congrArg x1 ?_
  funext d; refine Fin.ext ?_
  match d with
  | ⟨0, _⟩ => show (z.val * 262144 + a.val) / 1 % 262144 = a.val; omega
  | ⟨1, _⟩ => rfl

theorem anc_v10 (x1 : (⟨S262144x4, .f32⟩ : BufTy).Contents (Elt Ideal)) (a : Fin 262144) (z : Fin 1) :
    val_main_v10 (F := Ideal) x1 (ix2 z a) = x1 (ix2 a 0) := by
  have hz : z.val < 1 := z.isLt
  have ha : a.val < 262144 := a.isLt
  rw [val_main_v10_apply, val_main_v9_apply, val_main_v6_apply]
  refine congrArg x1 ?_
  funext d; refine Fin.ext ?_
  match d with
  | ⟨0, _⟩ => show (z.val * 262144 + a.val) / 1 % 262144 = a.val; omega
  | ⟨1, _⟩ => rfl

theorem anc_v13 (x1 : (⟨S262144x4, .f32⟩ : BufTy).Contents (Elt Ideal)) (a : Fin 262144) (z : Fin 1) :
    val_main_v13 (F := Ideal) x1 (ix2 z a) = x1 (ix2 a 3) := by
  have hz : z.val < 1 := z.isLt
  have ha : a.val < 262144 := a.isLt
  rw [val_main_v13_apply, val_main_v12_apply, val_main_v6_apply]
  refine congrArg x1 ?_
  funext d; refine Fin.ext ?_
  match d with
  | ⟨0, _⟩ => show (z.val * 262144 + a.val) / 1 % 262144 = a.val; omega
  | ⟨1, _⟩ => rfl

theorem anc_v15 (x1 : (⟨S262144x4, .f32⟩ : BufTy).Contents (Elt Ideal)) (a : Fin 262144) (z : Fin 1) :
    val_main_v15 (F := Ideal) x1 (ix2 z a) = x1 (ix2 a 1) := by
  have hz : z.val < 1 := z.isLt
  have ha : a.val < 262144 := a.isLt
  rw [val_main_v15_apply, val_main_v14_apply, val_main_v6_apply]
  refine congrArg x1 ?_
  funext d; refine Fin.ext ?_
  match d with
  | ⟨0, _⟩ => show (z.val * 262144 + a.val) / 1 % 262144 = a.val; omega
  | ⟨1, _⟩ => rfl

theorem anc_v18 (x1 : (⟨S262144x4, .f32⟩ : BufTy).Contents (Elt Ideal)) (a : Fin 262144) (z : Fin 1) :
    val_main_v18 (F := Ideal) x1 (ix2 z a) = x1 (ix2 a 0) := by
  have hz : z.val < 1 := z.isLt
  have ha : a.val < 262144 := a.isLt
  rw [val_main_v18_apply, val_main_v17_apply, val_main_v6_apply]
  refine congrArg x1 ?_
  funext d; refine Fin.ext ?_
  match d with
  | ⟨0, _⟩ => show (z.val * 262144 + a.val) / 1 % 262144 = a.val; omega
  | ⟨1, _⟩ => rfl

theorem anc_v23 (x1 : (⟨S262144x4, .f32⟩ : BufTy).Contents (Elt Ideal)) (a : Fin 262144) (z : Fin 1) :
    val_main_v23 (F := Ideal) x1 (ix2 z a) = x1 (ix2 a 1) := by
  have hz : z.val < 1 := z.isLt
  have ha : a.val < 262144 := a.isLt
  rw [val_main_v23_apply, val_main_v22_apply, val_main_v6_apply]
  refine congrArg x1 ?_
  funext d; refine Fin.ext ?_
  match d with
  | ⟨0, _⟩ => show (z.val * 262144 + a.val) / 1 % 262144 = a.val; omega
  | ⟨1, _⟩ => rfl

/-! ## Columns of the selected box -/

theorem mbr_v28 (x2 : (⟨S16x128x4, .f32⟩ : BufTy).Contents (Elt Ideal)) (x3 : (⟨S16x262144, .i32⟩ : BufTy).Contents (Elt Ideal))
    (b : Fin 16) (a : Fin 262144) :
    val_main_v28 (F := Ideal) x2 x3 (ix2 b a) = val_main_v5 (F := Ideal) x2 x3 (ix3 b a 2) := by
  have hb : b.val < 16 := b.isLt
  have ha : a.val < 262144 := a.isLt
  rw [val_main_v28_apply, val_main_v27_apply]
  refine congrArg (val_main_v5 (F := Ideal) x2 x3) ?_
  funext d; refine Fin.ext ?_
  match d with
  | ⟨0, _⟩ => show (b.val * 262144 + a.val) / 262144 = b.val; omega
  | ⟨1, _⟩ => show (b.val * 262144 + a.val) / 1 % 262144 = a.val; omega
  | ⟨2, _⟩ => rfl

theorem mbr_v30 (x2 : (⟨S16x128x4, .f32⟩ : BufTy).Contents (Elt Ideal)) (x3 : (⟨S16x262144, .i32⟩ : BufTy).Contents (Elt Ideal))
    (b : Fin 16) (a : Fin 262144) :
    val_main_v30 (F := Ideal) x2 x3 (ix2 b a) = val_main_v5 (F := Ideal) x2 x3 (ix3 b a 0) := by
  have hb : b.val < 16 := b.isLt
  have ha : a.val < 262144 := a.isLt
  rw [val_main_v30_apply, val_main_v29_apply]
  refine congrArg (val_main_v5 (F := Ideal) x2 x3) ?_
  funext d; refine Fin.ext ?_
  match d with
  | ⟨0, _⟩ => show (b.val * 262144 + a.val) / 262144 = b.val; omega
  | ⟨1, _⟩ => show (b.val * 262144 + a.val) / 1 % 262144 = a.val; omega
  | ⟨2, _⟩ => rfl

theorem mbr_v33 (x2 : (⟨S16x128x4, .f32⟩ : BufTy).Contents (Elt Ideal)) (x3 : (⟨S16x262144, .i32⟩ : BufTy).Contents (Elt Ideal))
    (b : Fin 16) (a : Fin 262144) :
    val_main_v33 (F := Ideal) x2 x3 (ix2 b a) = val_main_v5 (F := Ideal) x2 x3 (ix3 b a 3) := by
  have hb : b.val < 16 := b.isLt
  have ha : a.val < 262144 := a.isLt
  rw [val_main_v33_apply, val_main_v32_apply]
  refine congrArg (val_main_v5 (F := Ideal) x2 x3) ?_
  funext d; refine Fin.ext ?_
  match d with
  | ⟨0, _⟩ => show (b.val * 262144 + a.val) / 262144 = b.val; omega
  | ⟨1, _⟩ => show (b.val * 262144 + a.val) / 1 % 262144 = a.val; omega
  | ⟨2, _⟩ => rfl

theorem mbr_v35 (x2 : (⟨S16x128x4, .f32⟩ : BufTy).Contents (Elt Ideal)) (x3 : (⟨S16x262144, .i32⟩ : BufTy).Contents (Elt Ideal))
    (b : Fin 16) (a : Fin 262144) :
    val_main_v35 (F := Ideal) x2 x3 (ix2 b a) = val_main_v5 (F := Ideal) x2 x3 (ix3 b a 1) := by
  have hb : b.val < 16 := b.isLt
  have ha : a.val < 262144 := a.isLt
  rw [val_main_v35_apply, val_main_v34_apply]
  refine congrArg (val_main_v5 (F := Ideal) x2 x3) ?_
  funext d; refine Fin.ext ?_
  match d with
  | ⟨0, _⟩ => show (b.val * 262144 + a.val) / 262144 = b.val; omega
  | ⟨1, _⟩ => show (b.val * 262144 + a.val) / 1 % 262144 = a.val; omega
  | ⟨2, _⟩ => rfl

theorem mbr_v38 (x2 : (⟨S16x128x4, .f32⟩ : BufTy).Contents (Elt Ideal)) (x3 : (⟨S16x262144, .i32⟩ : BufTy).Contents (Elt Ideal))
    (b : Fin 16) (a : Fin 262144) :
    val_main_v38 (F := Ideal) x2 x3 (ix2 b a) = val_main_v5 (F := Ideal) x2 x3 (ix3 b a 0) := by
  have hb : b.val < 16 := b.isLt
  have ha : a.val < 262144 := a.isLt
  rw [val_main_v38_apply, val_main_v37_apply]
  refine congrArg (val_main_v5 (F := Ideal) x2 x3) ?_
  funext d; refine Fin.ext ?_
  match d with
  | ⟨0, _⟩ => show (b.val * 262144 + a.val) / 262144 = b.val; omega
  | ⟨1, _⟩ => show (b.val * 262144 + a.val) / 1 % 262144 = a.val; omega
  | ⟨2, _⟩ => rfl

theorem mbr_v43 (x2 : (⟨S16x128x4, .f32⟩ : BufTy).Contents (Elt Ideal)) (x3 : (⟨S16x262144, .i32⟩ : BufTy).Contents (Elt Ideal))
    (b : Fin 16) (a : Fin 262144) :
    val_main_v43 (F := Ideal) x2 x3 (ix2 b a) = val_main_v5 (F := Ideal) x2 x3 (ix3 b a 1) := by
  have hb : b.val < 16 := b.isLt
  have ha : a.val < 262144 := a.isLt
  rw [val_main_v43_apply, val_main_v42_apply]
  refine congrArg (val_main_v5 (F := Ideal) x2 x3) ?_
  funext d; refine Fin.ext ?_
  match d with
  | ⟨0, _⟩ => show (b.val * 262144 + a.val) / 262144 = b.val; omega
  | ⟨1, _⟩ => show (b.val * 262144 + a.val) / 1 % 262144 = a.val; omega
  | ⟨2, _⟩ => rfl

/-! ## A broadcast of a one-row array reads row 0 -/

theorem idx_v47 (b : Fin 16) (a : Fin 262144) : idx_main_v47 (ix2 b a) = ix2 (0 : Fin 1) a := by
  funext d; match d with | ⟨0, _⟩ => rfl | ⟨1, _⟩ => rfl

theorem idx_v49 (b : Fin 16) (a : Fin 262144) : idx_main_v49 (ix2 b a) = ix2 (0 : Fin 1) a := by
  funext d; match d with | ⟨0, _⟩ => rfl | ⟨1, _⟩ => rfl

theorem idx_v51 (b : Fin 16) (a : Fin 262144) : idx_main_v51 (ix2 b a) = ix2 (0 : Fin 1) a := by
  funext d; match d with | ⟨0, _⟩ => rfl | ⟨1, _⟩ => rfl

theorem idx_v53 (b : Fin 16) (a : Fin 262144) : idx_main_v53 (ix2 b a) = ix2 (0 : Fin 1) a := by
  funext d; match d with | ⟨0, _⟩ => rfl | ⟨1, _⟩ => rfl

theorem idx_v55 (b : Fin 16) (a : Fin 262144) : idx_main_v55 (ix2 b a) = ix2 (0 : Fin 1) a := by
  funext d; match d with | ⟨0, _⟩ => rfl | ⟨1, _⟩ => rfl

theorem idx_v58 (b : Fin 16) (a : Fin 262144) : idx_main_v58 (ix2 b a) = ix2 (0 : Fin 1) a := by
  funext d; match d with | ⟨0, _⟩ => rfl | ⟨1, _⟩ => rfl

/-! ## A broadcast that appends a unit axis reads the index without it -/

theorem idx_v61 (b : Fin 16) (a : Fin 262144) (z : Fin 1) : idx_main_v61 (ix3 b a z) = ix2 b a := by
  funext d; match d with | ⟨0, _⟩ => rfl | ⟨1, _⟩ => rfl

theorem idx_v62 (b : Fin 16) (a : Fin 262144) (z : Fin 1) : idx_main_v62 (ix3 b a z) = ix2 b a := by
  funext d; match d with | ⟨0, _⟩ => rfl | ⟨1, _⟩ => rfl

theorem idx_v63 (b : Fin 16) (a : Fin 262144) (z : Fin 1) : idx_main_v63 (ix3 b a z) = ix2 b a := by
  funext d; match d with | ⟨0, _⟩ => rfl | ⟨1, _⟩ => rfl

theorem idx_v64 (b : Fin 16) (a : Fin 262144) (z : Fin 1) : idx_main_v64 (ix3 b a z) = ix2 b a := by
  funext d; match d with | ⟨0, _⟩ => rfl | ⟨1, _⟩ => rfl

end Cert.ReferenceIdeal.RefValue

end
-- ==== Proof.RefValue.lean ====
/-
  The reference's per-image value, read back index by index.

  For image `b` and anchor `a` with matched index `i`: the foreground bit is set exactly when `0 ≤ i`; the index the
  take reads with is `max i 0`, which is non-negative, so the wrap of a negative index is inert and the take's in-bounds
  bit says `max i 0 < 128`; the batched gather reads image `b`'s table at that index clamped into its 128 rows, so
  the selected box is the table's row when the index is in the table and the fill value, which reads as the junk value
  `⊥`, past it. The slices, reshapes and broadcasts only move coordinates: the four target stages are the box coder's four
  targets of that box against anchor `a`'s row, the concatenation puts target `k` in column `k`, the sum over the four
  columns is the L1 distance (its zero initial value drops out), the select keeps it for a foreground anchor and puts
  zero for a background one. The integer sum of the widened foreground bits is the number of foreground anchors (262144
  summands of 0 or 1 do not wrap a 32-bit word), its signed maximum with one is `max 1 count`, and the conversion to a
  float is exact. The quotient of the row sum by it is the specification's per-image value.
-/
import proofs.«430427_j12893491822714_3_alg».proof.Proof.RefValueLaid
import proofs.«430427_j12893491822714_3_alg».proof.Proof.Spec
import Idealize.ShloMosaic.Lib.StableHlo.Predicate
import Idealize.ShloMosaic.Lib.ValueIdx
import Idealize.ShloMosaic.Lib.Pipeline.Value
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open Cert.BoxLoss (clampIdx matchedR encode l1 cellR fgCount perImageR half)

/-! ## Words and bits -/

/-- The signed maximum of a word with zero has the maximum of the signed values. -/
theorem toInt_maxsi_zero (w : BitVec 32) : (IntOp.maxsi w 0#32).toInt = max w.toInt 0 := by
  have h0 : (0#32 : BitVec 32).toInt = 0 := by decide
  unfold IntOp.maxsi
  by_cases h : (0#32 : BitVec 32).slt w = true
  · rw [if_pos h]
    have : 0 < w.toInt := by simpa [BitVec.slt, h0] using h
    omega
  · rw [if_neg h, h0]
    have : ¬ 0 < w.toInt := by simpa [BitVec.slt, h0] using h
    omega

/-- A select on a decided bit is the conditional. -/
theorem select_decide {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- Conjunction with a set bit on the right is the identity. -/
theorem andi_one (v : BitVec 1) : IntOp.andi v 1#1 = v := by
  revert v; decide

/-! ## The foreground bit, the clamped index, the take's in-bounds bit -/

section Index
variable (x3 : (⟨S16x262144, .i32⟩ : BufTy).Contents (Elt Ideal)) (b : Fin 16) (a : Fin 262144)

/-- The foreground bit is set exactly where the matched index is non-negative. -/
theorem fg_at : val_main_v1 (F := Ideal) x3 (ix2 b a) = BitVec.ofBool (decide (0 ≤ (x3 (ix2 b a)).toInt)) := by
  have h0 : (0#32 : BitVec 32).toInt = 0 := by decide
  rw [val_main_v1_apply, val_main_v0_apply, val_main_c_apply]
  simp only [IntOp.cmpi, BitVec.sle, h0]

/-- The clamped index as a word. -/
theorem v3_at : val_main_v3 (F := Ideal) x3 (ix2 b a) = IntOp.maxsi (x3 (ix2 b a)) 0#32 := by
  rw [val_main_v3_apply, val_main_v2_apply, val_main_c_0_apply]

theorem idx_v4 (z : Fin 1) : idx_main_v4 (ix3 b a z) = ix2 b a := by
  funext d; match d with | ⟨0, _⟩ => rfl | ⟨1, _⟩ => rfl

/-- The index the take reads with: the clamp is non-negative, so the wrap of a negative index is inert. -/
theorem call0_v4_at : val_main_call0_v4 (F := Ideal) x3 (ix3 b a 0) = IntOp.maxsi (x3 (ix2 b a)) 0#32 := by
  have h0 : (0#32 : BitVec 32).toInt = 0 := by decide
  have hm := toInt_maxsi_zero (x3 (ix2 b a))
  rw [val_main_call0_v4_apply, val_main_call0_v1_apply, val_main_call0_v0_apply, val_main_call0_c_apply,
    val_main_v4_apply, idx_v4, v3_at]
  have hc : IntOp.cmpi .slt (IntOp.maxsi (x3 (ix2 b a)) 0#32) 0#32 = 0#1 := by
    simp only [IntOp.cmpi, BitVec.slt, h0, hm]
    rw [decide_eq_false (by omega)]; rfl
  rw [hc]; exact select_zero _ _

/-- The conjunction of the two range tests on the clamped index: it is below the table's 128 rows. -/
theorem v10_at : val_main_call0_v10 (F := Ideal) x3 (ix3 b a 0)
    = BitVec.ofBool (decide (clampIdx (x3 (ix2 b a)) < 128)) := by
  have h0 : (0#32 : BitVec 32).toInt = 0 := by decide
  have h127 : (127#32 : BitVec 32).toInt = 127 := by decide
  have hm := toInt_maxsi_zero (x3 (ix2 b a))
  rw [val_main_call0_v10_apply, val_main_call0_v6_apply, val_main_call0_v9_apply, val_main_call0_v5_apply,
    val_main_call0_c_2_apply, val_main_call0_v8_apply, val_main_call0_v7_apply, val_main_call0_c_1_apply, call0_v4_at]
  simp only [IntOp.cmpi, IntOp.andi, BitVec.sle, h0, h127, hm]
  have e1 : decide ((0 : Int) ≤ max (x3 (ix2 b a)).toInt 0) = true := decide_eq_true (by omega)
  have e2 : decide (max (x3 (ix2 b a)).toInt 0 ≤ 127) = decide (clampIdx (x3 (ix2 b a)) < 128) := by
    unfold Cert.BoxLoss.clampIdx
    by_cases h : max (x3 (ix2 b a)).toInt 0 ≤ 127
    · rw [decide_eq_true h, decide_eq_true (by omega)]
    · rw [decide_eq_false h, decide_eq_false (by omega)]
  rw [e1, e2]
  generalize decide (clampIdx (x3 (ix2 b a)) < 128) = q
  cases q <;> rfl

end Index

/-- An `and` over an axis of extent one, from a set initial bit, is the operand's one element there. -/
theorem reduce_andi_unit_axis (x : S16x262144x1.Idx → BitVec 1) (init : S_.Idx → BitVec 1)
    (h : S16x262144x1.ReducesTo [2] S16x262144) (hu : 0 < S_.numel) (hinit : init (Shape.Idx.first hu) = 1#1)
    (b : Fin 16) (a : Fin 262144) :
    Host.reduce IntOp.andi x init h hu (ix2 b a) = x (ix3 b a 0) := by
  classical
  have hv0 : ∀ i : S16x262144x1.Idx, ((h.drop i) 0 : Nat) = i 0 := fun i => Shape.ReducesTo.drop_apply_val h i 0
  have hv1 : ∀ i : S16x262144x1.Idx, ((h.drop i) 1 : Nat) = i 1 := fun i => Shape.ReducesTo.drop_apply_val h i 1
  have hset : (Finset.univ.filter fun i : S16x262144x1.Idx => h.drop i = ix2 b a) = {ix3 b a 0} := by
    ext i
    simp only [Finset.mem_filter, Finset.mem_univ, true_and, Finset.mem_singleton]
    constructor
    · intro e
      have e0 := hv0 i; have e1 := hv1 i
      rw [e] at e0 e1
      funext d
      match d with
      | ⟨0, _⟩ => exact Fin.ext e0.symm
      | ⟨1, _⟩ => exact Fin.ext e1.symm
      | ⟨2, h2⟩ =>
        refine Fin.ext ?_
        have hlt : (i ⟨2, h2⟩).val < 1 := (i ⟨2, h2⟩).isLt
        show (i ⟨2, h2⟩).val = 0
        omega
    · rintro rfl
      funext d
      match d with
      | ⟨0, _⟩ => exact Fin.ext (hv0 _)
      | ⟨1, _⟩ => exact Fin.ext (hv1 _)
  rw [Host.reduce_eq_fold, hset, Finset.fold_singleton, hinit]
  exact andi_one _

/-- The take's in-bounds bit: the clamped index is below the table's 128 rows. -/
theorem v11_at (x3 : (⟨S16x262144, .i32⟩ : BufTy).Contents (Elt Ideal)) (b : Fin 16) (a : Fin 262144) :
    val_main_call0_v11 (F := Ideal) x3 (ix2 b a) = BitVec.ofBool (decide (clampIdx (x3 (ix2 b a)) < 128)) := by
  unfold val_main_call0_v11
  rw [reduce_andi_unit_axis _ _ _ _ rfl, v10_at]

/-! ## The batched gather, read at an index -/

/-- The take's dimension numbers. -/
abbrev G := gather_S16x128x4_S16x262144x1_S16x262144x4_2_1_0_0_1_2_114

/-- The gather at `(b, a, c)`: image `b`'s table at the start index `idx[b, a, 0]`, read signed and clamped into
    the table's rows, column `c`. -/
theorem gather_at {α : Type} (x : S16x128x4.Idx → α) (idx : IVec S16x262144x1 32) (b : Fin 16) (a : Fin 262144) (c : Fin 4) :
    Host.gather G x idx (ix3 b a c)
      = x (ix3 b ⟨min (idx (ix3 b a 0)).toInt.toNat 127, by omega⟩ c) := by
  unfold Host.gather
  refine congrArg x ?_
  funext e
  refine Fin.ext ?_
  show G.start (ix3 b a c) idx e + G.batchCoord (ix3 b a c) e + G.offCoord (ix3 b a c) e = _
  match e with
  | ⟨0, _⟩ =>
    have hs : G.start (ix3 b a c) idx ⟨0, by decide⟩ = 0 := rfl
    have hb : G.batchCoord (ix3 b a c) ⟨0, by decide⟩ = b.val := rfl
    have ho : G.offCoord (ix3 b a c) ⟨0, by decide⟩ = 0 := rfl
    show G.start (ix3 b a c) idx ⟨0, by decide⟩ + G.batchCoord (ix3 b a c) ⟨0, by decide⟩ + G.offCoord (ix3 b a c) ⟨0, by decide⟩ = b.val
    rw [hs, hb, ho]; omega
  | ⟨1, _⟩ =>
    have hsi : G.siIdx (ix3 b a c) ⟨0, by decide⟩ = ix3 b a 0 := by
      funext d; refine Fin.ext ?_
      match d with
      | ⟨0, _⟩ => rfl
      | ⟨1, _⟩ => rfl
      | ⟨2, _⟩ => rfl
    have hstart : G.start (ix3 b a c) idx ⟨1, by decide⟩ = min (idx (ix3 b a 0)).toInt.toNat 127 := by
      rw [← hsi]; rfl
    have hb : G.batchCoord (ix3 b a c) ⟨1, by decide⟩ = 0 := rfl
    have ho : G.offCoord (ix3 b a c) ⟨1, by decide⟩ = 0 := rfl
    show G.start (ix3 b a c) idx ⟨1, by decide⟩ + G.batchCoord (ix3 b a c) ⟨1, by decide⟩ + G.offCoord (ix3 b a c) ⟨1, by decide⟩ = _
    rw [hstart, hb, ho]; rfl
  | ⟨2, _⟩ =>
    have hs : G.start (ix3 b a c) idx ⟨2, by decide⟩ = 0 := rfl
    have hb : G.batchCoord (ix3 b a c) ⟨2, by decide⟩ = 0 := rfl
    have ho : G.offCoord (ix3 b a c) ⟨2, by decide⟩ = c.val := rfl
    show G.start (ix3 b a c) idx ⟨2, by decide⟩ + G.batchCoord (ix3 b a c) ⟨2, by decide⟩ + G.offCoord (ix3 b a c) ⟨2, by decide⟩ = c.val
    rw [hs, hb, ho]; omega

/-- The same with the start word named. -/
theorem gather_at_of {α : Type} (x : S16x128x4.Idx → α) (idx : IVec S16x262144x1 32) (b : Fin 16) (a : Fin 262144) (c : Fin 4)
    (w : BitVec 32) (hw : idx (ix3 b a 0) = w) :
    Host.gather G x idx (ix3 b a c) = x (ix3 b ⟨min w.toInt.toNat 127, by omega⟩ c) := by
  subst hw; exact gather_at x idx b a c

/-! ## The matched box -/

theorem idx_call0_v13 (b : Fin 16) (a : Fin 262144) (c : Fin 4) : idx_main_call0_v13 (ix3 b a c) = ix2 b a := by
  funext d; match d with | ⟨0, _⟩ => rfl | ⟨1, _⟩ => rfl

/-- The fill value of the take is the junk value. -/
theorem fill_eq_bot : Ideal.ofBits .f32 0x7FC00000#32 = (⊥ : EReal) := by simp [Ideal.ofBits, Ideal.ieee]

/-- The matched box as the reference reads it: the table's row at the clamped index, the junk value past the table. -/
theorem v5_at (x2 : (⟨S16x128x4, .f32⟩ : BufTy).Contents (Elt Ideal)) (x3 : (⟨S16x262144, .i32⟩ : BufTy).Contents (Elt Ideal))
    (b : Fin 16) (a : Fin 262144) (c : Fin 4) :
    val_main_v5 (F := Ideal) x2 x3 (ix3 b a c) = matchedR x2 b (clampIdx (x3 (ix2 b a))) c := by
  rw [val_main_v5_apply, val_main_call0_v13_apply, idx_call0_v13, v11_at, select_decide,
    val_main_call0_v14_apply, val_main_call0_cst_apply]
  unfold val_main_call0_v12
  rw [gather_at_of _ _ b a c _ (call0_v4_at x3 b a)]
  unfold Cert.BoxLoss.matchedR
  by_cases h : clampIdx (x3 (ix2 b a)) < 128
  · rw [if_pos h, dif_pos h]
    have hk : min (IntOp.maxsi (x3 (ix2 b a)) 0#32).toInt.toNat 127 = clampIdx (x3 (ix2 b a)) := by
      rw [toInt_maxsi_zero]; unfold Cert.BoxLoss.clampIdx at h ⊢; omega
    exact congrArg (fun r => x2 (ix3 b r c)) (Fin.ext hk)
  · rw [if_neg h, dif_neg h]; exact fill_eq_bot

/-! ## Columns of the anchor table and of the matched box, read through the slices and reshapes -/

section Anchor
variable (x1 : (⟨S262144x4, .f32⟩ : BufTy).Contents (Elt Ideal)) (a : Fin 262144) (z : Fin 1)

/-- The anchor's width, height and centre, as the reference computes them on the one-row copy of the table. -/
theorem anc_w : val_main_v11 (F := Ideal) x1 (ix2 z a) = x1 (ix2 a 2) - x1 (ix2 a 0) := by
  rw [val_main_v11_apply, anc_v8, anc_v10]; rfl

theorem anc_h : val_main_v16 (F := Ideal) x1 (ix2 z a) = x1 (ix2 a 3) - x1 (ix2 a 1) := by
  rw [val_main_v16_apply, anc_v13, anc_v15]; rfl

theorem anc_cx : val_main_v21 (F := Ideal) x1 (ix2 z a) = x1 (ix2 a 0) + half * (x1 (ix2 a 2) - x1 (ix2 a 0)) := by
  rw [val_main_v21_apply, val_main_v20_apply, val_main_v19_apply, val_main_cst_apply, anc_v18, anc_w]; rfl

theorem anc_cy : val_main_v26 (F := Ideal) x1 (ix2 z a) = x1 (ix2 a 1) + half * (x1 (ix2 a 3) - x1 (ix2 a 1)) := by
  rw [val_main_v26_apply, val_main_v25_apply, val_main_v24_apply, val_main_cst_1_apply, anc_v23, anc_h]; rfl

end Anchor

section Matched
variable (x2 : (⟨S16x128x4, .f32⟩ : BufTy).Contents (Elt Ideal)) (x3 : (⟨S16x262144, .i32⟩ : BufTy).Contents (Elt Ideal))
  (b : Fin 16) (a : Fin 262144)

/-- The matched box's width, height and centre. -/
theorem mb_w : val_main_v31 (F := Ideal) x2 x3 (ix2 b a)
    = matchedR x2 b (clampIdx (x3 (ix2 b a))) 2 - matchedR x2 b (clampIdx (x3 (ix2 b a))) 0 := by
  rw [val_main_v31_apply, mbr_v28, mbr_v30, v5_at, v5_at]; rfl

theorem mb_h : val_main_v36 (F := Ideal) x2 x3 (ix2 b a)
    = matchedR x2 b (clampIdx (x3 (ix2 b a))) 3 - matchedR x2 b (clampIdx (x3 (ix2 b a))) 1 := by
  rw [val_main_v36_apply, mbr_v33, mbr_v35, v5_at, v5_at]; rfl

theorem mb_cx : val_main_v41 (F := Ideal) x2 x3 (ix2 b a)
    = matchedR x2 b (clampIdx (x3 (ix2 b a))) 0
      + half * (matchedR x2 b (clampIdx (x3 (ix2 b a))) 2 - matchedR x2 b (clampIdx (x3 (ix2 b a))) 0) := by
  rw [val_main_v41_apply, val_main_v40_apply, val_main_v39_apply, val_main_cst_2_apply, mbr_v38, v5_at, mb_w]; rfl

theorem mb_cy : val_main_v46 (F := Ideal) x2 x3 (ix2 b a)
    = matchedR x2 b (clampIdx (x3 (ix2 b a))) 1
      + half * (matchedR x2 b (clampIdx (x3 (ix2 b a))) 3 - matchedR x2 b (clampIdx (x3 (ix2 b a))) 1) := by
  rw [val_main_v46_apply, val_main_v45_apply, val_main_v44_apply, val_main_cst_3_apply, mbr_v43, v5_at, mb_h]; rfl

end Matched

/-! ## The box coder's four targets -/

section Encode
variable (x1 : (⟨S262144x4, .f32⟩ : BufTy).Contents (Elt Ideal)) (x2 : (⟨S16x128x4, .f32⟩ : BufTy).Contents (Elt Ideal))
  (x3 : (⟨S16x262144, .i32⟩ : BufTy).Contents (Elt Ideal)) (b : Fin 16) (a : Fin 262144)

/-- The first target: the offset of the centres' first coordinates over the anchor's width. -/
theorem enc0 : val_main_v50 (F := Ideal) x1 x2 x3 (ix2 b a)
    = encode (matchedR x2 b (clampIdx (x3 (ix2 b a)))) (fun k => x1 (ix2 a k)) 0 := by
  rw [val_main_v50_apply, val_main_v48_apply, mb_cx, val_main_v47_apply, idx_v47, anc_cx,
    val_main_v49_apply, idx_v49, anc_w]
  rfl

/-- The second target: the offset of the centres' second coordinates over the anchor's height. -/
theorem enc1 : val_main_v54 (F := Ideal) x1 x2 x3 (ix2 b a)
    = encode (matchedR x2 b (clampIdx (x3 (ix2 b a)))) (fun k => x1 (ix2 a k)) 1 := by
  rw [val_main_v54_apply, val_main_v52_apply, mb_cy, val_main_v51_apply, idx_v51, anc_cy,
    val_main_v53_apply, idx_v53, anc_h]
  rfl

/-- The third target: the logarithm of the widths' ratio. -/
theorem enc2 : val_main_v57 (F := Ideal) x1 x2 x3 (ix2 b a)
    = encode (matchedR x2 b (clampIdx (x3 (ix2 b a)))) (fun k => x1 (ix2 a k)) 2 := by
  rw [val_main_v57_apply, val_main_v56_apply, mb_w, val_main_v55_apply, idx_v55, anc_w]
  rfl

/-- The fourth target: the logarithm of the heights' ratio. -/
theorem enc3 : val_main_v60 (F := Ideal) x1 x2 x3 (ix2 b a)
    = encode (matchedR x2 b (clampIdx (x3 (ix2 b a)))) (fun k => x1 (ix2 a k)) 3 := by
  rw [val_main_v60_apply, val_main_v59_apply, mb_h, val_main_v58_apply, idx_v58, anc_h]
  rfl

end Encode

/-! ## The four targets joined along the last axis -/

/-- Four one-column pieces joined along the last axis: column `k` of the result is piece `k`. -/
theorem concat4_at {α : Type} (y0 y1 y2 y3 : S16x262144x1.Idx → α)
    (h : Shape.Concatenates [S16x262144x1, S16x262144x1, S16x262144x1, S16x262144x1] S16x262144x4 2)
    (b : Fin 16) (a : Fin 262144) :
    concatenate S16x262144x4 2 [⟨S16x262144x1, y0⟩, ⟨S16x262144x1, y1⟩, ⟨S16x262144x1, y2⟩, ⟨S16x262144x1, y3⟩] h (ix3 b a 0) = y0 (ix3 b a 0)
    ∧ concatenate S16x262144x4 2 [⟨S16x262144x1, y0⟩, ⟨S16x262144x1, y1⟩, ⟨S16x262144x1, y2⟩, ⟨S16x262144x1, y3⟩] h (ix3 b a 1) = y1 (ix3 b a 0)
    ∧ concatenate S16x262144x4 2 [⟨S16x262144x1, y0⟩, ⟨S16x262144x1, y1⟩, ⟨S16x262144x1, y2⟩, ⟨S16x262144x1, y3⟩] h (ix3 b a 2) = y2 (ix3 b a 0)
    ∧ concatenate S16x262144x4 2 [⟨S16x262144x1, y0⟩, ⟨S16x262144x1, y1⟩, ⟨S16x262144x1, y2⟩, ⟨S16x262144x1, y3⟩] h (ix3 b a 3) = y3 (ix3 b a 0) := by
  have hr : S16x262144x1.rank = S16x262144x4.rank := rfl
  have off : ∀ (k : Fin 4) (d : Fin S16x262144x1.rank), d.cast hr ≠ (2 : Fin S16x262144x4.rank) →
      ((ix3 b a (0 : Fin 1) : S16x262144x1.Idx) d).val = ((ix3 b a k : S16x262144x4.Idx) (d.cast hr)).val := by
    intro k d hd
    match d, hd with
    | ⟨0, _⟩, _ => rfl
    | ⟨1, _⟩, _ => rfl
    | ⟨2, _⟩, hd => exact absurd (Fin.ext rfl) hd
  have key := concatenate_apply_piece (α := α) (t := S16x262144x4) 2
    [⟨S16x262144x1, y0⟩, ⟨S16x262144x1, y1⟩, ⟨S16x262144x1, y2⟩, ⟨S16x262144x1, y3⟩] h
  refine ⟨?_, ?_, ?_, ?_⟩
  · exact key (ix3 b a 0) 0 (by show (0 : Nat) < 4; omega) S16x262144x1 y0 rfl hr 0 rfl (ix3 b a 0) (off 0) rfl
  · exact key (ix3 b a 1) 1 (by show (1 : Nat) < 4; omega) S16x262144x1 y1 rfl hr 1 rfl (ix3 b a 0) (off 1) rfl
  · exact key (ix3 b a 2) 2 (by show (2 : Nat) < 4; omega) S16x262144x1 y2 rfl hr 2 rfl (ix3 b a 0) (off 2) rfl
  · exact key (ix3 b a 3) 3 (by show (3 : Nat) < 4; omega) S16x262144x1 y3 rfl hr 3 rfl (ix3 b a 0) (off 3) rfl

section Loss
variable (x0 : (⟨S16x262144x4, .f32⟩ : BufTy).Contents (Elt Ideal)) (x1 : (⟨S262144x4, .f32⟩ : BufTy).Contents (Elt Ideal))
  (x2 : (⟨S16x128x4, .f32⟩ : BufTy).Contents (Elt Ideal)) (x3 : (⟨S16x262144, .i32⟩ : BufTy).Contents (Elt Ideal))
  (b : Fin 16) (a : Fin 262144)

/-- The joined targets at `(b, a, k)` are the box coder's `k`-th target. -/
theorem targets_at (k : Fin 4) : val_main_v65 (F := Ideal) x1 x2 x3 (ix3 b a k)
    = encode (matchedR x2 b (clampIdx (x3 (ix2 b a)))) (fun k => x1 (ix2 a k)) k := by
  unfold val_main_v65
  obtain ⟨h0, h1, h2, h3⟩ := concat4_at (val_main_v61 (F := Ideal) x1 x2 x3) (val_main_v62 (F := Ideal) x1 x2 x3)
    (val_main_v63 (F := Ideal) x1 x2 x3) (val_main_v64 (F := Ideal) x1 x2 x3)
    concatenates_S16x262144x1_S16x262144x1_S16x262144x1_S16x262144x1_S16x262144x4_d2 b a
  match k with
  | ⟨0, _⟩ => exact h0.trans (by rw [val_main_v61_apply, idx_v61]; exact enc0 x1 x2 x3 b a)
  | ⟨1, _⟩ => exact h1.trans (by rw [val_main_v62_apply, idx_v62]; exact enc1 x1 x2 x3 b a)
  | ⟨2, _⟩ => exact h2.trans (by rw [val_main_v63_apply, idx_v63]; exact enc2 x1 x2 x3 b a)
  | ⟨3, _⟩ => exact h3.trans (by rw [val_main_v64_apply, idx_v64]; exact enc3 x1 x2 x3 b a)

theorem idx_v68 (k : Fin 4) : idx_main_v68 (ix2 b a) k = ix3 b a k := by
  funext d; match d with | ⟨0, _⟩ => rfl | ⟨1, _⟩ => rfl | ⟨2, _⟩ => rfl

/-- The anchor's L1 distance: the sum's zero initial value drops out. -/
theorem l1_at : val_main_v68 (F := Ideal) x0 x1 x2 x3 (ix2 b a)
    = l1 (matchedR x2 b (clampIdx (x3 (ix2 b a)))) (fun k => x1 (ix2 a k)) (fun k => x0 (ix3 b a k)) := by
  rw [val_main_v68_apply, val_main_cst_4_apply]
  show Ideal.ofBits .f32 0x00000000#32 + _ = _
  rw [Ideal.ofBits_zero_f32, zero_add]
  unfold Cert.BoxLoss.l1
  refine Finset.sum_congr rfl fun k _ => ?_
  rw [idx_v68, val_main_v67_apply, val_main_v66_apply, targets_at]
  rfl

/-- The anchor's loss: its L1 distance when foreground, zero when background. -/
theorem cell_at : val_main_v69 (F := Ideal) x0 x1 x2 x3 (ix2 b a) = cellR x0 x1 x2 x3 b a := by
  rw [val_main_v69_apply, fg_at, select_decide, l1_at, val_main_call1_v1_apply, val_main_call1_v0_apply,
    val_main_cst_5_apply]
  show (if 0 ≤ (x3 (ix2 b a)).toInt then _ else Ideal.ofBits .f32 0x00000000#32) = _
  rw [Ideal.ofBits_zero_f32]
  rfl

theorem idx_v72 (k : Fin 262144) : idx_main_v72 (ix1 b) k = ix2 b k := by
  funext d; match d with | ⟨0, _⟩ => rfl | ⟨1, _⟩ => rfl

/-- The image's summed loss. -/
theorem rowsum_at : val_main_v72 (F := Ideal) x0 x1 x2 x3 (ix1 b) = ∑ a : Fin 262144, cellR x0 x1 x2 x3 b a := by
  rw [val_main_v72_apply, val_main_cst_7_apply]
  show Ideal.ofBits .f32 0x00000000#32 + _ = _
  rw [Ideal.ofBits_zero_f32, zero_add]
  refine Finset.sum_congr rfl fun k _ => ?_
  rw [idx_v72, cell_at]

end Loss

/-! ## The foreground count and the divide -/

/-- The signed maximum of one with a word has the maximum of the signed values. -/
theorem toInt_maxsi_one (c : BitVec 32) : (IntOp.maxsi 1#32 c).toInt = max 1 c.toInt := by
  have h1 : (1#32 : BitVec 32).toInt = 1 := by decide
  unfold IntOp.maxsi
  by_cases h : c.slt 1#32 = true
  · rw [if_pos h, h1]
    have : c.toInt < 1 := by simpa [BitVec.slt, h1] using h
    omega
  · rw [if_neg h]
    have : ¬ c.toInt < 1 := by simpa [BitVec.slt, h1] using h
    omega

theorem ij_eq_ix2 {n m : Nat} (p : Fin n) (q : Fin m) : StableHlo.Predicate.ij p q = ix2 p q := by
  funext d; match d with | ⟨0, _⟩ => rfl | ⟨1, _⟩ => rfl

section Count
variable (x3 : (⟨S16x262144, .i32⟩ : BufTy).Contents (Elt Ideal)) (b : Fin 16)

/-- The integer sum of the widened foreground bits is the number of foreground anchors: 262144 summands of 0 or 1
    do not wrap a 32-bit word. -/
theorem count_toNat : (val_main_v71 (F := Ideal) x3 (ix1 b)).toNat = fgCount x3 b := by
  have hc := StableHlo.Predicate.toNat_reduce_count_cols (n := 16) (m := 262144) (by norm_num)
    (val_main_v1 (F := Ideal) x3) natLt_1_32 reducesTo_S16x262144_S16_d1 h_S_ (ix1 b)
  refine hc.trans ?_
  unfold Cert.BoxLoss.fgCount
  refine congrArg Finset.card (Finset.filter_congr fun q _ => ?_)
  show val_main_v1 (F := Ideal) x3 (StableHlo.Predicate.ij b q) = 1#1 ↔ _
  rw [ij_eq_ix2, fg_at, StableHlo.Predicate.ofBool_eq_one_iff, decide_eq_true_eq]

theorem count_le : fgCount x3 b ≤ 262144 := by
  unfold Cert.BoxLoss.fgCount
  exact (Finset.card_le_univ _).trans (by simp)

/-- The divisor: the count clamped below at one, made a float exactly. -/
theorem divisor_at : val_main_v75 (F := Ideal) x3 (ix1 b) = (((max 1 (fgCount x3 b) : ℕ) : ℝ) : EReal) := by
  rw [val_main_v75_apply, val_main_v74_apply, val_main_v73_apply, val_main_c_8_apply]
  have hn := count_toNat x3 b
  have hle := count_le x3 b
  have hi : (val_main_v71 (F := Ideal) x3 (ix1 b)).toInt = (fgCount x3 b : ℤ) := by
    rw [StableHlo.Predicate.toInt_eq_toNat_of_lt (by rw [hn]; omega), hn]
  have hm : (IntOp.maxsi 1#32 (val_main_v71 (F := Ideal) x3 (ix1 b))).toInt = ((max 1 (fgCount x3 b) : ℕ) : ℤ) := by
    rw [toInt_maxsi_one, hi]; omega
  show (((IntOp.maxsi 1#32 (val_main_v71 (F := Ideal) x3 (ix1 b))).toInt : ℝ) : EReal) = _
  rw [hm, Int.cast_natCast]

end Count

/-- The reference's per-image value is the specification's. -/
theorem perImage_eq (x0 : (⟨S16x262144x4, .f32⟩ : BufTy).Contents (Elt Ideal)) (x1 : (⟨S262144x4, .f32⟩ : BufTy).Contents (Elt Ideal))
    (x2 : (⟨S16x128x4, .f32⟩ : BufTy).Contents (Elt Ideal)) (x3 : (⟨S16x262144, .i32⟩ : BufTy).Contents (Elt Ideal)) (b : Fin 16) :
    ReadP.val_main_v76 (F := Ideal) x0 x1 x2 x3 (ix1 b) = Cert.BoxLoss.perImageR x0 x1 x2 x3 b := by
  rw [val_main_v76_apply, rowsum_at, divisor_at]
  rfl

/-- The program's result as a function of the per-image values: their sum from a zero initial value, over sixteen. -/
theorem tail_eq (x0 : (⟨S16x262144x4, .f32⟩ : BufTy).Contents (Elt Ideal)) (x1 : (⟨S262144x4, .f32⟩ : BufTy).Contents (Elt Ideal))
    (x2 : (⟨S16x128x4, .f32⟩ : BufTy).Contents (Elt Ideal)) (x3 : (⟨S16x262144, .i32⟩ : BufTy).Contents (Elt Ideal)) :
    ReadP.val_main_v78 (F := Ideal) x0 x1 x2 x3
      = Host.divf (Host.reduceAdd (ReadP.val_main_v76 (F := Ideal) x0 x1 x2 x3)
          (constant (F := Ideal) S_ .f32 0x00000000#32) reducesTo_S16_S_d0 h_S_)
        (constant (F := Ideal) S_ .f32 0x41800000#32) := rfl

end Cert.ReferenceIdeal.RefValue

end
-- ==== Proof.Finite.lean ====
/-
  From the stated precondition to real-valued inputs.

  The precondition says, of each of the three float arrays, that every entry's absolute value is strictly below
  `+∞`, the three statements joined by `and`. At the extended reals the absolute value of `x` is `max x (-x)`,
  and `max x (-x) < ⊤` excludes both `x = ⊤` and `x = ⊥` (whose negation is `⊤`); what is left of the extended
  reals is the real line. So every entry of every float array is the image of a real number.
-/
import proofs.«430427_j12893491822714_3_alg».proof.Pre_finite_inputs
import Idealize.ShloMosaic.Lib.ReduceAll
import Idealize.ShloMosaic.Lib.ValueIdx
import Idealize.ShloMosaic.PureOps.Ideal

noncomputable section

namespace Cert.BoxLoss.Finite

open Idealize.ShloMosaic

/-- The pattern `0x7F800000` (sign 0, exponent all ones, fraction 0) denotes `+∞`. -/
theorem posInf_eq_top : Ideal.ofBits .f32 0x7F800000#32 = (⊤ : EReal) := by
  simp [Ideal.ofBits, Ideal.ieee]

/-- An extended real whose absolute value lies strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` answering 1 says that `x` is a real number. -/
theorem real_of_cmp (x : EReal)
    (h : Ideal.cmp .olt (max x (-x)) (Ideal.ofBits .f32 0x7F800000#32) = 1#1) : ∃ r : ℝ, x = (r : EReal) := by
  refine real_of_abs_lt_top x ?_
  rw [posInf_eq_top] at h
  by_contra hn
  simp [Ideal.cmp, hn] at h

/-- The result shape of a reduction over all axes has a single index. -/
instance : Subsingleton Cert.Pre_finite_inputs.S_.Idx := ⟨fun a b => funext fun d => d.elim0⟩

open Cert.Pre_finite_inputs in
/-- Under the precondition every entry of the three float arrays is a real number. -/
theorem finite_of_pre [hP : Cert.Pre_finite_inputs.Facts] (x0 : FVec Ideal S16x262144x4 .f32) (x1 : FVec Ideal S262144x4 .f32)
    (x2 : FVec Ideal S16x128x4 .f32) (x3 : IVec S16x262144 32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧
      (∀ i, ∃ r : ℝ, x2 i = (r : EReal)) := by
  have h0 := congrFun h ValueIdx.ix0
  dsimp only [Cert.Pre_finite_inputs.fn, andi] at h0
  obtain ⟨h01, h2⟩ := IntOp.andi_eq_one.1 h0
  obtain ⟨h0', h1⟩ := IntOp.andi_eq_one.1 h01
  refine ⟨fun i => ?_, fun i => ?_, fun i => ?_⟩
  · exact real_of_cmp _ (Host.reduce_andi_all _ _ _ _ _ h0' i)
  · exact real_of_cmp _ (Host.reduce_andi_all _ _ _ _ _ h1 i)
  · exact real_of_cmp _ (Host.reduce_andi_all _ _ _ _ _ h2 i)

end Cert.BoxLoss.Finite

end
-- ==== Proof.lean ====
/-
  The certificate: a RetinaNet box-regression loss kernel against its jnp reference, over the extended reals.

  Both programs compute, for each of sixteen images, the sum over 262144 anchors of the L1 distance between a predicted
  regression and the box coder's targets of the anchor's matched ground-truth box (zero for a background anchor, whose
  matched index is negative), divided by the number of foreground anchors clamped below at one; the result is the mean
  of the sixteen values.

  The kernel walks an image in 64 tiles of 4096 anchors, carrying the loss sum and the foreground count in two scalar
  accumulators that are reset at the image's first tile and divided at its last; it selects the matched box by a
  one-hot contraction over the 128 ground-truth rows, which is ZERO when the matched index is past the table. The
  reference gathers the row directly and takes the junk value `⊥` past the table. The two agree all the same: past
  the table the third L1 term is `|x - log (0 / w)| = ⊤` on one side and `|x - log (⊥ / w)| = ⊤` on the other, the
  remaining terms are `≥ 0`, so the anchor's loss is `⊤` either way (this uses that the regressions and the anchors are
  finite, which the precondition gives). Tile sums regroup to the sum over all anchors because addition on the
  extended reals is commutative and associative; the float count of foreground indicators is the integer count.

  The modules: `Spec` (the per-image value, written kernel-wise and reference-wise), `Algebra` (the two are equal),
  `Finite` (the precondition makes every float entry a real), `KPieces`, `KAccum`, `KFinal`, `KRun` (what the kernel's
  run leaves: the accumulators point by point, the output array, @main's result), `KPay`, `KBlocks`, `KClosed`,
  `KTail` (the body's arithmetic and the windows' blocks read at an index; the output entry is the spec's value),
  `RefStages`, `RefValue` (the reference's run and its stages read at an index).
-/
import proofs.«430427_j12893491822714_3_alg».proof.Defs
import proofs.«430427_j12893491822714_3_alg».proof.Proof.Gen.Kernel
import proofs.«430427_j12893491822714_3_alg».proof.Proof.Gen.Kernel.Frame
import proofs.«430427_j12893491822714_3_alg».proof.Proof.Gen.KernelIdeal
import proofs.«430427_j12893491822714_3_alg».proof.Proof.Gen.KernelIdeal.Frame
import proofs.«430427_j12893491822714_3_alg».proof.Proof.Gen.ReferenceIdeal
import proofs.«430427_j12893491822714_3_alg».proof.Proof.Gen.Pre_finite_inputs
import proofs.«430427_j12893491822714_3_alg».proof.Proof.KClosed
import proofs.«430427_j12893491822714_3_alg».proof.Proof.KRun
import proofs.«430427_j12893491822714_3_alg».proof.Proof.KTail
import proofs.«430427_j12893491822714_3_alg».proof.Proof.RefStages
import proofs.«430427_j12893491822714_3_alg».proof.Proof.RefValue
import proofs.«430427_j12893491822714_3_alg».proof.Proof.Finite
import Idealize.ShloMosaic.Adequacy
import Idealize.ShloMosaic.Init

noncomputable section

namespace Cert.Proof

open Idealize.ShloMosaic Idealize.SL.Sem Idealize.ShloMosaic.ValueIdx

/-- The reference's result is the kernel's: entry by entry the sixteen per-image values agree (reference-shaped value =
    kernel-shaped value under finiteness = the kernel's output entry), and both programs take the same mean of them. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) :
    Cert.ReferenceIdeal.ReadP.val_main_v78 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      = Cert.KernelIdeal.KValue.meanOf (Cert.KernelIdeal.KValue.outArr m c) := by
  obtain ⟨hX, hA, -⟩ := Cert.BoxLoss.Finite.finite_of_pre _ _ _ _ hpre
  rw [Cert.ReferenceIdeal.RefValue.tail_eq]
  have key : Cert.ReferenceIdeal.ReadP.val_main_v76 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      = shapeCast Cert.KernelIdeal.S16 (Cert.KernelIdeal.KValue.outArr m c) Cert.KernelIdeal.Gen.shapeCasts_S16x1x1_S16 := by
    funext j
    obtain ⟨b, rfl⟩ : ∃ b : Fin 16, j = ix1 b := ⟨j 0, eq_ix1 j⟩
    rw [Cert.ReferenceIdeal.RefValue.perImage_eq, ← Cert.BoxLoss.perImageK_eq_perImageR _ _ _ _ hX hA b,
      Cert.KernelIdeal.KValue.shapeCast_out, Cert.KernelIdeal.KValue.outArr_eq]
  rw [key]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefStages.run (F := Ideal) m ρ)

/-- The ideal pass rewrote nothing. -/
theorem preserves : Cert.preserves_Kernel_KernelIdeal := trivial

/-- From memories agreeing on the four arguments both programs run, and end with the same mean of per-image values. -/
theorem algebraic : Cert.algebraic_KernelIdeal_ReferenceIdeal := by
  intro m ρ m' ρ' hpre hagree
  refine ⟨fun c => Cert.KernelIdeal.KValue.meanOf (Cert.KernelIdeal.KValue.outArr m c),
    Cert.KernelIdeal.KValue.run (F := Ideal) m ρ, ?_⟩
  refine (θ_run Cert.ReferenceIdeal.defs _ _).mono (fun _ h c => ⟨(h c).1.trans ?_, (h c).2⟩)
    (Cert.ReferenceIdeal.RefStages.run (F := Ideal) m' ρ')
  rw [(hagree c).1, (hagree c).2.1, (hagree c).2.2.1, (hagree c).2.2.2]
  exact result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
